-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x1600000 : Shape := ⟨2, ![2, 1600000]⟩
abbrev S1600000x1 : Shape := ⟨2, ![1600000, 1]⟩
abbrev S50000 : Shape := ⟨1, ![50000]⟩
abbrev S512 : Shape := ⟨1, ![512]⟩
abbrev S9x1 : Shape := ⟨2, ![9, 1]⟩
abbrev S9 : Shape := ⟨1, ![9]⟩
abbrev S64x9 : Shape := ⟨2, ![64, 9]⟩
abbrev S64 : Shape := ⟨1, ![64]⟩
abbrev S64x64 : Shape := ⟨2, ![64, 64]⟩
abbrev S64x1 : Shape := ⟨2, ![64, 1]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S50000x9 : S_.BroadcastsInDim S50000x9 (![] : Fin 0 → Fin S50000x9.rank)
  reducesTo_S50000x9_S_d0_1 : S50000x9.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S512 : S_.BroadcastsInDim S512 (![] : Fin 0 → Fin S512.rank)
  reducesTo_S512_S_d0 : S512.ReducesTo [0] S_
  bcast_S_S50000 : S_.BroadcastsInDim S50000 (![] : Fin 0 → Fin S50000.rank)
  reducesTo_S50000_S_d0 : S50000.ReducesTo [0] S_
  bcast_S_S9x1 : S_.BroadcastsInDim S9x1 (![] : Fin 0 → Fin S9x1.rank)
  reducesTo_S9x1_S_d0_1 : S9x1.ReducesTo [0, 1] S_
  bcast_S_S9 : S_.BroadcastsInDim S9 (![] : Fin 0 → Fin S9.rank)
  reducesTo_S9_S_d0 : S9.ReducesTo [0] S_
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part6 {F : FTy → Type} [FloatOps F] (main_arg1 : IVec S2x1600000 32) (main_v98 : IVec S_ 1) (main_v102 : IVec S1600000 1) : IVec S_ 1 :=
  let main_v103 : IVec S1x1600000 32 := (extractStridedSlice S1x1600000 ![0, 0] · slices_S2x1600000_S1x1600000_0_0) main_arg1
  let main_v104 : IVec S1600000 32 := shapeCast S1600000 main_v103 shapeCasts_S1x1600000_S1600000
  let main_c_39 : IVec S_ 32 := constantI S_ 32 50000#32
  let main_v105 : IVec S1600000 32 := broadcastInDim S1600000 ![] bcast_S_S1600000 main_c_39
  let main_v106 : IVec S1600000 1 := cmpi .slt main_v104 main_v105
  let main_v107 : IVec S1600000 1 := andi main_v102 main_v106
  let main_c_40 : IVec S_ 1 := constantI S_ 1 1#1
  let main_v108 : IVec S_ 1 := (fun x v => Host.reduce IntOp.andi x v reducesTo_S1600000_S_d0 h_S_) main_v107 main_c_40
  let main_v109 : IVec S_ 1 := andi main_v98 main_v108
  main_v109

def fn_part5 {F : FTy → Type} [FloatOps F] (main_arg1 : IVec S2x1600000 32) (main_arg21 : FVec F S1x32 .f32) (main_arg22 : FVec F S1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S1x32 .f32 := Host.absf main_arg21
  let main_cst_34 : FVec F S_ .f32 := constant S_ .f32 0x7F800000#32
  let main_v90 : FVec F S1x32 .f32 := broadcastInDim S1x32 ![] bcast_S_S1x32 main_cst_34
  let main_v91 : IVec S1x32 1 := cmpf .olt main_v89 main_v90
  let main_c_35 : IVec S_ 1 := constantI S_ 1 1#1
  let main_v92 : IVec S_ 1 := (fun x v => Host.reduce IntOp.andi x v reducesTo_S1x32_S_d0_1 h_S_) main_v91 main_c_35
  let main_v93 : IVec S_ 1 := andi main_v88 main_v92
  let main_v94 : FVec F S1 .f32 := Host.absf main_arg22
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : IVec S1x1600000 32 := (extractStridedSlice S1x1600000 ![0, 0] · slices_S2x1600000_S1x1600000_0_0) main_arg1
  let main_v100 : IVec S1600000 32 := shapeCast S1600000 main_v99 shapeCasts_S1x1600000_S1600000
  let main_c_38 : IVec S_ 32 := constantI S_ 32 0#32
  let main_v101 : IVec S1600000 32 := broadcastInDim S1600000 ![] bcast_S_S1600000 main_c_38
  let main_v102 : IVec S1600000 1 := cmpi .sge main_v100 main_v101
  fn_part6 (F := F) main_arg1 main_v98 main_v102

def fn_part4 {F : FTy → Type} [FloatOps F] (main_arg1 : IVec S2x1600000 32) (main_arg17 : FVec F S64x64 .f32) (main_arg18 : FVec F S64 .f32) (main_arg19 : FVec F S32x64 .f32) (main_arg20 : FVec F S32 .f32) (main_arg21 : FVec F S1x32 .f32) (main_arg22 : FVec F S1 .f32) (main_v63 : IVec S_ 1) (main_v67 : IVec S_ 1) : IVec S_ 1 :=
  let main_v68 : IVec S_ 1 := andi main_v63 main_v67
  let main_v69 : FVec F S64x64 .f32 := Host.absf main_arg17
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg18
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S32x64 .f32 := Host.absf main_arg19
  let main_cst_30 : FVec F S_ .f32 := constant S_ .f32 0x7F800000#32
  let main_v80 : FVec F S32x64 .f32 := broadcastInDim S32x64 ![] bcast_S_S32x64 main_cst_30
  let main_v81 : IVec S32x64 1 := cmpf .olt main_v79 main_v80
  let main_c_31 : IVec S_ 1 := constantI S_ 1 1#1
  let main_v82 : IVec S_ 1 := (fun x v => Host.reduce IntOp.andi x v reducesTo_S32x64_S_d0_1 h_S_) main_v81 main_c_31
  let main_v83 : IVec S_ 1 := andi main_v78 main_v82
  let main_v84 : FVec F S32 .f32 := Host.absf main_arg20
  let main_cst_32 : FVec F S_ .f32 := constant S_ .f32 0x7F800000#32
  fn_part5 (F := F) main_arg1 main_arg21 main_arg22 main_v83 main_v84 main_cst_32

def fn_part3 {F : FTy → Type} [FloatOps F] (main_arg1 : IVec S2x1600000 32) (main_arg14 : FVec F S64 .f32) (main_arg15 : FVec F S64x64 .f32) (main_arg16 : FVec F S64 .f32) (main_arg17 : FVec F S64x64 .f32) (main_arg18 : FVec F S64 .f32) (main_arg19 : FVec F S32x64 .f32) (main_arg20 : FVec F S32 .f32) (main_arg21 : FVec F S1x32 .f32) (main_arg22 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg15
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg17 main_arg18 main_arg19 main_arg20 main_arg21 main_arg22 main_v63 main_v67

def fn_part2 {F : FTy → Type} [FloatOps F] (main_arg1 : IVec S2x1600000 32) (main_arg10 : FVec F S64 .f32) (main_arg11 : FVec F S64x64 .f32) (main_arg12 : FVec F S64 .f32) (main_arg13 : FVec F S64x1 .f32) (main_arg14 : FVec F S64 .f32) (main_arg15 : FVec F S64x64 .f32) (main_arg16 : FVec F S64 .f32) (main_arg17 : FVec F S64x64 .f32) (main_arg18 : FVec F S64 .f32) (main_arg19 : FVec F S32x64 .f32) (main_arg20 : FVec F S32 .f32) (main_arg21 : FVec F S1x32 .f32) (main_arg22 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg11
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg13
  let main_cst_18 : FVec F S_ .f32 := constant S_ .f32 0x7F800000#32
  let main_v50 : FVec F S64x1 .f32 := broadcastInDim S64x1 ![] bcast_S_S64x1 main_cst_18
  fn_part3 (F := F) main_arg1 main_arg14 main_arg15 main_arg16 main_arg17 main_arg18 main_arg19 main_arg20 main_arg21 main_arg22 main_v48 main_v49 main_v50

def fn_part1 {F : FTy → Type} [FloatOps F] (main_arg1 : IVec S2x1600000 32) (main_arg7 : FVec F S9x1 .f32) (main_arg8 : FVec F S9 .f32) (main_arg9 : FVec F S64x9 .f32) (main_arg10 : FVec F S64 .f32) (main_arg11 : FVec F S64x64 .f32) (main_arg12 : FVec F S64 .f32) (main_arg13 : FVec F S64x1 .f32) (main_arg14 : FVec F S64 .f32) (main_arg15 : FVec F S64x64 .f32) (main_arg16 : FVec F S64 .f32) (main_arg17 : FVec F S64x64 .f32) (main_arg18 : FVec F S64 .f32) (main_arg19 : FVec F S32x64 .f32) (main_arg20 : FVec F S32 .f32) (main_arg21 : FVec F S1x32 .f32) (main_arg22 : FVec F S1 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S9x1 .f32 := Host.absf main_arg7
  let main_cst_6 : FVec F S_ .f32 := constant S_ .f32 0x7F800000#32
  let main_v20 : FVec F S9x1 .f32 := broadcastInDim S9x1 ![] bcast_S_S9x1 main_cst_6
  let main_v21 : IVec S9x1 1 := cmpf .olt main_v19 main_v20
  let main_c_7 : IVec S_ 1 := constantI S_ 1 1#1
  let main_v22 : IVec S_ 1 := (fun x v => Host.reduce IntOp.andi x v reducesTo_S9x1_S_d0_1 h_S_) main_v21 main_c_7
  let main_v23 : IVec S_ 1 := andi main_v18 main_v22
  let main_v24 : FVec F S9 .f32 := Host.absf main_arg8
  let main_cst_8 : FVec F S_ .f32 := constant S_ .f32 0x7F800000#32
  let main_v25 : FVec F S9 .f32 := broadcastInDim S9 ![] bcast_S_S9 main_cst_8
  let main_v26 : IVec S9 1 := cmpf .olt main_v24 main_v25
  let main_c_9 : IVec S_ 1 := constantI S_ 1 1#1
  let main_v27 : IVec S_ 1 := (fun x v => Host.reduce IntOp.andi x v reducesTo_S9_S_d0 h_S_) main_v26 main_c_9
  let main_v28 : IVec S_ 1 := andi main_v23 main_v27
  let main_v29 : FVec F S64x9 .f32 := Host.absf main_arg9
  let main_cst_10 : FVec F S_ .f32 := constant S_ .f32 0x7F800000#32
  let main_v30 : FVec F S64x9 .f32 := broadcastInDim S64x9 ![] bcast_S_S64x9 main_cst_10
  let main_v31 : IVec S64x9 1 := cmpf .olt main_v29 main_v30
  let main_c_11 : IVec S_ 1 := constantI S_ 1 1#1
  let main_v32 : IVec S_ 1 := (fun x v => Host.reduce IntOp.andi x v reducesTo_S64x9_S_d0_1 h_S_) main_v31 main_c_11
  let main_v33 : IVec S_ 1 := andi main_v28 main_v32
  fn_part2 (F := F) main_arg1 main_arg10 main_arg11 main_arg12 main_arg13 main_arg14 main_arg15 main_arg16 main_arg17 main_arg18 main_arg19 main_arg20 main_arg21 main_arg22 main_v33

def fn {F : FTy → Type} [FloatOps F] (main_arg0 : FVec F S50000x9 .f32) (main_arg1 : IVec S2x1600000 32) (main_arg2 : FVec F S1600000x1 .f32) (main_arg3 : IVec S50000 32) (main_arg4 : FVec F S512 .f32) (main_arg5 : IVec S50000 32) (main_arg6 : FVec F S50000 .f32) (main_arg7 : FVec F S9x1 .f32) (main_arg8 : FVec F S9 .f32) (main_arg9 : FVec F S64x9 .f32) (main_arg10 : FVec F S64 .f32) (main_arg11 : FVec F S64x64 .f32) (main_arg12 : FVec F S64 .f32) (main_arg13 : FVec F S64x1 .f32) (main_arg14 : FVec F S64 .f32) (main_arg15 : FVec F S64x64 .f32) (main_arg16 : FVec F S64 .f32) (main_arg17 : FVec F S64x64 .f32) (main_arg18 : FVec F S64 .f32) (main_arg19 : FVec F S32x64 .f32) (main_arg20 : FVec F S32 .f32) (main_arg21 : FVec F S1x32 .f32) (main_arg22 : FVec F S1 .f32) : IVec S_ 1 :=
  let main_v0 : FVec F S50000x9 .f32 := Host.absf main_arg0
  let main_cst : FVec F S_ .f32 := constant S_ .f32 0x7F800000#32
  let main_v1 : FVec F S50000x9 .f32 := broadcastInDim S50000x9 ![] bcast_S_S50000x9 main_cst
  let main_v2 : IVec S50000x9 1 := cmpf .olt main_v0 main_v1
  let main_c : IVec S_ 1 := constantI S_ 1 1#1
  let main_v3 : IVec S_ 1 := (fun x v => Host.reduce IntOp.andi x v reducesTo_S50000x9_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S50000 .f32 := Host.absf main_arg6
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg1 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x9 : Shape := ⟨2, ![50000, 9]⟩
abbrev S2x1600000 : Shape := ⟨2, ![2, 1600000]⟩
abbrev S1600000x1 : Shape := ⟨2, ![1600000, 1]⟩
abbrev S50000 : Shape := ⟨1, ![50000]⟩
abbrev S512 : Shape := ⟨1, ![512]⟩
abbrev S9x1 : Shape := ⟨2, ![9, 1]⟩
abbrev S9 : Shape := ⟨1, ![9]⟩
abbrev S64x9 : Shape := ⟨2, ![64, 9]⟩
abbrev S64 : Shape := ⟨1, ![64]⟩
abbrev S64x64 : Shape := ⟨2, ![64, 64]⟩
abbrev S64x1 : Shape := ⟨2, ![64, 1]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S1x9 : Shape := ⟨2, ![1, 9]⟩
abbrev S1600000x9 : Shape := ⟨2, ![1600000, 9]⟩
abbrev S_ : Shape := ⟨0, ![]⟩
abbrev S1x1 : Shape := ⟨2, ![1, 1]⟩
abbrev S9x64 : Shape := ⟨2, ![9, 64]⟩
abbrev S1x64 : Shape := ⟨2, ![1, 64]⟩
abbrev S50000x64 : Shape := ⟨2, ![50000, 64]⟩
abbrev S2000x9 : Shape := ⟨2, ![2000, 9]⟩
abbrev S2000x64 : Shape := ⟨2, ![2000, 64]⟩
abbrev S1600000x64 : Shape := ⟨2, ![1600000, 64]⟩
abbrev S50000x1 : Shape := ⟨2, ![50000, 1]⟩
abbrev S64x32 : Shape := ⟨2, ![64, 32]⟩
abbrev S32x1 : Shape := ⟨2, ![32, 1]⟩
abbrev S2000x1 : Shape := ⟨2, ![2000, 1]⟩
abbrev S2000x32 : Shape := ⟨2, ![2000, 32]⟩

abbrev nBuf : Space → Nat
  | .hbm => 149
  | .vmem => 30
  | .smem => 0
  | _ => 0

abbrev hbmTy0_0 (i : Nat) : BufTy := match i % 128 with
  | 0 => ⟨S50000x9, .f32⟩
  | 1 => ⟨S2x1600000, .i32⟩
  | 2 => ⟨S1600000x1, .f32⟩
  | 3 => ⟨S50000, .i32⟩
  | 4 => ⟨S512, .f32⟩
  | 5 => ⟨S50000, .i32⟩
  | 6 => ⟨S50000, .f32⟩
  | 7 => ⟨S9x1, .f32⟩
  | 8 => ⟨S9, .f32⟩
  | 9 => ⟨S64x9, .f32⟩
  | 10 => ⟨S64, .f32⟩
  | 11 => ⟨S64x64, .f32⟩
  | 12 => ⟨S64, .f32⟩
  | 13 => ⟨S64x1, .f32⟩
  | 14 => ⟨S64, .f32⟩
  | 15 => ⟨S64x64, .f32⟩
  | 16 => ⟨S64, .f32⟩
  | 17 => ⟨S64x64, .f32⟩
  | 18 => ⟨S64, .f32⟩
  | 19 => ⟨S32x64, .f32⟩
  | 20 => ⟨S32, .f32⟩
  | 21 => ⟨S1x32, .f32⟩
  | 22 => ⟨S1, .f32⟩
  | 23 => ⟨S1x1600000, .i32⟩
  | 24 => ⟨S1600000, .i32⟩
  | 25 => ⟨S1x1600000, .i32⟩
  | 26 => ⟨S1600000, .i32⟩
  | 27 => ⟨S1x9, .f32⟩
  | 28 => ⟨S1600000x9, .f32⟩
  | 29 => ⟨S1x9, .f32⟩
  | 30 => ⟨S1600000x9, .f32⟩
  | 31 => ⟨S1600000x9, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1, .i32⟩
  | 41 => ⟨S_, .i32⟩
  | 42 => ⟨S1600000x1, .i32⟩
  | 43 => ⟨S1600000x1, .i1⟩
  | 44 => ⟨S1x1, .i32⟩
  | 45 => ⟨S1600000x1, .i32⟩
  | 46 => ⟨S1600000x1, .i1⟩
  | 47 => ⟨S1600000x1, .i1⟩
  | 48 => ⟨S_, .i1⟩
  | 49 => ⟨S1600000, .i1⟩
  | 50 => ⟨S1600000x9, .f32⟩
  | 51 => ⟨S1600000x9, .i1⟩
  | 52 => ⟨S_, .f32⟩
  | 53 => ⟨S1600000x9, .f32⟩
  | 54 => ⟨S1600000x9, .f32⟩
  | 55 => ⟨S1600000x9, .f32⟩
  | 56 => ⟨S_, .f32⟩
  | 57 => ⟨S1600000x9, .f32⟩
  | 58 => ⟨S1600000x9, .f32⟩
  | 59 => ⟨S_, .f32⟩
  | 60 => ⟨S50000x9, .f32⟩
  | 61 => ⟨S1600000x1, .i32⟩
  | 62 => ⟨S50000x9, .f32⟩
  | 63 => ⟨S9x64, .f32⟩
  | 64 => ⟨S64x64, .f32⟩
  | 65 => ⟨S1x64, .f32⟩
  | 66 => ⟨S1x64, .f32⟩
  | 67 => ⟨S50000x64, .f32⟩
  | 68 => ⟨S1x64, .f32⟩
  | 69 => ⟨S1600000x64, .f32⟩
  | 70 => ⟨S1x64, .f32⟩
  | 71 => ⟨S1600000x64, .f32⟩
  | 72 => ⟨S1600000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1, .i32⟩
  | 82 => ⟨S_, .i32⟩
  | 83 => ⟨S1600000x1, .i32⟩
  | 84 => ⟨S1600000x1, .i1⟩
  | 85 => ⟨S1x1, .i32⟩
  | 86 => ⟨S1600000x1, .i32⟩
  | 87 => ⟨S1600000x1, .i1⟩
  | 88 => ⟨S1600000x1, .i1⟩
  | 89 => ⟨S_, .i1⟩
  | 90 => ⟨S1600000, .i1⟩
  | 91 => ⟨S1600000x64, .f32⟩
  | 92 => ⟨S1600000x64, .i1⟩
  | 93 => ⟨S_, .f32⟩
  | 94 => ⟨S1600000x64, .f32⟩
  | 95 => ⟨S1600000x64, .f32⟩
  | 96 => ⟨S1600000x64, .f32⟩
  | 97 => ⟨S_, .f32⟩
  | 98 => ⟨S1600000x64, .f32⟩
  | 99 => ⟨S1600000x64, .f32⟩
  | 100 => ⟨S_, .f32⟩
  | 101 => ⟨S50000x64, .f32⟩
  | 102 => ⟨S1600000x1, .i32⟩
  | 103 => ⟨S50000x64, .f32⟩
  | 104 => ⟨S50000x1, .i32⟩
  | 105 => ⟨S50000x1, .f32⟩
  | 106 => ⟨S50000x1, .f32⟩
  | 107 => ⟨S64x64, .f32⟩
  | 108 => ⟨S64x64, .f32⟩
  | 109 => ⟨S1x64, .f32⟩
  | 110 => ⟨S1x64, .f32⟩
  | 111 => ⟨S64x32, .f32⟩
  | 112 => ⟨S32x1, .f32⟩
  | 113 => ⟨S1x32, .f32⟩
  | 114 => ⟨S1x1, .f32⟩
  | 115 => ⟨S50000x1, .f32⟩
  | 116 => ⟨S50000x1, .f32⟩
  | 117 => ⟨S50000, .f32⟩
  | 118 => ⟨S_, .f32⟩
  | 119 => ⟨S512, .f32⟩
  | 120 => ⟨S50000x1, .i32⟩
  | 121 => ⟨S512, .f32⟩
  | 122 => ⟨S_, .i32⟩
  | 123 => ⟨S50000, .i32⟩
  | 124 => ⟨S50000, .i1⟩
  | 125 => ⟨S_, .i32⟩
  | 126 => ⟨S50000, .i32⟩
  | 127 => ⟨S50000, .i32⟩
  | _ => ⟨S50000x9, .f32⟩

abbrev hbmTy0_1 (i : Nat) : BufTy := match i % 128 with
  | 0 => ⟨S50000, .i32⟩
  | 1 => ⟨S50000x1, .i32⟩
  | 2 => ⟨S50000, .f32⟩
  | 3 => ⟨S_, .i32⟩
  | 4 => ⟨S50000, .i32⟩
  | 5 => ⟨S50000, .i1⟩
  | 6 => ⟨S_, .i32⟩
  | 7 => ⟨S50000, .i32⟩
  | 8 => ⟨S50000, .i32⟩
  | 9 => ⟨S50000, .i32⟩
  | 10 => ⟨S50000x1, .i32⟩
  | 11 => ⟨S50000, .f32⟩
  | 12 => ⟨S_, .f32⟩
  | 13 => ⟨S50000, .f32⟩
  | 14 => ⟨S50000, .f32⟩
  | 15 => ⟨S50000, .f32⟩
  | 16 => ⟨S_, .f32⟩
  | 17 => ⟨S50000, .f32⟩
  | 18 => ⟨S50000, .f32⟩
  | 19 => ⟨S50000, .f32⟩
  | 20 => ⟨S50000, .f32⟩
  | _ => ⟨S50000x9, .f32⟩

abbrev hbmTy (i : Nat) : BufTy := match i / 128 with
  | 0 => hbmTy0_0 i
  | 1 => hbmTy0_1 i
  | _ => ⟨S50000x9, .f32⟩

abbrev bufTy : (tb : Table) → Fin (tcTables nBuf tb) → BufTy
  | .hbm, ⟨i, _⟩ => hbmTy i
  | .local _ .vmem, ⟨0, _⟩ => ⟨S2000x9, .f32⟩
  | .local _ .vmem, ⟨1, _⟩ => ⟨S2000x9, .f32⟩
  | .local _ .vmem, ⟨2, _⟩ => ⟨S2000x9, .f32⟩
  | .local _ .vmem, ⟨3, _⟩ => ⟨S2000x9, .f32⟩
  | .local _ .vmem, ⟨4, _⟩ => ⟨S9x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S2000x1, .f32⟩
  | .local _ .vmem, ⟨19, _⟩ => ⟨S2000x1, .f32⟩
  | .local _ .vmem, ⟨20, _⟩ => ⟨S2000x1, .f32⟩
  | .local _ .vmem, ⟨21, _⟩ => ⟨S2000x1, .f32⟩
  | .local _ .vmem, ⟨22, _⟩ => ⟨S64x32, .f32⟩
  | .local _ .vmem, ⟨23, _⟩ => ⟨S1x32, .f32⟩
  | .local _ .vmem, ⟨24, _⟩ => ⟨S32x1, .f32⟩
  | .local _ .vmem, ⟨25, _⟩ => ⟨S1x1, .f32⟩
  | .local _ .vmem, ⟨26, _⟩ => ⟨S2000x1, .f32⟩
  | .local _ .vmem, ⟨27, _⟩ => ⟨S2000x1, .f32⟩
  | .local _ .vmem, ⟨28, _⟩ => ⟨S2000x1, .f32⟩
  | .local _ .vmem, ⟨29, _⟩ => ⟨S2000x1, .f32⟩
  | _, _ => ⟨S50000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_cst : Ref sig .tc := ⟨.hbm, 52, rfl⟩
abbrev main_call0_v15 : Ref sig .tc := ⟨.hbm, 53, rfl⟩
abbrev main_v9 : Ref sig .tc := ⟨.hbm, 54, rfl⟩
abbrev main_v10 : Ref sig .tc := ⟨.hbm, 55, rfl⟩
abbrev main_call1_cst : Ref sig .tc := ⟨.hbm, 56, rfl⟩
abbrev main_call1_v0 : Ref sig .tc := ⟨.hbm, 57, rfl⟩
abbrev main_v11 : Ref sig .tc := ⟨.hbm, 58, rfl⟩
abbrev main_cst : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v25 : Ref sig .tc := ⟨.hbm, 95, rfl⟩
abbrev main_v26 : Ref sig .tc := ⟨.hbm, 96, rfl⟩
abbrev main_call3_cst : Ref sig .tc := ⟨.hbm, 97, rfl⟩
abbrev main_call3_v0 : Ref sig .tc := ⟨.hbm, 98, rfl⟩
abbrev main_v27 : Ref sig .tc := ⟨.hbm, 99, rfl⟩
abbrev main_cst_0 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42_0 : Ref sig .tc := ⟨.hbm, 115, rfl⟩
abbrev main_v42_1 : Ref sig .tc := ⟨.hbm, 116, rfl⟩
abbrev main_v43 : Ref sig .tc := ⟨.hbm, 117, rfl⟩
abbrev main_cst_1 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_c : Ref sig .tc := ⟨.hbm, 122, rfl⟩
abbrev main_v47 : Ref sig .tc := ⟨.hbm, 123, rfl⟩
abbrev main_v48 : Ref sig .tc := ⟨.hbm, 124, rfl⟩
abbrev main_c_2 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_c_3 : Ref sig .tc := ⟨.hbm, 131, rfl⟩
abbrev main_v54 : Ref sig .tc := ⟨.hbm, 132, rfl⟩
abbrev main_v55 : Ref sig .tc := ⟨.hbm, 133, rfl⟩
abbrev main_c_4 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_cst_5 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_cst_6 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg12_1 : Ref sig .tc := ⟨.vmem, 27, rfl⟩
abbrev cc1_stg13_0 : Ref sig .tc := ⟨.vmem, 28, rfl⟩
abbrev cc1_stg13_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem12_1 : DmaSem sig := 27
abbrev cc1_sem13_0 : DmaSem sig := 28
abbrev cc1_sem13_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S64x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S32x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S2000x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S9x1_S1x9_1_0 : S9x1.Transposes [1, 0] S1x9
  bcast_S9_S1x9_1 : S9.BroadcastsInDim S1x9 (![1] : Fin 1 → Fin S1x9.rank)
  bcast_S1x9_S1600000x9_0_1 : S1x9.BroadcastsInDim S1600000x9 (![0, 1] : Fin 2 → Fin S1600000x9.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x9_0 : S1600000.BroadcastsInDim S1600000x9 (![0] : Fin 1 → Fin S1600000x9.rank)
  bcast_S_S1600000x9 : S_.BroadcastsInDim S1600000x9 (![] : Fin 0 → Fin S1600000x9.rank)
  bcast_S_S50000x9 : S_.BroadcastsInDim S50000x9 (![] : Fin 0 → Fin S50000x9.rank)
  transposes_S64x9_S9x64_1_0 : S64x9.Transposes [1, 0] S9x64
  transposes_S64x64_S64x64_1_0 : S64x64.Transposes [1, 0] S64x64
  shapeCasts_S64_S1x64 : S64.ShapeCasts S1x64
  inb_S2000x9_S2000x9_0_0 : ∀ a, (![0, 0] : Fin 2 → Nat) a + S2000x9.size a ≤ S2000x9.size a
  h_S2000x9 : 0 < S2000x9.numel
  shapeCasts_S2000x9_S2000x9 : S2000x9.ShapeCasts S2000x9
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  shapeCasts_S9x64_S9x64 : S9x64.ShapeCasts S9x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2000x64_S2000x64_0_0 : ∀ a, (![0, 0] : Fin 2 → Nat) a + S2000x64.size a ≤ S2000x64.size a
  h_S2000x64 : 0 < S2000x64.numel
  transposes_S64x1_S1x64_1_0 : S64x1.Transposes [1, 0] S1x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S50000x64 : S_.BroadcastsInDim S50000x64 (![] : Fin 0 → Fin S50000x64.rank)
  shapeCasts_S50000_S50000x1 : S50000.ShapeCasts S50000x1
  transposes_S32x64_S64x32_1_0 : S32x64.Transposes [1, 0] S64x32
  transposes_S1x32_S32x1_1_0 : S1x32.Transposes [1, 0] S32x1
  shapeCasts_S32_S1x32 : S32.ShapeCasts S1x32
  shapeCasts_S1_S1x1 : S1.ShapeCasts S1x1
  shapeCasts_S2000x64_S2000x64 : S2000x64.ShapeCasts S2000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S50000x1_S50000 : S50000x1.ShapeCasts S50000
  bcast_S_S512 : S_.BroadcastsInDim S512 (![] : Fin 0 → Fin S512.rank)
  bcast_S50000_S50000x1_0 : S50000.BroadcastsInDim S50000x1 (![0] : Fin 1 → Fin S50000x1.rank)
  bcast_S_S50000 : S_.BroadcastsInDim S50000 (![] : Fin 0 → Fin S50000.rank)
  dot_S1600000x1_S1x9_S1600000x9_1_0_0_1_n_n_wf : DotDims.WF S1600000x1 S1x9 S1600000x9 [1] [0] [0] [1] [] []
  gather_S50000x9_S1600000x1_S1600000x9_1_0_n_n_0_1_19_wf : GatherDims.WF S50000x9 S1600000x1 S1600000x9 [1] [0] [] [0] [] 1 ![1, 9]
  scatter_S50000x9_S1600000x1_S1600000x9_1_0_0_1_wf : ScatterDims.WF S50000x9 S1600000x1 S1600000x9 [1] [0] [0] 1
  dot_S2000x9_S9x64_S2000x64_1_0_0_1_n_n_wf : DotDims.WF S2000x9 S9x64 S2000x64 [1] [0] [0] [1] [] []
  dot_S2000x64_S64x64_S2000x64_1_0_0_1_n_n_wf : DotDims.WF S2000x64 S64x64 S2000x64 [1] [0] [0] [1] [] []
  dot_S1600000x1_S1x64_S1600000x64_1_0_0_1_n_n_wf : DotDims.WF S1600000x1 S1x64 S1600000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S2000x64_S64x32_S2000x32_1_0_0_1_n_n_wf : DotDims.WF S2000x64 S64x32 S2000x32 [1] [0] [0] [1] [] []
  dot_S2000x32_S32x1_S2000x1_1_0_0_1_n_n_wf : DotDims.WF S2000x32 S32x1 S2000x1 [1] [0] [0] [1] [] []
  scatter_S512_S50000x1_S50000_n_0_0_1_wf : ScatterDims.WF S512 S50000x1 S50000 [] [0] [0] 1
  gather_S512_S50000x1_S50000_n_0_n_n_0_1_1_wf : GatherDims.WF S512 S50000x1 S50000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x9.size a ≤ S50000x9.size a
  hwx0_0 : ∀ i : grid0.Coords, EltTy.bits .f32 = 32 ∨ (Rect.block (s := S50000x9) S2000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x9.size a ≤ S50000x9.size a
  hwx0_1 : ∀ i : grid0.Coords, EltTy.bits .f32 = 32 ∨ (Rect.block (s := S50000x9) S2000x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x64.size a ≤ S9x64.size a
  hwx0_2 : ∀ i : grid0.Coords, EltTy.bits .f32 = 32 ∨ (Rect.block (s := S9x64) S9x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S50000x64.size a
  hwx0_6 : ∀ i : grid0.Coords, EltTy.bits .f32 = 32 ∨ (Rect.block (s := S50000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x1.size a ≤ S50000x1.size a
  hwx1_6 : ∀ i : grid1.Coords, EltTy.bits .f32 = 32 ∨ (Rect.block (s := S50000x1) S2000x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S50000x1.size a
  hwx1_7 : ∀ i : grid1.Coords, EltTy.bits .f32 = 32 ∨ (Rect.block (s := S50000x1) S2000x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x32.size a ≤ S64x32.size a
  hwx1_8 : ∀ i : grid1.Coords, EltTy.bits .f32 = 32 ∨ (Rect.block (s := S64x32) S64x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x32.size a ≤ S1x32.size a
  hwx1_9 : ∀ i : grid1.Coords, EltTy.bits .f32 = 32 ∨ (Rect.block (s := S1x32) S1x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S32x1.size a ≤ S32x1.size a
  hwx1_10 : ∀ i : grid1.Coords, EltTy.bits .f32 = 32 ∨ (Rect.block (s := S32x1) S32x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x1.size a ≤ S50000x1.size a
  hwx1_12 : ∀ i : grid1.Coords, EltTy.bits .f32 = 32 ∨ (Rect.block (s := S50000x1) S2000x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x1.size a ≤ S50000x1.size a
  hwx1_13 : ∀ i : grid1.Coords, EltTy.bits .f32 = 32 ∨ (Rect.block (s := S50000x1) S2000x1.size (cc1_transform_13 i) (hinb1_13 i)).WholeWords (EltTy.packing .f32)

variable [Facts₀]

def dot_S1600000x1_S1x9_S1600000x9_1_0_0_1_n_n : DotDims S1600000x1 S1x9 S1600000x9 where
  lhsContracting := [1]
  rhsContracting := [0]
  lhsNonContracting := [0]
  rhsNonContracting := [1]
  lhsBatch := []
  rhsBatch := []
  wf := dot_S1600000x1_S1x9_S1600000x9_1_0_0_1_n_n_wf
def gather_S50000x9_S1600000x1_S1600000x9_1_0_n_n_0_1_19 : GatherDims S50000x9 S1600000x1 S1600000x9 where
  offsetDims := [1]
  collapsedSliceDims := [0]
  operandBatchingDims := []
  startIndicesBatchingDims := []
  startIndexMap := [0]
  indexVectorDim := 1
  sliceSizes := ![1, 9]
  wf := gather_S50000x9_S1600000x1_S1600000x9_1_0_n_n_0_1_19_wf
def scatter_S50000x9_S1600000x1_S1600000x9_1_0_0_1 : ScatterDims S50000x9 S1600000x1 S1600000x9 where
  updateWindowDims := [1]
  insertedWindowDims := [0]
  scatterDimsToOperandDims := [0]
  indexVectorDim := 1
  wf := scatter_S50000x9_S1600000x1_S1600000x9_1_0_0_1_wf
def dot_S2000x9_S9x64_S2000x64_1_0_0_1_n_n : DotDims S2000x9 S9x64 S2000x64 where
  lhsContracting := [1]
  rhsContracting := [0]
  lhsNonContracting := [0]
  rhsNonContracting := [1]
  lhsBatch := []
  rhsBatch := []
  wf := dot_S2000x9_S9x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S1600000x1_S1x64_S1600000x64_1_0_0_1_n_n : DotDims S1600000x1 S1x64 S1600000x64 where
  lhsContracting := [1]
  rhsContracting := [0]
  lhsNonContracting := [0]
  rhsNonContracting := [1]
  lhsBatch := []
  rhsBatch := []
  wf := dot_S1600000x1_S1x64_S1600000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def gather_S512_S50000x1_S50000_n_0_n_n_0_1_1 : GatherDims S512 S50000x1 S50000 where
  offsetDims := []
  collapsedSliceDims := [0]
  operandBatchingDims := []
  startIndicesBatchingDims := []
  startIndexMap := [0]
  indexVectorDim := 1
  sliceSizes := ![1]
  wf := gather_S512_S50000x1_S50000_n_0_n_n_0_1_1_wf

abbrev win0_0 : Pipeline.Window sig grid0 :=
  Pipeline.Window.ofSpec (Memref.whole main_arg0) S2000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S9x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S2000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v33) S2000x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v38) S64x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S1x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v39) S32x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v41) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v42_0) S2000x1.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v42_1) S2000x1.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S50000x9 : Shape := ⟨2, ![50000, 9]⟩
abbrev S2x1600000 : Shape := ⟨2, ![2, 1600000]⟩
abbrev S1600000x1 : Shape := ⟨2, ![1600000, 1]⟩
abbrev S50000 : Shape := ⟨1, ![50000]⟩
abbrev S512 : Shape := ⟨1, ![512]⟩
abbrev S9x1 : Shape := ⟨2, ![9, 1]⟩
abbrev S9 : Shape := ⟨1, ![9]⟩
abbrev S64x9 : Shape := ⟨2, ![64, 9]⟩
abbrev S64 : Shape := ⟨1, ![64]⟩
abbrev S64x64 : Shape := ⟨2, ![64, 64]⟩
abbrev S64x1 : Shape := ⟨2, ![64, 1]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S1x9 : Shape := ⟨2, ![1, 9]⟩
abbrev S1600000x9 : Shape := ⟨2, ![1600000, 9]⟩
abbrev S_ : Shape := ⟨0, ![]⟩
abbrev S9x64 : Shape := ⟨2, ![9, 64]⟩
abbrev S50000x64 : Shape := ⟨2, ![50000, 64]⟩
abbrev S1x64 : Shape := ⟨2, ![1, 64]⟩
abbrev S1600000x64 : Shape := ⟨2, ![1600000, 64]⟩
abbrev S64x32 : Shape := ⟨2, ![64, 32]⟩
abbrev S50000x32 : Shape := ⟨2, ![50000, 32]⟩
abbrev S32x1 : Shape := ⟨2, ![32, 1]⟩
abbrev S50000x1 : Shape := ⟨2, ![50000, 1]⟩
abbrev S1x1 : Shape := ⟨2, ![1, 1]⟩

abbrev nBuf : Space → Nat
  | .hbm => 163
  | .vmem => 0
  | .smem => 0
  | _ => 0

abbrev hbmTy0_0 (i : Nat) : BufTy := match i % 128 with
  | 0 => ⟨S50000x9, .f32⟩
  | 1 => ⟨S2x1600000, .i32⟩
  | 2 => ⟨S1600000x1, .f32⟩
  | 3 => ⟨S50000, .i32⟩
  | 4 => ⟨S512, .f32⟩
  | 5 => ⟨S50000, .i32⟩
  | 6 => ⟨S50000, .f32⟩
  | 7 => ⟨S9x1, .f32⟩
  | 8 => ⟨S9, .f32⟩
  | 9 => ⟨S64x9, .f32⟩
  | 10 => ⟨S64, .f32⟩
  | 11 => ⟨S64x64, .f32⟩
  | 12 => ⟨S64, .f32⟩
  | 13 => ⟨S64x1, .f32⟩
  | 14 => ⟨S64, .f32⟩
  | 15 => ⟨S64x64, .f32⟩
  | 16 => ⟨S64, .f32⟩
  | 17 => ⟨S64x64, .f32⟩
  | 18 => ⟨S64, .f32⟩
  | 19 => ⟨S32x64, .f32⟩
  | 20 => ⟨S32, .f32⟩
  | 21 => ⟨S1x32, .f32⟩
  | 22 => ⟨S1, .f32⟩
  | 23 => ⟨S1x1600000, .i32⟩
  | 24 => ⟨S1600000, .i32⟩
  | 25 => ⟨S1x1600000, .i32⟩
  | 26 => ⟨S1600000, .i32⟩
  | 27 => ⟨S1x9, .f32⟩
  | 28 => ⟨S1600000x9, .f32⟩
  | 29 => ⟨S1x9, .f32⟩
  | 30 => ⟨S1600000x9, .f32⟩
  | 31 => ⟨S1600000x9, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x9, .f32⟩
  | 41 => ⟨S1600000x9, .f32⟩
  | 42 => ⟨S_, .f32⟩
  | 43 => ⟨S1600000x9, .f32⟩
  | 44 => ⟨S1600000x9, .f32⟩
  | 45 => ⟨S_, .f32⟩
  | 46 => ⟨S50000x9, .f32⟩
  | 47 => ⟨S1600000x1, .i32⟩
  | 48 => ⟨S50000x9, .f32⟩
  | 49 => ⟨S50000x9, .f32⟩
  | 50 => ⟨S9x64, .f32⟩
  | 51 => ⟨S50000x64, .f32⟩
  | 52 => ⟨S1x64, .f32⟩
  | 53 => ⟨S50000x64, .f32⟩
  | 54 => ⟨S50000x64, .f32⟩
  | 55 => ⟨S_, .f32⟩
  | 56 => ⟨S50000x64, .f32⟩
  | 57 => ⟨S50000x64, .f32⟩
  | 58 => ⟨S64x64, .f32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S1x64, .f32⟩
  | 67 => ⟨S1600000x64, .f32⟩
  | 68 => ⟨S1x64, .f32⟩
  | 69 => ⟨S1600000x64, .f32⟩
  | 70 => ⟨S1600000x64, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x64, .f32⟩
  | 80 => ⟨S1600000x64, .f32⟩
  | 81 => ⟨S_, .f32⟩
  | 82 => ⟨S1600000x64, .f32⟩
  | 83 => ⟨S1600000x64, .f32⟩
  | 84 => ⟨S_, .f32⟩
  | 85 => ⟨S50000x64, .f32⟩
  | 86 => ⟨S1600000x1, .i32⟩
  | 87 => ⟨S50000x64, .f32⟩
  | 88 => ⟨S50000x64, .f32⟩
  | 89 => ⟨S64x64, .f32⟩
  | 90 => ⟨S50000x64, .f32⟩
  | 91 => ⟨S1x64, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S64x64, .f32⟩
  | 98 => ⟨S50000x64, .f32⟩
  | 99 => ⟨S1x64, .f32⟩
  | 100 => ⟨S50000x64, .f32⟩
  | 101 => ⟨S50000x64, .f32⟩
  | 102 => ⟨S_, .f32⟩
  | 103 => ⟨S50000x64, .f32⟩
  | 104 => ⟨S50000x64, .f32⟩
  | 105 => ⟨S64x32, .f32⟩
  | 106 => ⟨S50000x32, .f32⟩
  | 107 => ⟨S1x32, .f32⟩
  | 108 => ⟨S50000x32, .f32⟩
  | 109 => ⟨S50000x32, .f32⟩
  | 110 => ⟨S_, .f32⟩
  | 111 => ⟨S50000x32, .f32⟩
  | 112 => ⟨S50000x32, .f32⟩
  | 113 => ⟨S32x1, .f32⟩
  | 114 => ⟨S50000x1, .f32⟩
  | 115 => ⟨S1x1, .f32⟩
  | 116 => ⟨S50000x1, .f32⟩
  | 117 => ⟨S50000x1, .f32⟩
  | 118 => ⟨S50000x1, .f32⟩
  | 119 => ⟨S50000x1, .f32⟩
  | 120 => ⟨S_, .f32⟩
  | 121 => ⟨S50000x1, .f32⟩
  | 122 => ⟨S50000x1, .f32⟩
  | 123 => ⟨S_, .f32⟩
  | 124 => ⟨S50000x1, .f32⟩
  | 125 => ⟨S50000x1, .f32⟩
  | 126 => ⟨S50000, .f32⟩
  | 127 => ⟨S50000, .f32⟩
  | _ => ⟨S50000x9, .f32⟩

abbrev hbmTy0_1 (i : Nat) : BufTy := match i % 128 with
  | 0 => ⟨S_, .f32⟩
  | 1 => ⟨S50000, .f32⟩
  | 2 => ⟨S50000, .f32⟩
  | 3 => ⟨S50000, .f32⟩
  | 4 => ⟨S50000, .f32⟩
  | 5 => ⟨S_, .f32⟩
  | 6 => ⟨S512, .f32⟩
  | 7 => ⟨S50000x1, .i32⟩
  | 8 => ⟨S512, .f32⟩
  | 9 => ⟨S_, .i32⟩
  | 10 => ⟨S50000, .i32⟩
  | 11 => ⟨S50000, .i1⟩
  | 12 => ⟨S_, .i32⟩
  | 13 => ⟨S50000, .i32⟩
  | 14 => ⟨S50000, .i32⟩
  | 15 => ⟨S50000, .i32⟩
  | 16 => ⟨S50000x1, .i32⟩
  | 17 => ⟨S50000, .f32⟩
  | 18 => ⟨S_, .i32⟩
  | 19 => ⟨S50000, .i32⟩
  | 20 => ⟨S50000, .i1⟩
  | 21 => ⟨S_, .i32⟩
  | 22 => ⟨S50000, .i32⟩
  | 23 => ⟨S50000, .i32⟩
  | 24 => ⟨S50000, .i32⟩
  | 25 => ⟨S50000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .f32⟩
  | 32 => ⟨S50000, .f32⟩
  | 33 => ⟨S50000, .f32⟩
  | 34 => ⟨S50000, .f32⟩
  | _ => ⟨S50000x9, .f32⟩

abbrev hbmTy (i : Nat) : BufTy := match i / 128 with
  | 0 => hbmTy0_0 i
  | 1 => hbmTy0_1 i
  | _ => ⟨S50000x9, .f32⟩

abbrev bufTy : (tb : Table) → Fin (tcTables nBuf tb) → BufTy
  | .hbm, ⟨i, _⟩ => hbmTy i
  | _, _ => ⟨S50000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call0_cst : Ref sig .tc := ⟨.hbm, 42, rfl⟩
abbrev main_call0_v0 : Ref sig .tc := ⟨.hbm, 43, rfl⟩
abbrev main_v17 : Ref sig .tc := ⟨.hbm, 44, rfl⟩
abbrev main_cst : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call1_cst : Ref sig .tc := ⟨.hbm, 55, rfl⟩
abbrev main_call1_v0 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_call2_cst : Ref sig .tc := ⟨.hbm, 63, rfl⟩
abbrev main_call2_v0 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_1 : Ref sig .tc := ⟨.hbm, 71, rfl⟩
abbrev main_v39 : Ref sig .tc := ⟨.hbm, 72, rfl⟩
abbrev main_v40 : Ref sig .tc := ⟨.hbm, 73, rfl⟩
abbrev main_c_2 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call3_cst : Ref sig .tc := ⟨.hbm, 81, rfl⟩
abbrev main_call3_v0 : Ref sig .tc := ⟨.hbm, 82, rfl⟩
abbrev main_v47 : Ref sig .tc := ⟨.hbm, 83, rfl⟩
abbrev main_cst_3 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_call4_cst : Ref sig .tc := ⟨.hbm, 94, rfl⟩
abbrev main_call4_v0 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call5_cst : Ref sig .tc := ⟨.hbm, 102, rfl⟩
abbrev main_call5_v0 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_call6_cst : Ref sig .tc := ⟨.hbm, 110, rfl⟩
abbrev main_call6_v0 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_4 : Ref sig .tc := ⟨.hbm, 120, rfl⟩
abbrev main_v77 : Ref sig .tc := ⟨.hbm, 121, rfl⟩
abbrev main_v78 : Ref sig .tc := ⟨.hbm, 122, rfl⟩
abbrev main_cst_5 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_6 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_7 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_8 : Ref sig .tc := ⟨.hbm, 137, rfl⟩
abbrev main_v90 : Ref sig .tc := ⟨.hbm, 138, rfl⟩
abbrev main_v91 : Ref sig .tc := ⟨.hbm, 139, rfl⟩
abbrev main_c_9 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_c_10 : Ref sig .tc := ⟨.hbm, 146, rfl⟩
abbrev main_v97 : Ref sig .tc := ⟨.hbm, 147, rfl⟩
abbrev main_v98 : Ref sig .tc := ⟨.hbm, 148, rfl⟩
abbrev main_c_11 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_12 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_13 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S9x1_S1x9_1_0 : S9x1.Transposes [1, 0] S1x9
  bcast_S9_S1x9_1 : S9.BroadcastsInDim S1x9 (![1] : Fin 1 → Fin S1x9.rank)
  bcast_S1x9_S1600000x9_0_1 : S1x9.BroadcastsInDim S1600000x9 (![0, 1] : Fin 2 → Fin S1600000x9.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x9 : S_.BroadcastsInDim S1600000x9 (![] : Fin 0 → Fin S1600000x9.rank)
  bcast_S_S50000x9 : S_.BroadcastsInDim S50000x9 (![] : Fin 0 → Fin S50000x9.rank)
  transposes_S64x9_S9x64_1_0 : S64x9.Transposes [1, 0] S9x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S64x64_S64x64_1_0 : S64x64.Transposes [1, 0] S64x64
  transposes_S64x1_S1x64_1_0 : S64x1.Transposes [1, 0] S1x64
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  transposes_S32x64_S64x32_1_0 : S32x64.Transposes [1, 0] S64x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  transposes_S1x32_S32x1_1_0 : S1x32.Transposes [1, 0] S32x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  dot_S1600000x1_S1x9_S1600000x9_1_0_0_1_n_n_wf : DotDims.WF S1600000x1 S1x9 S1600000x9 [1] [0] [0] [1] [] []
  gather_S50000x9_S1600000x1_S1600000x9_1_0_n_n_0_1_19_wf : GatherDims.WF S50000x9 S1600000x1 S1600000x9 [1] [0] [] [0] [] 1 ![1, 9]
  scatter_S50000x9_S1600000x1_S1600000x9_1_0_0_1_wf : ScatterDims.WF S50000x9 S1600000x1 S1600000x9 [1] [0] [0] 1
  dot_S50000x9_S9x64_S50000x64_1_0_0_1_n_n_wf : DotDims.WF S50000x9 S9x64 S50000x64 [1] [0] [0] [1] [] []
  dot_S50000x64_S64x64_S50000x64_1_0_0_1_n_n_wf : DotDims.WF S50000x64 S64x64 S50000x64 [1] [0] [0] [1] [] []
  dot_S1600000x1_S1x64_S1600000x64_1_0_0_1_n_n_wf : DotDims.WF S1600000x1 S1x64 S1600000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x32_S50000x32_1_0_0_1_n_n_wf : DotDims.WF S50000x64 S64x32 S50000x32 [1] [0] [0] [1] [] []
  dot_S50000x32_S32x1_S50000x1_1_0_0_1_n_n_wf : DotDims.WF S50000x32 S32x1 S50000x1 [1] [0] [0] [1] [] []
  scatter_S512_S50000x1_S50000_n_0_0_1_wf : ScatterDims.WF S512 S50000x1 S50000 [] [0] [0] 1
  gather_S512_S50000x1_S50000_n_0_n_n_0_1_1_wf : GatherDims.WF S512 S50000x1 S50000 [] [0] [] [0] [] 1 ![1]

variable [Facts₀]

def dot_S1600000x1_S1x9_S1600000x9_1_0_0_1_n_n : DotDims S1600000x1 S1x9 S1600000x9 where
  lhsContracting := [1]
  rhsContracting := [0]
  lhsNonContracting := [0]
  rhsNonContracting := [1]
  lhsBatch := []
  rhsBatch := []
  wf := dot_S1600000x1_S1x9_S1600000x9_1_0_0_1_n_n_wf
def gather_S50000x9_S1600000x1_S1600000x9_1_0_n_n_0_1_19 : GatherDims S50000x9 S1600000x1 S1600000x9 where
  offsetDims := [1]
  collapsedSliceDims := [0]
  operandBatchingDims := []
  startIndicesBatchingDims := []
  startIndexMap := [0]
  indexVectorDim := 1
  sliceSizes := ![1, 9]
  wf := gather_S50000x9_S1600000x1_S1600000x9_1_0_n_n_0_1_19_wf
def scatter_S50000x9_S1600000x1_S1600000x9_1_0_0_1 : ScatterDims S50000x9 S1600000x1 S1600000x9 where
  updateWindowDims := [1]
  insertedWindowDims := [0]
  scatterDimsToOperandDims := [0]
  indexVectorDim := 1
  wf := scatter_S50000x9_S1600000x1_S1600000x9_1_0_0_1_wf
def dot_S50000x9_S9x64_S50000x64_1_0_0_1_n_n : DotDims S50000x9 S9x64 S50000x64 where
  lhsContracting := [1]
  rhsContracting := [0]
  lhsNonContracting := [0]
  rhsNonContracting := [1]
  lhsBatch := []
  rhsBatch := []
  wf := dot_S50000x9_S9x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1600000x1_S1x64_S1600000x64_1_0_0_1_n_n : DotDims S1600000x1 S1x64 S1600000x64 where
  lhsContracting := [1]
  rhsContracting := [0]
  lhsNonContracting := [0]
  rhsNonContracting := [1]
  lhsBatch := []
  rhsBatch := []
  wf := dot_S1600000x1_S1x64_S1600000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def gather_S512_S50000x1_S50000_n_0_n_n_0_1_1 : GatherDims S512 S50000x1 S50000 where
  offsetDims := []
  collapsedSliceDims := [0]
  operandBatchingDims := []
  startIndicesBatchingDims := []
  startIndexMap := [0]
  indexVectorDim := 1
  sliceSizes := ![1]
  wf := gather_S512_S50000x1_S50000_n_0_n_n_0_1_1_wf

class Facts : Prop extends Facts₀ where

variable [Facts]
-- ==== Proof.HostTerms.lean ====
/-
  The host arithmetic around the two kernel regions, named piece by piece (at any float instance).

  An edge e carries the source row s e and the destination row d e (rows 0 and 1 of the edge index). A GINE layer's
  message of edge e is  relu (take X (s e) + (edge attribute · We + be)),  where `take` reads row s e of X after
  numpy's wrap of a negative row number and gives the fill pattern where the wrapped number is outside 0 … 49999;
  the aggregated message of node n is the sum of the messages of the edges with destination n (a scatter-add into
  zeros). The regions' weight windows are the transposed weights and the biases as one row. After the second
  region the per-graph budget ratio is formed from the expenses: their per-graph sums (a scatter-add by the graph
  number of each node), the graph's budget over that sum plus a small constant, capped at one, times the
  probability.
-/
import proofs.«400881_j31421980738093_3_alg».proof.KernelIdeal
import proofs.«400881_j31421980738093_3_alg».proof.Proof.Gen.KernelIdeal

noncomputable section

namespace Cert.KernelIdeal.HostTerms

open Cert.KernelIdeal Cert.KernelIdeal.Facts₀ Cert.KernelIdeal.Facts Idealize.ShloMosaic

variable {F : FTy → Type} [FloatOps F]

/-- Row r of the edge index as a vector of 1600000 words (r = 0: sources, r = 1: destinations). -/
def src (a1 : IVec S2x1600000 32) : IVec S1600000 32 :=
  shapeCast S1600000 (extractStridedSlice S1x1600000 ![0, 0] a1 slices_S2x1600000_S1x1600000_0_0) shapeCasts_S1x1600000_S1600000
def dst (a1 : IVec S2x1600000 32) : IVec S1600000 32 :=
  shapeCast S1600000 (extractStridedSlice S1x1600000 ![1, 0] a1 slices_S2x1600000_S1x1600000_1_0) shapeCasts_S1x1600000_S1600000

/-- The start indices of the take: a negative row number s gets 50000 added, then the vector becomes one column. -/
def startIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 50000#32))) s)

/-- Per edge: is the start index inside 0 … 49999? -/
def inBounds (j : IVec S1600000x1 32) : IVec S1600000 1 :=
  Host.reduce IntOp.andi
    (andi (cmpi .sge j (broadcastInDim S1600000x1 ![] bcast_S_S1600000x1 (constantI S_ 32 0#32)))
      (cmpi .sle j (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- The rows of X (9 features) at the source rows, the fill pattern where a start index is out of bounds. -/
def take9 (X : FVec F S50000x9 .f32) (s : IVec S1600000 32) : FVec F S1600000x9 .f32 :=
  select (broadcastInDim S1600000x9 ![0] bcast_S1600000_S1600000x9_0 (inBounds (startIdx s)))
    (Host.gather gather_S50000x9_S1600000x1_S1600000x9_1_0_n_n_0_1_19 X (startIdx s))
    (broadcastInDim S1600000x9 ![] bcast_S_S1600000x9 (constant S_ .f32 0x7FC00000#32))

/-- The same for 64 features. -/
def take64 (X : FVec F S50000x64 .f32) (s : IVec S1600000 32) : FVec F S1600000x64 .f32 :=
  select (broadcastInDim S1600000x64 ![0] bcast_S1600000_S1600000x64_0 (inBounds (startIdx s)))
    (Host.gather gather_S50000x64_S1600000x1_S1600000x64_1_0_n_n_0_1_164 X (startIdx s))
    (broadcastInDim S1600000x64 ![] bcast_S_S1600000x64 (constant S_ .f32 0x7FC00000#32))

/-- The edge term of the first layer: edge attribute times the (transposed) edge weight, plus the edge bias. -/
def edge9 (a2 : FVec F S1600000x1 .f32) (a7 : FVec F S9x1 .f32) (a8 : FVec F S9 .f32) : FVec F S1600000x9 .f32 :=
  addf (Host.dotGeneral dot_S1600000x1_S1x9_S1600000x9_1_0_0_1_n_n none a2 (transpose S1x9 [1, 0] a7 transposes_S9x1_S1x9_1_0))
    (broadcastInDim S1600000x9 ![0, 1] bcast_S1x9_S1600000x9_0_1 (broadcastInDim S1x9 ![1] bcast_S9_S1x9_1 a8))

/-- The edge term of the second layer. -/
def edge64 (a2 : FVec F S1600000x1 .f32) (a13 : FVec F S64x1 .f32) (a14 : FVec F S64 .f32) : FVec F S1600000x64 .f32 :=
  addf (Host.dotGeneral dot_S1600000x1_S1x64_S1600000x64_1_0_0_1_n_n none a2 (transpose S1x64 [1, 0] a13 transposes_S64x1_S1x64_1_0))
    (broadcastInDim S1600000x64 ![0, 1] bcast_S1x64_S1600000x64_0_1 (broadcastInDim S1x64 ![1] bcast_S64_S1x64_1 a14))

/-- The aggregated messages of the first layer from the gathered rows G: scatter-add of relu (G + edge term). -/
def aggr9 (G : FVec F S1600000x9 .f32) (d : IVec S1600000 32) (a2 : FVec F S1600000x1 .f32) (a7 : FVec F S9x1 .f32)
    (a8 : FVec F S9 .f32) : FVec F S50000x9 .f32 :=
  Host.scatterAdd scatter_S50000x9_S1600000x1_S1600000x9_1_0_0_1
    (broadcastInDim S50000x9 ![] bcast_S_S50000x9 (constant S_ .f32 0x00000000#32))
    (broadcastInDim S1600000x1 ![0] bcast_S1600000_S1600000x1_0 d)
    (maximumf (addf G (edge9 a2 a7 a8)) (broadcastInDim S1600000x9 ![] bcast_S_S1600000x9 (constant S_ .f32 0x00000000#32)))

/-- The aggregated messages of the second layer from the gathered rows G. -/
def aggr64 (G : FVec F S1600000x64 .f32) (d : IVec S1600000 32) (a2 : FVec F S1600000x1 .f32) (a13 : FVec F S64x1 .f32)
    (a14 : FVec F S64 .f32) : FVec F S50000x64 .f32 :=
  Host.scatterAdd scatter_S50000x64_S1600000x1_S1600000x64_1_0_0_1
    (broadcastInDim S50000x64 ![] bcast_S_S50000x64 (constant S_ .f32 0x00000000#32))
    (broadcastInDim S1600000x1 ![0] bcast_S1600000_S1600000x1_0 d)
    (maximumf (addf G (edge64 a2 a13 a14)) (broadcastInDim S1600000x64 ![] bcast_S_S1600000x64 (constant S_ .f32 0x00000000#32)))

/-- The weight windows: a weight transposed, a bias as one row, the terminal flags as a column of numbers, the
    costs as a column. -/
def wT9x64 (a : FVec F S64x9 .f32) : FVec F S9x64 .f32 := transpose S9x64 [1, 0] a transposes_S64x9_S9x64_1_0
def wT64x64 (a : FVec F S64x64 .f32) : FVec F S64x64 .f32 := transpose S64x64 [1, 0] a transposes_S64x64_S64x64_1_0
def wT64x32 (a : FVec F S32x64 .f32) : FVec F S64x32 .f32 := transpose S64x32 [1, 0] a transposes_S32x64_S64x32_1_0
def wT32x1 (a : FVec F S1x32 .f32) : FVec F S32x1 .f32 := transpose S32x1 [1, 0] a transposes_S1x32_S32x1_1_0
def row64 (a : FVec F S64 .f32) : FVec F S1x64 .f32 := shapeCast S1x64 a shapeCasts_S64_S1x64
def row32 (a : FVec F S32 .f32) : FVec F S1x32 .f32 := shapeCast S1x32 a shapeCasts_S32_S1x32
def row1 (a : FVec F S1 .f32) : FVec F S1x1 .f32 := shapeCast S1x1 a shapeCasts_S1_S1x1
def flagCol (a5 : IVec S50000 32) : FVec F S50000x1 .f32 := sitofp .f32 (shapeCast S50000x1 a5 shapeCasts_S50000_S50000x1)
def costCol (a6 : FVec F S50000 .f32) : FVec F S50000x1 .f32 := shapeCast S50000x1 a6 shapeCasts_S50000_S50000x1

/-- The graph number of each node as a column of start indices, a negative number getting 512 added. -/
def graphIdx (a3 : IVec S50000 32) : IVec S50000x1 32 :=
  broadcastInDim S50000x1 ![0] bcast_S50000_S50000x1_0
    (select (cmpi .slt a3 (broadcastInDim S50000 ![] bcast_S_S50000 (constantI S_ 32 0#32)))
      (addi a3 (broadcastInDim S50000 ![] bcast_S_S50000 (constantI S_ 32 512#32))) a3)

/-- The result from the probabilities p and the expenses e (both vectors over the nodes): p times the budget
    ratio of the node's graph, the ratio being budget over (the graph's summed expenses plus a small constant),
    capped at one. -/
def budget (p e : FVec F S50000 .f32) (a3 : IVec S50000 32) (a4 : FVec F S512 .f32) : FVec F S50000 .f32 :=
  mulf p
    (minimumf
      (Host.divf (Host.gather gather_S512_S50000x1_S50000_n_0_n_n_0_1_1 a4 (graphIdx a3))
        (addf
          (Host.gather gather_S512_S50000x1_S50000_n_0_n_n_0_1_1
            (Host.scatterAdd scatter_S512_S50000x1_S50000_n_0_0_1
              (broadcastInDim S512 ![] bcast_S_S512 (constant S_ .f32 0x00000000#32))
              (broadcastInDim S50000x1 ![0] bcast_S50000_S50000x1_0 a3) e)
            (graphIdx a3))
          (broadcastInDim S50000 ![] bcast_S_S50000 (constant S_ .f32 0x2B8CBCCC#32))))
      (broadcastInDim S50000 ![] bcast_S_S50000 (constant S_ .f32 0x3F800000#32)))

/-- A one-column array as a vector. -/
def colVec (P : FVec F S50000x1 .f32) : FVec F S50000 .f32 := shapeCast S50000 P shapeCasts_S50000x1_S50000

end Cert.KernelIdeal.HostTerms

end
-- ==== Proof.HostReads.lean ====
/-
  What the fold of host stretches and region write-backs holds at the buffers that matter: the six arrays the first
  region finds, the twelve the second finds, and the result buffer, each as a named chain (HostTerms) of the launch
  memory's argument arrays and of the arrays the regions leave.
-/
import proofs.«400881_j31421980738093_3_alg».proof.Proof.Gen.KernelIdeal.Frame
import proofs.«400881_j31421980738093_3_alg».proof.Proof.HostTerms
import Idealize.ShloMosaic.Lib.StableHlo.Run

set_option maxRecDepth 16384
set_option maxHeartbeats 4000000

noncomputable section

namespace Cert.KernelIdeal.HostReads

open Cert.KernelIdeal Cert.KernelIdeal.Gen Cert.KernelIdeal.HostTerms
open Idealize.ShloMosaic Idealize.ShloMosaic.TcCoe Idealize.SL.Sem Idealize.ShloMosaic.StableHlo

variable {F : FTy → Type} [FloatOps F]

/-- Contents carried to a typed reference's buffer and back are the contents. -/
theorem ofBuf_toBuf {T : BufTy} (x : TRef sig T) (v : T.Contents (Elt F)) : x.ofBuf (x.toBuf v) = v := by
  obtain ⟨r, rfl, _, _⟩ := x
  rfl

section Stretches

variable (W : Valuation τ sig (Elt F))

/-- The contents after the five stretches before the first region, from contents W. -/
abbrev pre0 : Valuation τ sig (Elt F) :=
  after hostOps0_4 (after hostOps0_3 (after hostOps0_2 (after hostOps0_1 (after hostOps0 W))))
/-- The contents after the five stretches between the regions, from contents W. -/
abbrev pre1 : Valuation τ sig (Elt F) :=
  after hostOps1_4 (after hostOps1_3 (after hostOps1_2 (after hostOps1_1 (after hostOps1 W))))

/-- Read a buffer after the five stretches before the first region, the three between the regions' ends, … :
    unfold the stretches and let every operation's result fall on its own buffer. -/
macro "read_stretches" : tactic =>
  `(tactic| (dsimp only [pre0, pre1, hostOps0, hostOps0_1, hostOps0_2, hostOps0_3, hostOps0_4, hostOps1, hostOps1_1, hostOps1_2,
      hostOps1_3, hostOps1_4, hostOps2]; after_results_simp))

/-! The first aggregation, stretch by stretch: the edge rows and the edge term, the take, the sum with the edge
    term, the positive part, the scatter-add. -/

theorem s0_src : after hostOps0 W (Proc.devRef .tc main_v1) = src (W (Proc.devRef .tc main_arg1)) := by dsimp only [hostOps0]; after_results_simp <;> rfl
theorem s0_dst : after hostOps0 W (Proc.devRef .tc main_v3) = dst (W (Proc.devRef .tc main_arg1)) := by dsimp only [hostOps0]; after_results_simp <;> rfl
theorem s0_edge : after hostOps0 W (Proc.devRef .tc main_v8) = edge9 (W (Proc.devRef .tc main_arg2)) (W (Proc.devRef .tc main_arg7)) (W (Proc.devRef .tc main_arg8)) := by
  dsimp only [hostOps0]; after_results_simp <;> rfl
theorem s0_x : after hostOps0 W (Proc.devRef .tc main_arg0) = W (Proc.devRef .tc main_arg0) := by dsimp only [hostOps0]; after_results_simp

/-- The take of the first layer: the typed buffers of the outlined function carry their contents there and back. -/
theorem s1_take : after hostOps0_1 W (Proc.devRef .tc main_v9) = take9 (W (Proc.devRef .tc main_arg0)) (W (Proc.devRef .tc main_v1)) := by
  dsimp only [hostOps0_1]; after_results_simp
  simp only [ofBuf_toBuf]
  exact cast_eq _ _
theorem s1_edge : after hostOps0_1 W (Proc.devRef .tc main_v8) = W (Proc.devRef .tc main_v8) := by dsimp only [hostOps0_1]; after_results_simp
theorem s1_dst : after hostOps0_1 W (Proc.devRef .tc main_v3) = W (Proc.devRef .tc main_v3) := by dsimp only [hostOps0_1]; after_results_simp

theorem s2_sum : after hostOps0_2 W (Proc.devRef .tc main_v10) = addf (W (Proc.devRef .tc main_v9)) (W (Proc.devRef .tc main_v8)) := by
  dsimp only [hostOps0_2]; after_results_simp <;> rfl
theorem s2_dst : after hostOps0_2 W (Proc.devRef .tc main_v3) = W (Proc.devRef .tc main_v3) := by dsimp only [hostOps0_2]; after_results_simp

theorem s3_relu : after hostOps0_3 W (Proc.devRef .tc main_v11)
    = maximumf (W (Proc.devRef .tc main_v10)) (broadcastInDim S1600000x9 ![] Facts₀.bcast_S_S1600000x9 (constant S_ .f32 0x00000000#32)) := by
  dsimp only [hostOps0_3]; after_results_simp <;> rfl
theorem s3_dst : after hostOps0_3 W (Proc.devRef .tc main_v3) = W (Proc.devRef .tc main_v3) := by dsimp only [hostOps0_3]; after_results_simp

theorem s4_scatter : after hostOps0_4 W (Proc.devRef .tc main_v14)
    = Host.scatterAdd scatter_S50000x9_S1600000x1_S1600000x9_1_0_0_1
        (broadcastInDim S50000x9 ![] Facts₀.bcast_S_S50000x9 (constant S_ .f32 0x00000000#32))
        (broadcastInDim S1600000x1 ![0] Facts₀.bcast_S1600000_S1600000x1_0 (W (Proc.devRef .tc main_v3))) (W (Proc.devRef .tc main_v11)) := by
  dsimp only [hostOps0_4]; after_results_simp <;> rfl

/-- Before the first region the aggregated messages of the first layer stand in the second window's array. -/
theorem pre0_aggr : pre0 W (Proc.devRef .tc main_v14)
    = aggr9 (take9 (W (Proc.devRef .tc main_arg0)) (src (W (Proc.devRef .tc main_arg1)))) (dst (W (Proc.devRef .tc main_arg1)))
        (W (Proc.devRef .tc main_arg2)) (W (Proc.devRef .tc main_arg7)) (W (Proc.devRef .tc main_arg8)) := by
  show after hostOps0_4 (after hostOps0_3 (after hostOps0_2 (after hostOps0_1 (after hostOps0 W)))) _ = _
  rw [s4_scatter, s3_dst, s2_dst, s1_dst, s0_dst, s3_relu, s2_sum, s1_take, s1_edge, s0_edge, s0_x, s0_src]
  rfl

theorem pre0_wa : pre0 W (Proc.devRef .tc main_v15) = wT9x64 (W (Proc.devRef .tc main_arg9)) := by read_stretches <;> rfl
theorem pre0_ba : pre0 W (Proc.devRef .tc main_v17) = row64 (W (Proc.devRef .tc main_arg10)) := by read_stretches <;> rfl
theorem pre0_wb : pre0 W (Proc.devRef .tc main_v16) = wT64x64 (W (Proc.devRef .tc main_arg11)) := by read_stretches <;> rfl
theorem pre0_bb : pre0 W (Proc.devRef .tc main_v18) = row64 (W (Proc.devRef .tc main_arg12)) := by read_stretches <;> rfl
theorem pre0_src : pre0 W (Proc.devRef .tc main_v1) = src (W (Proc.devRef .tc main_arg1)) := by read_stretches <;> rfl
theorem pre0_dst : pre0 W (Proc.devRef .tc main_v3) = dst (W (Proc.devRef .tc main_arg1)) := by read_stretches <;> rfl

/-- An argument array is not written before the first region. -/
theorem pre0_arg0 : pre0 W (Proc.devRef .tc main_arg0) = W (Proc.devRef .tc main_arg0) := by read_stretches
theorem pre0_arg2 : pre0 W (Proc.devRef .tc main_arg2) = W (Proc.devRef .tc main_arg2) := by read_stretches
theorem pre0_arg3 : pre0 W (Proc.devRef .tc main_arg3) = W (Proc.devRef .tc main_arg3) := by read_stretches
theorem pre0_arg4 : pre0 W (Proc.devRef .tc main_arg4) = W (Proc.devRef .tc main_arg4) := by read_stretches
theorem pre0_arg5 : pre0 W (Proc.devRef .tc main_arg5) = W (Proc.devRef .tc main_arg5) := by read_stretches
theorem pre0_arg6 : pre0 W (Proc.devRef .tc main_arg6) = W (Proc.devRef .tc main_arg6) := by read_stretches
theorem pre0_arg13 : pre0 W (Proc.devRef .tc main_arg13) = W (Proc.devRef .tc main_arg13) := by read_stretches
theorem pre0_arg14 : pre0 W (Proc.devRef .tc main_arg14) = W (Proc.devRef .tc main_arg14) := by read_stretches
theorem pre0_arg15 : pre0 W (Proc.devRef .tc main_arg15) = W (Proc.devRef .tc main_arg15) := by read_stretches
theorem pre0_arg16 : pre0 W (Proc.devRef .tc main_arg16) = W (Proc.devRef .tc main_arg16) := by read_stretches
theorem pre0_arg17 : pre0 W (Proc.devRef .tc main_arg17) = W (Proc.devRef .tc main_arg17) := by read_stretches
theorem pre0_arg18 : pre0 W (Proc.devRef .tc main_arg18) = W (Proc.devRef .tc main_arg18) := by read_stretches
theorem pre0_arg19 : pre0 W (Proc.devRef .tc main_arg19) = W (Proc.devRef .tc main_arg19) := by read_stretches
theorem pre0_arg20 : pre0 W (Proc.devRef .tc main_arg20) = W (Proc.devRef .tc main_arg20) := by read_stretches
theorem pre0_arg21 : pre0 W (Proc.devRef .tc main_arg21) = W (Proc.devRef .tc main_arg21) := by read_stretches
theorem pre0_arg22 : pre0 W (Proc.devRef .tc main_arg22) = W (Proc.devRef .tc main_arg22) := by read_stretches

/-- Before the second region: the first region's output is untouched, the aggregated messages of the second layer
    stand in the second window's array, and the other windows' arrays are the weights, biases, flags and costs. -/
theorem pre1_hs : pre1 W (Proc.devRef .tc main_v19) = W (Proc.devRef .tc main_v19) := by read_stretches
/-! The second aggregation, stretch by stretch. -/

theorem t0_edge : after hostOps1 W (Proc.devRef .tc main_v24) = edge64 (W (Proc.devRef .tc main_arg2)) (W (Proc.devRef .tc main_arg13)) (W (Proc.devRef .tc main_arg14)) := by
  dsimp only [hostOps1]; after_results_simp <;> rfl
theorem t0_h : after hostOps1 W (Proc.devRef .tc main_v19) = W (Proc.devRef .tc main_v19) := by dsimp only [hostOps1]; after_results_simp
theorem t0_src : after hostOps1 W (Proc.devRef .tc main_v1) = W (Proc.devRef .tc main_v1) := by dsimp only [hostOps1]; after_results_simp
theorem t0_dst : after hostOps1 W (Proc.devRef .tc main_v3) = W (Proc.devRef .tc main_v3) := by dsimp only [hostOps1]; after_results_simp

theorem t1_take : after hostOps1_1 W (Proc.devRef .tc main_v25) = take64 (W (Proc.devRef .tc main_v19)) (W (Proc.devRef .tc main_v1)) := by
  dsimp only [hostOps1_1]; after_results_simp
  simp only [ofBuf_toBuf]
  exact cast_eq _ _
theorem t1_edge : after hostOps1_1 W (Proc.devRef .tc main_v24) = W (Proc.devRef .tc main_v24) := by dsimp only [hostOps1_1]; after_results_simp
theorem t1_dst : after hostOps1_1 W (Proc.devRef .tc main_v3) = W (Proc.devRef .tc main_v3) := by dsimp only [hostOps1_1]; after_results_simp

theorem t2_sum : after hostOps1_2 W (Proc.devRef .tc main_v26) = addf (W (Proc.devRef .tc main_v25)) (W (Proc.devRef .tc main_v24)) := by
  dsimp only [hostOps1_2]; after_results_simp <;> rfl
theorem t2_dst : after hostOps1_2 W (Proc.devRef .tc main_v3) = W (Proc.devRef .tc main_v3) := by dsimp only [hostOps1_2]; after_results_simp

theorem t3_relu : after hostOps1_3 W (Proc.devRef .tc main_v27)
    = maximumf (W (Proc.devRef .tc main_v26)) (broadcastInDim S1600000x64 ![] Facts₀.bcast_S_S1600000x64 (constant S_ .f32 0x00000000#32)) := by
  dsimp only [hostOps1_3]; after_results_simp <;> rfl
theorem t3_dst : after hostOps1_3 W (Proc.devRef .tc main_v3) = W (Proc.devRef .tc main_v3) := by dsimp only [hostOps1_3]; after_results_simp

theorem t4_scatter : after hostOps1_4 W (Proc.devRef .tc main_v30)
    = Host.scatterAdd scatter_S50000x64_S1600000x1_S1600000x64_1_0_0_1
        (broadcastInDim S50000x64 ![] Facts₀.bcast_S_S50000x64 (constant S_ .f32 0x00000000#32))
        (broadcastInDim S1600000x1 ![0] Facts₀.bcast_S1600000_S1600000x1_0 (W (Proc.devRef .tc main_v3))) (W (Proc.devRef .tc main_v27)) := by
  dsimp only [hostOps1_4]; after_results_simp <;> rfl

theorem pre1_aggr : pre1 W (Proc.devRef .tc main_v30)
    = aggr64 (take64 (W (Proc.devRef .tc main_v19)) (W (Proc.devRef .tc main_v1))) (W (Proc.devRef .tc main_v3))
        (W (Proc.devRef .tc main_arg2)) (W (Proc.devRef .tc main_arg13)) (W (Proc.devRef .tc main_arg14)) := by
  show after hostOps1_4 (after hostOps1_3 (after hostOps1_2 (after hostOps1_1 (after hostOps1 W)))) _ = _
  rw [t4_scatter, t3_dst, t2_dst, t1_dst, t0_dst, t3_relu, t2_sum, t1_take, t1_edge, t0_edge, t0_h, t0_src]
  rfl

theorem pre1_wa : pre1 W (Proc.devRef .tc main_v34) = wT64x64 (W (Proc.devRef .tc main_arg15)) := by read_stretches <;> rfl
theorem pre1_ba : pre1 W (Proc.devRef .tc main_v36) = row64 (W (Proc.devRef .tc main_arg16)) := by read_stretches <;> rfl
theorem pre1_wb : pre1 W (Proc.devRef .tc main_v35) = wT64x64 (W (Proc.devRef .tc main_arg17)) := by read_stretches <;> rfl
theorem pre1_bb : pre1 W (Proc.devRef .tc main_v37) = row64 (W (Proc.devRef .tc main_arg18)) := by read_stretches <;> rfl
theorem pre1_tm : pre1 W (Proc.devRef .tc main_v32) = flagCol (W (Proc.devRef .tc main_arg5)) := by read_stretches <;> rfl
theorem pre1_cs : pre1 W (Proc.devRef .tc main_v33) = costCol (W (Proc.devRef .tc main_arg6)) := by read_stretches <;> rfl
theorem pre1_w1 : pre1 W (Proc.devRef .tc main_v38) = wT64x32 (W (Proc.devRef .tc main_arg19)) := by read_stretches <;> rfl
theorem pre1_b1 : pre1 W (Proc.devRef .tc main_v40) = row32 (W (Proc.devRef .tc main_arg20)) := by read_stretches <;> rfl
theorem pre1_w2 : pre1 W (Proc.devRef .tc main_v39) = wT32x1 (W (Proc.devRef .tc main_arg21)) := by read_stretches <;> rfl
theorem pre1_b2 : pre1 W (Proc.devRef .tc main_v41) = row1 (W (Proc.devRef .tc main_arg22)) := by read_stretches <;> rfl
theorem pre1_arg3 : pre1 W (Proc.devRef .tc main_arg3) = W (Proc.devRef .tc main_arg3) := by read_stretches
theorem pre1_arg4 : pre1 W (Proc.devRef .tc main_arg4) = W (Proc.devRef .tc main_arg4) := by read_stretches

/-- After the last stretch the result buffer holds the budgeted probabilities of the second region's two outputs. -/
theorem post_result : after hostOps2 W (Proc.devRef .tc main_v67)
    = budget (colVec (W (Proc.devRef .tc main_v42_0))) (colVec (W (Proc.devRef .tc main_v42_1)))
        (W (Proc.devRef .tc main_arg3)) (W (Proc.devRef .tc main_arg4)) := by
  read_stretches <;> rfl

end Stretches

end Cert.KernelIdeal.HostReads

end
-- ==== Proof.TakeRows.lean ====
/-
  The source rows are in range, so the take reads real rows.
  The precondition says every source row number s e (row 0 of the edge index) satisfies 0 ≤ s e < 50000, signed.
  Then numpy's wrap leaves s e as it is, the start index lies inside 0 … 49999, the in-bounds flag of every edge is
  set, and the take's select gives the gathered rows everywhere: `take X s` is the plain gather of X at the start
  indices.
-/
import proofs.«400881_j31421980738093_3_alg».proof.Defs
import proofs.«400881_j31421980738093_3_alg».proof.Proof.Gen.Pre_finite_inputs
import proofs.«400881_j31421980738093_3_alg».proof.Proof.HostTerms
import Idealize.ShloMosaic.Lib.ValueIdx
import Idealize.ShloMosaic.Lib.Pipeline.Value
import Idealize.ShloMosaic.Lib.ReduceAll
import Idealize.ShloMosaic.Lib.StableHlo.Predicate

set_option maxRecDepth 16384

noncomputable section

namespace Cert.KernelIdeal.TakeRows

open Cert.KernelIdeal Cert.KernelIdeal.Facts₀ Cert.KernelIdeal.Facts Cert.KernelIdeal.HostTerms
open Idealize.ShloMosaic Idealize.ShloMosaic.ValueIdx Idealize.SL.Sem

/-- Every source row number is in 0 … 49999 as a signed word. -/
def InRange (s : IVec S1600000 32) : Prop :=
  ∀ e : Fin 1600000, IntOp.cmpi .sge (s (ix1 e)) 0#32 = 1#1 ∧ IntOp.cmpi .slt (s (ix1 e)) 50000#32 = 1#1

/-! ## Words -/

/-- The two signed compares of the range say 0 ≤ a < 50000 of the word's signed value. -/
theorem word_range {a : BitVec 32} (h0 : IntOp.cmpi .sge a 0#32 = 1#1) (h1 : IntOp.cmpi .slt a 50000#32 = 1#1) :
    0 ≤ a.toInt ∧ a.toInt < 50000 := by
  have e0 : (0#32 : BitVec 32).toInt = 0 := by decide
  have e1 : (50000#32 : BitVec 32).toInt = 50000 := by decide
  simp only [IntOp.cmpi, StableHlo.Predicate.ofBool_eq_one_iff, BitVec.sle, BitVec.slt, decide_eq_true_eq, e0, e1] at h0 h1
  exact ⟨h0, h1⟩

/-- A word in range is not negative: the wrap's compare is 0. -/
theorem slt_zero_of_range {a : BitVec 32} (h : 0 ≤ a.toInt ∧ a.toInt < 50000) : IntOp.cmpi .slt a 0#32 = 0#1 := by
  have e0 : (0#32 : BitVec 32).toInt = 0 := by decide
  have : ¬ a.toInt < 0 := by omega
  simp only [IntOp.cmpi, BitVec.slt, e0, this, decide_false, BitVec.ofBool_false]
  rfl

/-- A word in range is at least 0 and at most 49999. -/
theorem sge_zero_of_range {a : BitVec 32} (h : 0 ≤ a.toInt ∧ a.toInt < 50000) : IntOp.cmpi .sge a 0#32 = 1#1 := by
  have e0 : (0#32 : BitVec 32).toInt = 0 := by decide
  simp only [IntOp.cmpi, BitVec.sle, e0, h.1, decide_true, BitVec.ofBool_true]
  rfl

theorem sle_last_of_range {a : BitVec 32} (h : 0 ≤ a.toInt ∧ a.toInt < 50000) : IntOp.cmpi .sle a 49999#32 = 1#1 := by
  have e1 : (49999#32 : BitVec 32).toInt = 49999 := by decide
  have : a.toInt ≤ 49999 := by omega
  simp only [IntOp.cmpi, BitVec.sle, e1, this, decide_true, BitVec.ofBool_true]
  rfl

/-! ## The in-bounds flag -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduce by `and` from 1 of an array of ones is 1 at every index. -/
theorem reduce_andi_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_one x _ fun n _ => hx n

/-- The start index of edge e is the wrapped source row number of edge e. -/
theorem startIdx_apply (s : IVec S1600000 32) (i : S1600000x1.Idx) :
    startIdx s i = Scalar.select (IntOp.cmpi .slt (s (ix1 (i 0))) 0#32) (IntOp.addi (s (ix1 (i 0))) 50000#32) (s (ix1 (i 0))) := by
  have key : startIdx s i
      = (select (cmpi .slt s (broadcastInDim S1600000 ![] bcast_S_S1600000 (constantI S_ 32 0#32)))
          (addi s (broadcastInDim S1600000 ![] bcast_S_S1600000 (constantI S_ 32 50000#32))) s) (ix1 (i 0)) :=
    broadcastInDim_apply _ _ _ i (ix1 (i 0)) (fun a => by
      match a with
      | ⟨0, _⟩ => rfl)
  rw [key]
  rfl

/-- With the source rows in range the start index is the source row number itself. -/
theorem startIdx_of_inRange (s : IVec S1600000 32) (hs : InRange s) (i : S1600000x1.Idx) : startIdx s i = s (ix1 (i 0)) := by
  have hr := word_range (hs (i 0)).1 (hs (i 0)).2
  rw [startIdx_apply, slt_zero_of_range hr, select_zero]

/-- With the source rows in range every edge's in-bounds flag is set. -/
theorem inBounds_one (s : IVec S1600000 32) (hs : InRange s) (j : S1600000.Idx) : inBounds (startIdx s) j = 1#1 := by
  unfold inBounds
  refine reduce_andi_one _ _ _ _ (fun i => ?_) rfl j
  have hr := word_range (hs (i 0)).1 (hs (i 0)).2
  show IntOp.andi (IntOp.cmpi .sge (startIdx s i) 0#32) (IntOp.cmpi .sle (startIdx s i) 49999#32) = 1#1
  rw [startIdx_of_inRange s hs i, sge_zero_of_range hr, sle_last_of_range hr]
  rfl

/-! ## The precondition's last conjunct -/

/-- The second word of an `and` that is 1 is 1. -/
theorem andi_right {x r : BitVec 1} (h : IntOp.andi x r = 1#1) : r = 1#1 := (IntOp.andi_eq_one.1 h).2

/-- The precondition puts the source rows in range, on every device. -/
theorem src_inRange (m : (ℓ : Loc nD τ sig) → Buf (Elt Ideal) ℓ) (h : Cert.Pre_KernelIdeal m) (c : Dev nD) :
    InRange (src (m ((c.tc : Thread nD τ).loc main_arg1))) := by
  intro e
  -- the scalar shape has one index
  haveI : Subsingleton S_.Idx := ⟨fun a b => funext fun d => d.elim0⟩
  -- the precondition at its one index is a chain of `and`s of one-bit words; its last word is the conjunction,
  -- over all edges, of the range test 0 ≤ s e ∧ s e < 50000 on row 0 of the edge index
  have h0 := congrFun (h c) ix0
  have hR := andi_right h0
  -- so the range test of edge e is 1, and it is the `and` of the two compares
  have hE := Host.reduce_andi_all _ _ _ _ _ hR (ix1 e)
  exact IntOp.andi_eq_one.1 hE

variable {F : FTy → Type} [FloatOps F]

/-- With the source rows in range the take of 9-feature rows is the plain gather at the start indices. -/
theorem take9_eq (X : FVec F S50000x9 .f32) (s : IVec S1600000 32) (hs : InRange s) :
    take9 X s = Host.gather gather_S50000x9_S1600000x1_S1600000x9_1_0_n_n_0_1_19 X (startIdx s) := by
  funext i
  unfold take9
  rw [select_apply]
  have hc : broadcastInDim S1600000x9 ![0] bcast_S1600000_S1600000x9_0 (inBounds (startIdx s)) i = 1#1 := inBounds_one s hs _
  rw [hc, select_one]

/-- The same for 64-feature rows. -/
theorem take64_eq (X : FVec F S50000x64 .f32) (s : IVec S1600000 32) (hs : InRange s) :
    take64 X s = Host.gather gather_S50000x64_S1600000x1_S1600000x64_1_0_n_n_0_1_164 X (startIdx s) := by
  funext i
  unfold take64
  rw [select_apply]
  have hc : broadcastInDim S1600000x64 ![0] bcast_S1600000_S1600000x64_0 (inBounds (startIdx s)) i = 1#1 := inBounds_one s hs _
  rw [hc, select_one]

end Cert.KernelIdeal.TakeRows

end
-- ==== Proof.Spec.lean ====
/-
  The mathematics both programs compute, over the extended reals, row by row.

  A GINE layer's node update of a row `n` with input features `x n` and aggregated messages `a n` is two dense
  layers with positive parts:  h' = relu (relu ((x n + a n) · Wa + ba) · Wb + bb),  where a dense layer's feature `h`
  is  max (Σ_k s k · W (k, h) + b (0, h)) 0.  The readout of a row is one more such layer (to 32 features), a linear
  map to one number plus a bias, and the logistic function  1 / (1 + exp (-z));  the row's probability is the readout
  times  1 - t  (t the terminal flag as a number) and its expense the probability times the row's cost.

  The weights are taken as the matrix units see them: `W` of shape [K, H] (already transposed), the bias as one row
  [1, H]. The two constants are kept as the words both programs spell: `zero` is the pattern of +0.0 and `one` that
  of 1.0.
-/
import Idealize.ShloMosaic.PureOps.Ideal
import Idealize.ShloMosaic.Lib.ValueIdx

noncomputable section

namespace Cert.NodeMlp

open Idealize.ShloMosaic Idealize.ShloMosaic.ValueIdx

/-- An array of extended reals with `r` rows and `c` columns. -/
abbrev Mat (r c : Nat) := FVec Ideal (⟨2, ![r, c]⟩ : Shape) .f32

/-- The word of +0.0 as an extended real. -/
abbrev zero : EReal := Ideal.ofBits .f32 0x00000000#32
/-- The word of 1.0 as an extended real. -/
abbrev one : EReal := Ideal.ofBits .f32 0x3F800000#32

/-- Feature `h` of a dense layer with a positive part, of the input row `s`. -/
def layer {K H : Nat} (s : Fin K → EReal) (W : Mat K H) (b : Mat 1 H) (h : Fin H) : EReal :=
  max ((∑ k : Fin K, s k * W (ix2 k h)) + b (ix2 (0 : Fin 1) h)) zero

/-- Feature `h` of the node update of a row with input features `x` and aggregated messages `a`. -/
def update {K H : Nat} (x a : Fin K → EReal) (Wa : Mat K H) (ba : Mat 1 H) (Wb : Mat H H) (bb : Mat 1 H) (h : Fin H) : EReal :=
  layer (fun k' => layer (fun k => x k + a k) Wa ba k') Wb bb h

/-- The logistic function, spelt with the words both programs use. -/
def sig (z : EReal) : EReal := Ideal.div one (one + Ideal.exp (-z))

/-- The readout of a row with hidden features `g`: a dense layer to `Q` features, a linear map to one number, the
    logistic function. -/
def readout {H Q : Nat} (g : Fin H → EReal) (W1 : Mat H Q) (b1 : Mat 1 Q) (W2 : Mat Q 1) (b2 : Mat 1 1) : EReal :=
  sig ((∑ q : Fin Q, layer g W1 b1 q * W2 (ix2 q (0 : Fin 1))) + b2 (ix2 (0 : Fin 1) (0 : Fin 1)))

/-- A row's probability: the readout of its second node update, times one minus its terminal flag `t`. -/
def prob {K H Q : Nat} (x a : Fin K → EReal) (Wa : Mat K H) (ba : Mat 1 H) (Wb : Mat H H) (bb : Mat 1 H)
    (W1 : Mat H Q) (b1 : Mat 1 Q) (W2 : Mat Q 1) (b2 : Mat 1 1) (t : EReal) : EReal :=
  readout (fun h => update x a Wa ba Wb bb h) W1 b1 W2 b2 * (one - t)

end Cert.NodeMlp

end
-- ==== Proof.KRegion0.lean ====
/-
  The first kernel region (the node update of the first GINE layer), read as values over the extended reals.
  The region's grid has 25 points; point t stages rows 2000·t … 2000·t + 1999 of the node features and of the
  aggregated messages, the whole (already transposed) weights and the one-row biases, and writes back rows
  2000·t … of the result. Row n, feature h of what the region leaves in its output array is the node update of
  row n: two dense layers with positive parts of x n + a n (Spec: `update`).
-/
import proofs.«400881_j31421980738093_3_alg».proof.Proof.Gen.KernelIdeal.Frame
import proofs.«400881_j31421980738093_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.NodeMlp
open Idealize.ShloMosaic Idealize.ShloMosaic.TcCoe Idealize.ShloMosaic.ValueIdx Idealize.SL.Sem
open Idealize.ShloMosaic.Pipeline (Dat)

/-! ## The two products at an index

Each product contracts the second axis of its left operand with the first of its right one: at row r, column h it is the
sum over k of left (r, k) · right (k, h). The four lemmas before each say which coordinate of each operand an output
index and a contraction index give. -/

theorem lhsA_0 (i : S2000x64.Idx) (q : dot_S2000x9_S9x64_S2000x64_1_0_0_1_n_n.contr.Idx) :
    (dot_S2000x9_S9x64_S2000x64_1_0_0_1_n_n.lhsIdx i q 0).val = (i 0).val := by
  unfold DotDims.lhsIdx
  rw [dif_neg (show ¬(0 : Fin S2000x9.rank) ∈ dot_S2000x9_S9x64_S2000x64_1_0_0_1_n_n.lhsBatch by decide), dif_pos (show (0 : Fin S2000x9.rank) ∈ dot_S2000x9_S9x64_S2000x64_1_0_0_1_n_n.lhsNonContracting by decide)]
  rfl
theorem lhsA_1 (i : S2000x64.Idx) (q : dot_S2000x9_S9x64_S2000x64_1_0_0_1_n_n.contr.Idx) :
    (dot_S2000x9_S9x64_S2000x64_1_0_0_1_n_n.lhsIdx i q 1).val = (q ⟨0, by decide⟩).val :=
  dot_S2000x9_S9x64_S2000x64_1_0_0_1_n_n.lhsIdx_val_of_single rfl i q
theorem rhsA_0 (i : S2000x64.Idx) (q : dot_S2000x9_S9x64_S2000x64_1_0_0_1_n_n.contr.Idx) :
    (dot_S2000x9_S9x64_S2000x64_1_0_0_1_n_n.rhsIdx i q 0).val = (q ⟨0, by decide⟩).val :=
  dot_S2000x9_S9x64_S2000x64_1_0_0_1_n_n.rhsIdx_val_of_single rfl i q
theorem rhsA_1 (i : S2000x64.Idx) (q : dot_S2000x9_S9x64_S2000x64_1_0_0_1_n_n.contr.Idx) :
    (dot_S2000x9_S9x64_S2000x64_1_0_0_1_n_n.rhsIdx i q 1).val = (i 1).val := by
  unfold DotDims.rhsIdx
  rw [dif_neg (show ¬(1 : Fin S9x64.rank) ∈ dot_S2000x9_S9x64_S2000x64_1_0_0_1_n_n.rhsBatch by decide), dif_pos (show (1 : Fin S9x64.rank) ∈ dot_S2000x9_S9x64_S2000x64_1_0_0_1_n_n.rhsNonContracting by decide)]
  rfl

/-- The first product at an index: a sum over the nine input features. -/
theorem mmA_apply (a : FVec Ideal S2000x9 .bf16) (b : FVec Ideal S9x64 .bf16) (r : Fin 2000) (h : Fin 64) :
    FloatOps.matmul dot_S2000x9_S9x64_S2000x64_1_0_0_1_n_n none a b (constant (F := Ideal) S2000x64 .f32 0x00000000#32) (ix2 r h)
      = ∑ k : Fin 9, a (ix2 r k) * b (ix2 k h) := by
  rw [Ideal.matmul_constant_zero_apply, ← Equiv.sum_comp (ValueIdx.contrEquiv1 dot_S2000x9_S9x64_S2000x64_1_0_0_1_n_n 9 rfl rfl).symm]
  refine Finset.sum_congr rfl fun k _ => ?_
  have hk := ValueIdx.contrEquiv1_symm_val dot_S2000x9_S9x64_S2000x64_1_0_0_1_n_n 9 rfl rfl k
  have el : dot_S2000x9_S9x64_S2000x64_1_0_0_1_n_n.lhsIdx (ix2 r h) ((ValueIdx.contrEquiv1 dot_S2000x9_S9x64_S2000x64_1_0_0_1_n_n 9 rfl rfl).symm k) = ix2 r k := funext fun a => Fin.ext (by
    match a with
    | ⟨0, _⟩ => exact lhsA_0 _ _
    | ⟨1, _⟩ => exact (lhsA_1 _ _).trans hk)
  have er : dot_S2000x9_S9x64_S2000x64_1_0_0_1_n_n.rhsIdx (ix2 r h) ((ValueIdx.contrEquiv1 dot_S2000x9_S9x64_S2000x64_1_0_0_1_n_n 9 rfl rfl).symm k) = ix2 k h := funext fun a => Fin.ext (by
    match a with
    | ⟨0, _⟩ => exact (rhsA_0 _ _).trans hk
    | ⟨1, _⟩ => exact rhsA_1 _ _)
  rw [el, er]

theorem lhsB_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhsB_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhsB_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhsB_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The second product at an index: a sum over the 64 hidden features. -/
theorem mmB_apply (a : FVec Ideal S2000x64 .bf16) (b : FVec Ideal S64x64 .bf16) (r : Fin 2000) (h : Fin 64) :
    FloatOps.matmul dot_S2000x64_S64x64_S2000x64_1_0_0_1_n_n none a b (constant (F := Ideal) S2000x64 .f32 0x00000000#32) (ix2 r h)
      = ∑ k : Fin 64, a (ix2 r k) * b (ix2 k h) := by
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 r h) ((ValueIdx.contrEquiv1 dot_S2000x64_S64x64_S2000x64_1_0_0_1_n_n 64 rfl rfl).symm k) = ix2 r k := funext fun a => Fin.ext (by
    match a with
    | ⟨0, _⟩ => exact lhsB_0 _ _
    | ⟨1, _⟩ => exact (lhsB_1 _ _).trans hk)
  have er : dot_S2000x64_S64x64_S2000x64_1_0_0_1_n_n.rhsIdx (ix2 r h) ((ValueIdx.contrEquiv1 dot_S2000x64_S64x64_S2000x64_1_0_0_1_n_n 64 rfl rfl).symm k) = ix2 k h := funext fun a => Fin.ext (by
    match a with
    | ⟨0, _⟩ => exact (rhsB_0 _ _).trans hk
    | ⟨1, _⟩ => exact rhsB_1 _ _)
  rw [el, er]

/-! ## The body's arithmetic at an index -/

/-- The body's arithmetic at row r, feature h of the block is the node update of the block's row r. -/
theorem pay_apply (x0 x1 : Vec Ideal S2000x9 .f32) (x2 : Vec Ideal S9x64 .f32) (x3 : Vec Ideal S1x64 .f32)
    (x4 : Vec Ideal S64x64 .f32) (x5 : Vec Ideal S1x64 .f32) (r : Fin 2000) (h : Fin 64) :
    k0_pay1 (F := Ideal) x0 x1 x2 x3 x4 x5 (ix2 r h)
      = update (fun k => x0 (ix2 r k)) (fun k => x1 (ix2 r k)) x2 x3 x4 x5 h := by
  unfold k0_pay1 update layer
  simp only [shapeCast_self]
  rw [maximumf_apply, addf_apply, broadcast_apply, broadcastTo_1b_ab_apply]
  refine congrArg₂ max (congrArg (· + x5 (ix2 0 h)) ((mmB_apply _ _ r h).trans (Finset.sum_congr rfl fun k' _ => ?_))) rfl
  rw [truncf_apply, truncf_apply, maximumf_apply, addf_apply, broadcast_apply, broadcastTo_1b_ab_apply]
  refine congrArg (· * x4 (ix2 k' h)) (congrArg₂ max (congrArg (· + x3 (ix2 0 k')) ((mmA_apply _ _ r k').trans (Finset.sum_congr rfl fun k _ => ?_))) rfl)
  rw [truncf_apply, truncf_apply, addf_apply]

-- The TensorCore's buffer contents when the region is entered.
variable (V : (c : Dev nD) → (b : Ref sig .tc) → Buf (Elt Ideal) ((c : Thread nD τ).loc b))

/-- The arrays the region's six input windows read, at their literal types. -/
abbrev xs (c : Dev nD) : FVec Ideal S50000x9 .f32 := V c main_arg0
abbrev ag (c : Dev nD) : FVec Ideal S50000x9 .f32 := V c main_v14
abbrev wa (c : Dev nD) : FVec Ideal S9x64 .f32 := V c main_v15
abbrev ba (c : Dev nD) : FVec Ideal S1x64 .f32 := V c main_v17
abbrev wb (c : Dev nD) : FVec Ideal S64x64 .f32 := V c main_v16
abbrev bb (c : Dev nD) : FVec Ideal S1x64 .f32 := V c main_v18

/-- The output array after the region's last point, at its literal type. -/
abbrev out (c : Dev nD) : FVec Ideal S50000x64 .f32 := (dat0 (F := Ideal) V c).arrAt 6 cfg0.N

/-! ## From blocks to the array

Point t reads rows 2000·t … 2000·t + 1999 of the node features and of the aggregated messages and the whole weights and
biases, and writes back rows 2000·t … of the result; every row n lies in the block of point n / 2000. -/

theorem hz : (![0, 0] : Fin 2 → Nat) = fun _ => 0 := funext fun a => by fin_cases a <;> rfl

/-- The whole result as one function of the six arrays: row n, feature h is the node update of row n. -/
def wholeUpdate (X A : FVec Ideal S50000x9 .f32) (Wa : FVec Ideal S9x64 .f32) (Ba : FVec Ideal S1x64 .f32)
    (Wb : FVec Ideal S64x64 .f32) (Bb : FVec Ideal S1x64 .f32) : S50000x64.Idx → EReal := fun i =>
  update (fun k => X (ix2 (⟨(i 0).val, idx2_lt0 i⟩ : Fin 50000) k)) (fun k => A (ix2 (⟨(i 0).val, idx2_lt0 i⟩ : Fin 50000) k))
    Wa Ba Wb Bb (⟨(i 1).val, idx2_lt1 i⟩ : Fin 64)

/-- The block index maps, decided once over the grid: windows 0, 1 and 6 move with the point along the rows, the
    weights and biases are whole. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A point of the grid is below 25. -/
theorem point_lt (t : Fin cfg0.N) : t.val < 25 := lt_of_lt_of_eq t.isLt N_0

/-- Row p of window 0's block at point t is row 2000·t + p of the node features. -/
theorem blk0_apply (c : Dev nD) (t : Fin cfg0.N) (p : Fin 2000) (k : Fin 9) (n : Fin 50000) (hn : n.val = 2000 * t.val + p.val) :
    (iblk0 V c 0 t : Vec Ideal S2000x9 .f32) (ix2 p k) = xs V c (ix2 n k) := by
  obtain ⟨e0, e1, -⟩ := idx_facts t
  show xs V c (((cfg0.win 0).blk t).view.emb (ix2 p k)) = xs V c (ix2 n k)
  refine congrArg (xs V c) (funext fun a => Fin.ext ?_)
  match a with
  | ⟨0, _⟩ => show win0_0.index t (0 : Fin 2) * 2000 + 1 * p.val = n.val; rw [e0, hn]; omega
  | ⟨1, _⟩ => show win0_0.index t (1 : Fin 2) * 9 + 1 * k.val = k.val; rw [e1]; omega

/-- Row p of window 1's block at point t is row 2000·t + p of the aggregated messages. -/
theorem blk1_apply (c : Dev nD) (t : Fin cfg0.N) (p : Fin 2000) (k : Fin 9) (n : Fin 50000) (hn : n.val = 2000 * t.val + p.val) :
    (iblk0 V c 1 t : Vec Ideal S2000x9 .f32) (ix2 p k) = ag V c (ix2 n k) := by
  obtain ⟨-, -, e0, e1, -⟩ := idx_facts t
  show ag V c (((cfg0.win 1).blk t).view.emb (ix2 p k)) = ag V c (ix2 n k)
  refine congrArg (ag V c) (funext fun a => Fin.ext ?_)
  match a with
  | ⟨0, _⟩ => show win0_1.index t (0 : Fin 2) * 2000 + 1 * p.val = n.val; rw [e0, hn]; omega
  | ⟨1, _⟩ => show win0_1.index t (1 : Fin 2) * 9 + 1 * k.val = k.val; rw [e1]; omega

/-- Window 2's block is the whole first weight matrix at every point. -/
theorem blk2_eq (c : Dev nD) (t : Fin cfg0.N) : (iblk0 V c 2 t : Vec Ideal S9x64 .f32) = wa V c := by
  obtain ⟨-, -, -, -, e0, e1, -⟩ := idx_facts t
  funext y
  show wa V c (((cfg0.win 2).blk t).view.emb y) = wa V c y
  refine congrArg (wa V c) (funext fun a => Fin.ext ?_)
  match a with
  | ⟨0, _⟩ => show win0_2.index t (0 : Fin 2) * 9 + 1 * (y 0).val = (y 0).val; rw [e0]; omega
  | ⟨1, _⟩ => show win0_2.index t (1 : Fin 2) * 64 + 1 * (y 1).val = (y 1).val; rw [e1]; omega

/-- Window 3's block is the whole first bias row at every point. -/
theorem blk3_eq (c : Dev nD) (t : Fin cfg0.N) : (iblk0 V c 3 t : Vec Ideal S1x64 .f32) = ba V c := by
  obtain ⟨-, -, -, -, -, -, e0, e1, -⟩ := idx_facts t
  funext y
  show ba V c (((cfg0.win 3).blk t).view.emb y) = ba V c y
  refine congrArg (ba V c) (funext fun a => Fin.ext ?_)
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- Window 4's block is the whole second weight matrix at every point. -/
theorem blk4_eq (c : Dev nD) (t : Fin cfg0.N) : (iblk0 V c 4 t : Vec Ideal S64x64 .f32) = wb V c := by
  obtain ⟨-, -, -, -, -, -, -, -, e0, e1, -⟩ := idx_facts t
  funext y
  show wb V c (((cfg0.win 4).blk t).view.emb y) = wb V c y
  refine congrArg (wb V c) (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- Window 5's block is the whole second bias row at every point. -/
theorem blk5_eq (c : Dev nD) (t : Fin cfg0.N) : (iblk0 V c 5 t : Vec Ideal S1x64 .f32) = bb V c := by
  obtain ⟨-, -, -, -, -, -, -, -, -, -, e0, e1, -⟩ := idx_facts t
  funext y
  show bb V c (((cfg0.win 5).blk t).view.emb y) = bb V c y
  refine congrArg (bb V c) (funext fun a => Fin.ext ?_)
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- A point's arithmetic on blocks that hold row n of the node features and messages (at row p) and the whole
    weights and biases is the whole result at row n. -/
theorem point_value (X A : FVec Ideal S50000x9 .f32) (Wa : FVec Ideal S9x64 .f32) (Ba : FVec Ideal S1x64 .f32)
    (Wb : FVec Ideal S64x64 .f32) (Bb : FVec Ideal S1x64 .f32)
    (x0 x1 : Vec Ideal S2000x9 .f32) (x2 : Vec Ideal S9x64 .f32) (x3 : Vec Ideal S1x64 .f32)
    (x4 : Vec Ideal S64x64 .f32) (x5 : Vec Ideal S1x64 .f32) (p : Fin 2000) (q : Fin 64) (n : Fin 50000)
    (h0 : ∀ k : Fin 9, x0 (ix2 p k) = X (ix2 n k)) (h1 : ∀ k : Fin 9, x1 (ix2 p k) = A (ix2 n k))
    (h2 : x2 = Wa) (h3 : x3 = Ba) (h4 : x4 = Wb) (h5 : x5 = Bb) :
    k0_pay1 (F := Ideal) x0 x1 x2 x3 x4 x5 (ix2 p q) = wholeUpdate X A Wa Ba Wb Bb (ix2 n q) := by
  subst h2 h3 h4 h5
  rw [pay_apply, funext h0, funext h1]
  rfl

/-- What point t writes back is block t of the whole result. -/
theorem flushed_eq (c : Dev nD) (t : Fin cfg0.N) :
    (dat0 (F := Ideal) V c).flushed 6 t
      = ((cfg0.win 6).blk t).view.read (Elt Ideal) (wholeUpdate (xs V c) (ag V c) (wa V c) (ba V c) (wb V c) (bb V c)) := by
  show (cfg0.win 6).cut (grid0.coords t) ((dat0 V c).after 6 t) = _
  rw [after0_6]
  unfold out0_6
  rw [View.canon_unit_zero hz]
  simp only [View.ld_unit_zero (S := S2000x9) hz, View.ld_unit_zero (S := S9x64) hz, View.ld_unit_zero (S := S1x64) hz, View.ld_unit_zero (S := S64x64) hz]
  funext j
  have ht := point_lt t
  have hp : (j 0).val < 2000 := (j 0).isLt
  have hq : (j 1).val < 64 := (j 1).isLt
  obtain ⟨-, -, -, -, -, -, -, -, -, -, -, -, e0, e1⟩ := idx_facts t
  have hn : 2000 * t.val + (j 0).val < 50000 := by omega
  have ej : (win0_6.xinj (grid0.coords t) j : S2000x64.Idx) = ix2 (⟨(j 0).val, hp⟩ : Fin 2000) (⟨(j 1).val, hq⟩ : Fin 64) :=
    funext fun a => match a with | ⟨0, _⟩ => rfl | ⟨1, _⟩ => rfl
  have ei : (((cfg0.win 6).blk t).view.emb j : S50000x64.Idx) = ix2 (⟨2000 * t.val + (j 0).val, hn⟩ : Fin 50000) (⟨(j 1).val, hq⟩ : Fin 64) :=
    funext fun a => Fin.ext (by
      match a with
      | ⟨0, _⟩ => show win0_6.index t (0 : Fin 2) * 2000 + 1 * (j 0).val = 2000 * t.val + (j 0).val; rw [e0]; omega
      | ⟨1, _⟩ => show win0_6.index t (1 : Fin 2) * 64 + 1 * (j 1).val = (j 1).val; rw [e1]; omega)
  show k0_pay1 (F := Ideal) (iblk0 V c 0 t) (iblk0 V c 1 t) (iblk0 V c 2 t) (iblk0 V c 3 t) (iblk0 V c 4 t) (iblk0 V c 5 t) (win0_6.xinj (grid0.coords t) j)
    = wholeUpdate (xs V c) (ag V c) (wa V c) (ba V c) (wb V c) (bb V c) (((cfg0.win 6).blk t).view.emb j)
  rw [ej, ei]
  exact point_value (xs V c) (ag V c) (wa V c) (ba V c) (wb V c) (bb V c)
    (iblk0 V c 0 t) (iblk0 V c 1 t) (iblk0 V c 2 t) (iblk0 V c 3 t) (iblk0 V c 4 t) (iblk0 V c 5 t)
    ⟨(j 0).val, hp⟩ ⟨(j 1).val, hq⟩ ⟨2000 * t.val + (j 0).val, hn⟩
    (fun k => blk0_apply V c t ⟨(j 0).val, hp⟩ k ⟨2000 * t.val + (j 0).val, hn⟩ rfl)
    (fun k => blk1_apply V c t ⟨(j 0).val, hp⟩ k ⟨2000 * t.val + (j 0).val, hn⟩ rfl)
    (blk2_eq V c t) (blk3_eq V c t) (blk4_eq V c t) (blk5_eq V c t)

/-- An index of the result is in point t's block iff each coordinate is in the block's range on its axis. -/
theorem mem_blk (t : Fin cfg0.N) (i : S50000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v19).slice (win0_6.rect t)).set ↔ _
  rw [View.set_slice_whole, Rect.mem_set_unit]
  exact Iff.rfl

/-- Row n of the result is in the block of point n / 2000, which is written back. -/
theorem cover (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  obtain ⟨t, ht⟩ : ∃ t : Fin cfg0.N, t.val = (i 0).val / 2000 :=
    ⟨⟨(i 0).val / 2000, Nat.lt_of_lt_of_eq (show (i 0).val / 2000 < 25 by omega) N_0.symm⟩, rfl⟩
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; rw [e0, ht]; omega
  | ⟨1, _⟩ => show win0_6.index t (1 : Fin 2) * 64 ≤ (i 1).val ∧ (i 1).val < win0_6.index t (1 : Fin 2) * 64 + 64; rw [e1]; omega

/-- After the last point the output array is the whole result. -/
theorem out_eq (c : Dev nD) :
    out V c = wholeUpdate (xs V c) (ag V c) (wa V c) (ba V c) (wb V c) (bb V c) :=
  (dat0 (F := Ideal) V c).arrAt_eq_of_cover 6 (wholeUpdate (xs V c) (ag V c) (wa V c) (ba V c) (wb V c) (bb V c))
    (fun t _ => flushed_eq V c t) cover

/-- Row n, feature h of the region's output is the node update of row n. -/
theorem out_apply (c : Dev nD) (n : Fin 50000) (h : Fin 64) :
    out V c (ix2 n h)
      = update (fun k => xs V c (ix2 n k)) (fun k => ag V c (ix2 n k)) (wa V c) (ba V c) (wb V c) (bb V c) h :=
  congrFun (out_eq V c) (ix2 n h)

end Cert.KernelIdeal.Region0

end
-- ==== Proof.KRegion1.lean ====
/-
  The second kernel region (the node update of the second GINE layer fused with the readout), read as values over
  the extended reals. The grid has 25 points; point t stages rows 2000·t … 2000·t + 1999 of the first layer's node
  features, of the aggregated messages, of the terminal flags and of the costs, and the whole weights and one-row
  biases, and writes back the same rows of two one-column results. Row n of the first result is the row's
  probability (Spec: `prob`): the logistic readout of its second node update times one minus its terminal flag; row
  n of the second is that probability times the row's cost.
-/
import proofs.«400881_j31421980738093_3_alg».proof.Proof.Gen.KernelIdeal.Frame
import proofs.«400881_j31421980738093_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.NodeMlp
open Idealize.ShloMosaic Idealize.ShloMosaic.TcCoe Idealize.ShloMosaic.ValueIdx Idealize.SL.Sem
open Idealize.ShloMosaic.Pipeline (Dat)

/-! ## A product of two matrices into a zero accumulator, read at an entry -/

/-- A plain product of an [M, K] by a [K, N] matrix into the zero accumulator, read at entry (r, c), is the sum over the
    contraction index k of the products of the left operand's (r, k) and the right operand's (k, c) entries: the
    contraction's one axis is re-indexed by its coordinate, and the four axis facts say which coordinates the
    dimension numbers read. -/
theorem matmul_zero_entry {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (A : FVec Ideal (⟨2, ![M, K]⟩ : Shape) φ₁) (W : FVec Ideal (⟨2, ![K, N]⟩ : Shape) φ₂) (r : Fin M) (c : Fin N) :
    matmul D prec A W (constant (F := Ideal) (⟨2, ![M, N]⟩ : Shape) .f32 0x00000000#32) (ix2 r c)
      = ∑ k : Fin K, A (ix2 r k) * W (ix2 k c) := by
  simp only [matmul]
  rw [Ideal.matmul_constant_zero_apply, ← Equiv.sum_comp (ValueIdx.contrEquiv1 D K hr hs).symm]
  refine Finset.sum_congr rfl fun k _ => ?_
  have hk := ValueIdx.contrEquiv1_symm_val D K hr hs k
  have el : D.lhsIdx (ix2 r c) ((ValueIdx.contrEquiv1 D K hr hs).symm k) = ix2 r k := funext fun a => Fin.ext (by
    match a with
    | ⟨0, _⟩ => exact hl0 _ _
    | ⟨1, _⟩ => exact (hl1 _ _).trans hk)
  have er : D.rhsIdx (ix2 r c) ((ValueIdx.contrEquiv1 D K hr hs).symm k) = ix2 k c := funext fun a => Fin.ext (by
    match a with
    | ⟨0, _⟩ => exact (hr0 _ _).trans hk
    | ⟨1, _⟩ => exact hr1 _ _)
  rw [el, er]

/-! ## The region's three dimension records: which coordinates they read -/

theorem d64_lhs0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem d64_lhs1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem d64_rhs0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem d64_rhs1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The [2000, 64] by [64, 64] product at an entry. -/
theorem mm64_entry {φ₁ φ₂ : FTy} (A : FVec Ideal S2000x64 φ₁) (W : FVec Ideal S64x64 φ₂) (r : Fin 2000) (c : Fin 64) :
    matmul dot_S2000x64_S64x64_S2000x64_1_0_0_1_n_n none A W (constant (F := Ideal) S2000x64 .f32 0x00000000#32) (ix2 r c)
      = ∑ k : Fin 64, A (ix2 r k) * W (ix2 k c) :=
  matmul_zero_entry dot_S2000x64_S64x64_S2000x64_1_0_0_1_n_n rfl rfl d64_lhs0 d64_lhs1 d64_rhs0 d64_rhs1 none A W r c

theorem d32_lhs0 (i : S2000x32.Idx) (q : dot_S2000x64_S64x32_S2000x32_1_0_0_1_n_n.contr.Idx) :
    (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem d32_lhs1 (i : S2000x32.Idx) (q : dot_S2000x64_S64x32_S2000x32_1_0_0_1_n_n.contr.Idx) :
    (dot_S2000x64_S64x32_S2000x32_1_0_0_1_n_n.lhsIdx i q 1).val = (q ⟨0, by decide⟩).val :=
  dot_S2000x64_S64x32_S2000x32_1_0_0_1_n_n.lhsIdx_val_of_single rfl i q
theorem d32_rhs0 (i : S2000x32.Idx) (q : dot_S2000x64_S64x32_S2000x32_1_0_0_1_n_n.contr.Idx) :
    (dot_S2000x64_S64x32_S2000x32_1_0_0_1_n_n.rhsIdx i q 0).val = (q ⟨0, by decide⟩).val :=
  dot_S2000x64_S64x32_S2000x32_1_0_0_1_n_n.rhsIdx_val_of_single rfl i q
theorem d32_rhs1 (i : S2000x32.Idx) (q : dot_S2000x64_S64x32_S2000x32_1_0_0_1_n_n.contr.Idx) :
    (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- The [2000, 64] by [64, 32] product at an entry. -/
theorem mm32_entry {φ₁ φ₂ : FTy} (A : FVec Ideal S2000x64 φ₁) (W : FVec Ideal S64x32 φ₂) (r : Fin 2000) (c : Fin 32) :
    matmul dot_S2000x64_S64x32_S2000x32_1_0_0_1_n_n none A W (constant (F := Ideal) S2000x32 .f32 0x00000000#32) (ix2 r c)
      = ∑ k : Fin 64, A (ix2 r k) * W (ix2 k c) :=
  matmul_zero_entry dot_S2000x64_S64x32_S2000x32_1_0_0_1_n_n rfl rfl d32_lhs0 d32_lhs1 d32_rhs0 d32_rhs1 none A W r c

theorem d1_lhs0 (i : S2000x1.Idx) (q : dot_S2000x32_S32x1_S2000x1_1_0_0_1_n_n.contr.Idx) :
    (dot_S2000x32_S32x1_S2000x1_1_0_0_1_n_n.lhsIdx i q 0).val = (i 0).val := by
  unfold DotDims.lhsIdx
  rw [dif_neg (show ¬(0 : Fin S2000x32.rank) ∈ dot_S2000x32_S32x1_S2000x1_1_0_0_1_n_n.lhsBatch by decide), dif_pos (show (0 : Fin S2000x32.rank) ∈ dot_S2000x32_S32x1_S2000x1_1_0_0_1_n_n.lhsNonContracting by decide)]
  rfl
theorem d1_lhs1 (i : S2000x1.Idx) (q : dot_S2000x32_S32x1_S2000x1_1_0_0_1_n_n.contr.Idx) :
    (dot_S2000x32_S32x1_S2000x1_1_0_0_1_n_n.lhsIdx i q 1).val = (q ⟨0, by decide⟩).val :=
  dot_S2000x32_S32x1_S2000x1_1_0_0_1_n_n.lhsIdx_val_of_single rfl i q
theorem d1_rhs0 (i : S2000x1.Idx) (q : dot_S2000x32_S32x1_S2000x1_1_0_0_1_n_n.contr.Idx) :
    (dot_S2000x32_S32x1_S2000x1_1_0_0_1_n_n.rhsIdx i q 0).val = (q ⟨0, by decide⟩).val :=
  dot_S2000x32_S32x1_S2000x1_1_0_0_1_n_n.rhsIdx_val_of_single rfl i q
theorem d1_rhs1 (i : S2000x1.Idx) (q : dot_S2000x32_S32x1_S2000x1_1_0_0_1_n_n.contr.Idx) :
    (dot_S2000x32_S32x1_S2000x1_1_0_0_1_n_n.rhsIdx i q 1).val = (i 1).val := by
  unfold DotDims.rhsIdx
  rw [dif_neg (show ¬(1 : Fin S32x1.rank) ∈ dot_S2000x32_S32x1_S2000x1_1_0_0_1_n_n.rhsBatch by decide), dif_pos (show (1 : Fin S32x1.rank) ∈ dot_S2000x32_S32x1_S2000x1_1_0_0_1_n_n.rhsNonContracting by decide)]
  rfl

/-- The [2000, 32] by [32, 1] product at an entry. -/
theorem mm1_entry {φ₁ φ₂ : FTy} (A : FVec Ideal S2000x32 φ₁) (W : FVec Ideal S32x1 φ₂) (r : Fin 2000) (c : Fin 1) :
    matmul dot_S2000x32_S32x1_S2000x1_1_0_0_1_n_n none A W (constant (F := Ideal) S2000x1 .f32 0x00000000#32) (ix2 r c)
      = ∑ k : Fin 32, A (ix2 r k) * W (ix2 k c) :=
  matmul_zero_entry dot_S2000x32_S32x1_S2000x1_1_0_0_1_n_n rfl rfl d1_lhs0 d1_lhs1 d1_rhs0 d1_rhs1 none A W r c

/-! ## The body's three payloads at an entry -/

/-- The word of 1.0 is the extended real 1. -/
theorem one_eq : (one : EReal) = 1 := by
  show Ideal.ofBits .f32 0x3F800000#32 = 1
  simp [Ideal.ofBits, Ideal.ieee, -EReal.coe_mul]; norm_num

/-- Spec's logistic function is the extended reals' one. -/
theorem sig_eq (z : EReal) : Cert.NodeMlp.sig z = Ideal.logistic z := by
  unfold Cert.NodeMlp.sig Ideal.logistic
  rw [one_eq]

/-- The logistic function of a vector, read at an index. -/
theorem logistic_entry {s : Shape} {φ : FTy} (v : FVec Ideal s φ) (i : s.Idx) : logistic v i = Ideal.logistic (v i) := rfl

/-- The third dense layer's positive part (the readout's hidden features) of row r of the staged blocks. -/
theorem pay3_entry (x0 x1 : Vec Ideal S2000x64 .f32) (x2 : Vec Ideal S64x64 .f32) (x3 : Vec Ideal S1x64 .f32)
    (x4 : Vec Ideal S64x64 .f32) (x5 : Vec Ideal S1x64 .f32) (x8 : Vec Ideal S64x32 .f32) (x9 : Vec Ideal S1x32 .f32)
    (r : Fin 2000) (q : Fin 32) :
    k1_pay3 (F := Ideal) x0 x1 x2 x3 x4 x5 x8 x9 (ix2 r q)
      = layer (fun h => update (fun k => x0 (ix2 r k)) (fun k => x1 (ix2 r k)) x2 x3 x4 x5 h) x8 x9 q := by
  unfold k1_pay3
  simp only [shapeCast_self]
  simp only [maximumf_apply, addf_apply, broadcast_apply, broadcastTo_1b_ab_apply, mm64_entry, mm32_entry, truncf_apply]
  rfl

/-- The first stored value of row r: the logistic readout of the hidden features times one minus the flag. -/
theorem pay1_entry (g : FVec Ideal S2000x32 .f32) (x10 : Vec Ideal S32x1 .f32) (x11 : Vec Ideal S1x1 .f32)
    (x6 : Vec Ideal S2000x1 .f32) (r : Fin 2000) :
    k1_pay1 (F := Ideal) g x10 x11 x6 (ix2 r (0 : Fin 1))
      = Cert.NodeMlp.sig ((∑ q : Fin 32, g (ix2 r q) * x10 (ix2 q (0 : Fin 1))) + x11 (ix2 (0 : Fin 1) (0 : Fin 1)))
          * (one - x6 (ix2 r (0 : Fin 1))) := by
  unfold k1_pay1
  simp only [shapeCast_self]
  rw [mulf_apply, subf_apply, broadcast_apply, sig_eq, logistic_entry, addf_apply, broadcastTo_1b_ab_apply, mm1_entry]
  rfl

/-- The second stored value of row r: the first times the row's cost. -/
theorem pay2_entry (g : FVec Ideal S2000x32 .f32) (x10 : Vec Ideal S32x1 .f32) (x11 : Vec Ideal S1x1 .f32)
    (x6 x7 : Vec Ideal S2000x1 .f32) (r : Fin 2000) :
    k1_pay2 (F := Ideal) g x10 x11 x6 x7 (ix2 r (0 : Fin 1))
      = k1_pay1 (F := Ideal) g x10 x11 x6 (ix2 r (0 : Fin 1)) * x7 (ix2 r (0 : Fin 1)) := by
  unfold k1_pay2
  simp only [shapeCast_self]
  rw [mulf_apply]

/-- Row r's probability from the staged blocks. -/
theorem prob_entry (x0 x1 : Vec Ideal S2000x64 .f32) (x2 : Vec Ideal S64x64 .f32) (x3 : Vec Ideal S1x64 .f32)
    (x4 : Vec Ideal S64x64 .f32) (x5 : Vec Ideal S1x64 .f32) (x6 : Vec Ideal S2000x1 .f32) (x8 : Vec Ideal S64x32 .f32)
    (x9 : Vec Ideal S1x32 .f32) (x10 : Vec Ideal S32x1 .f32) (x11 : Vec Ideal S1x1 .f32) (r : Fin 2000) :
    k1_pay1 (F := Ideal) (k1_pay3 (F := Ideal) x0 x1 x2 x3 x4 x5 x8 x9) x10 x11 x6 (ix2 r (0 : Fin 1))
      = prob (fun k => x0 (ix2 r k)) (fun k => x1 (ix2 r k)) x2 x3 x4 x5 x8 x9 x10 x11 (x6 (ix2 r (0 : Fin 1))) := by
  rw [pay1_entry]
  simp only [pay3_entry]
  rfl
-- The TensorCore's buffer contents when the region is entered.
variable (V : (c : Dev nD) → (b : Ref sig .tc) → Buf (Elt Ideal) ((c : Thread nD τ).loc b))

/-- The arrays the region's twelve input windows read, at their literal types. -/
abbrev hs (c : Dev nD) : FVec Ideal S50000x64 .f32 := V c main_v19
abbrev ag (c : Dev nD) : FVec Ideal S50000x64 .f32 := V c main_v30
abbrev wa (c : Dev nD) : FVec Ideal S64x64 .f32 := V c main_v34
abbrev ba (c : Dev nD) : FVec Ideal S1x64 .f32 := V c main_v36
abbrev wb (c : Dev nD) : FVec Ideal S64x64 .f32 := V c main_v35
abbrev bb (c : Dev nD) : FVec Ideal S1x64 .f32 := V c main_v37
abbrev tm (c : Dev nD) : FVec Ideal S50000x1 .f32 := V c main_v32
abbrev cs (c : Dev nD) : FVec Ideal S50000x1 .f32 := V c main_v33
abbrev w1 (c : Dev nD) : FVec Ideal S64x32 .f32 := V c main_v38
abbrev b1 (c : Dev nD) : FVec Ideal S1x32 .f32 := V c main_v40
abbrev w2 (c : Dev nD) : FVec Ideal S32x1 .f32 := V c main_v39
abbrev b2 (c : Dev nD) : FVec Ideal S1x1 .f32 := V c main_v41

/-- The two output arrays after the region's last point, at their literal types. -/
abbrev outP (c : Dev nD) : FVec Ideal S50000x1 .f32 := (dat1 (F := Ideal) V c).arrAt 12 cfg1.N
abbrev outE (c : Dev nD) : FVec Ideal S50000x1 .f32 := (dat1 (F := Ideal) V c).arrAt 13 cfg1.N

/-! ## The windows' blocks as parts of the region's arrays -/

theorem zero_offsets : (![0, 0] : Fin 2 → Nat) = fun _ => 0 := funext fun a => by fin_cases a <;> rfl

/-- The printed index maps, decided over the grid: the six row-indexed windows are at block t on the rows' axis at
    point t, and every other block index is 0. -/
theorem index_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0
    ∧ win1_7.index t (0 : Fin 2) = t.val
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = t.val
    ∧ win1_12.index t (1 : Fin 2) = 0
    ∧ win1_13.index t (0 : Fin 2) = t.val
    ∧ win1_13.index t (1 : Fin 2) = 0 :=
  (by decide +kernel : ∀ t : Fin grid1.N, _)

/-- Window 0's block at point t, at row p, is row 2000·t + p of its array. -/
theorem blk0_entry (c : Dev nD) (t : Fin cfg1.N) (p : Fin 2000) (k : Fin 64) (n : Fin 50000)
    (hn : n.val = t.val * 2000 + p.val) :
    (iblk1 (F := Ideal) V c 0 t : Vec Ideal S2000x64 .f32) (ix2 p k) = hs V c (ix2 n k) := by
  have e0 : win1_0.index t (0 : Fin 2) = t.val := (index_facts t).1
  have e1 : win1_0.index t (1 : Fin 2) = 0 := (index_facts t).2.1
  show V c main_v19 (((cfg1.win 0).blk t).view.emb (ix2 p k)) = V c main_v19 (ix2 n k)
  refine congrArg (V c main_v19) (funext fun a => Fin.ext ?_)
  match a with
  | ⟨0, _⟩ => show win1_0.index t (0 : Fin 2) * 2000 + 1 * p.val = n.val; rw [e0, hn]; omega
  | ⟨1, _⟩ => show win1_0.index t (1 : Fin 2) * 64 + 1 * k.val = k.val; rw [e1]; omega

/-- Window 1's block at point t, at row p, is row 2000·t + p of its array. -/
theorem blk1_entry (c : Dev nD) (t : Fin cfg1.N) (p : Fin 2000) (k : Fin 64) (n : Fin 50000)
    (hn : n.val = t.val * 2000 + p.val) :
    (iblk1 (F := Ideal) V c 1 t : Vec Ideal S2000x64 .f32) (ix2 p k) = ag V c (ix2 n k) := by
  have e0 : win1_1.index t (0 : Fin 2) = t.val := (index_facts t).2.2.1
  have e1 : win1_1.index t (1 : Fin 2) = 0 := (index_facts t).2.2.2.1
  show V c main_v30 (((cfg1.win 1).blk t).view.emb (ix2 p k)) = V c main_v30 (ix2 n k)
  refine congrArg (V c main_v30) (funext fun a => Fin.ext ?_)
  match a with
  | ⟨0, _⟩ => show win1_1.index t (0 : Fin 2) * 2000 + 1 * p.val = n.val; rw [e0, hn]; omega
  | ⟨1, _⟩ => show win1_1.index t (1 : Fin 2) * 64 + 1 * k.val = k.val; rw [e1]; omega

/-- Window 6's block at point t, at row p, is row 2000·t + p of its array. -/
theorem blk6_entry (c : Dev nD) (t : Fin cfg1.N) (p : Fin 2000) (k : Fin 1) (n : Fin 50000)
    (hn : n.val = t.val * 2000 + p.val) :
    (iblk1 (F := Ideal) V c 6 t : Vec Ideal S2000x1 .f32) (ix2 p k) = tm V c (ix2 n k) := by
  have e0 : win1_6.index t (0 : Fin 2) = t.val := (index_facts t).2.2.2.2.2.2.2.2.2.2.2.2.1
  have e1 : win1_6.index t (1 : Fin 2) = 0 := (index_facts t).2.2.2.2.2.2.2.2.2.2.2.2.2.1
  show V c main_v32 (((cfg1.win 6).blk t).view.emb (ix2 p k)) = V c main_v32 (ix2 n k)
  refine congrArg (V c main_v32) (funext fun a => Fin.ext ?_)
  match a with
  | ⟨0, _⟩ => show win1_6.index t (0 : Fin 2) * 2000 + 1 * p.val = n.val; rw [e0, hn]; omega
  | ⟨1, _⟩ => show win1_6.index t (1 : Fin 2) * 1 + 1 * k.val = k.val; rw [e1]; omega

/-- Window 7's block at point t, at row p, is row 2000·t + p of its array. -/
theorem blk7_entry (c : Dev nD) (t : Fin cfg1.N) (p : Fin 2000) (k : Fin 1) (n : Fin 50000)
    (hn : n.val = t.val * 2000 + p.val) :
    (iblk1 (F := Ideal) V c 7 t : Vec Ideal S2000x1 .f32) (ix2 p k) = cs V c (ix2 n k) := by
  have e0 : win1_7.index t (0 : Fin 2) = t.val := (index_facts t).2.2.2.2.2.2.2.2.2.2.2.2.2.2.1
  have e1 : win1_7.index t (1 : Fin 2) = 0 := (index_facts t).2.2.2.2.2.2.2.2.2.2.2.2.2.2.2.1
  show V c main_v33 (((cfg1.win 7).blk t).view.emb (ix2 p k)) = V c main_v33 (ix2 n k)
  refine congrArg (V c main_v33) (funext fun a => Fin.ext ?_)
  match a with
  | ⟨0, _⟩ => show win1_7.index t (0 : Fin 2) * 2000 + 1 * p.val = n.val; rw [e0, hn]; omega
  | ⟨1, _⟩ => show win1_7.index t (1 : Fin 2) * 1 + 1 * k.val = k.val; rw [e1]; omega

/-- Window 2's block at every point is its whole array. -/
theorem blk2_eq (c : Dev nD) (t : Fin cfg1.N) : (iblk1 (F := Ideal) V c 2 t : Vec Ideal S64x64 .f32) = wa V c := by
  have e0 : win1_2.index t (0 : Fin 2) = 0 := (index_facts t).2.2.2.2.1
  have e1 : win1_2.index t (1 : Fin 2) = 0 := (index_facts t).2.2.2.2.2.1
  funext y
  show V c main_v34 (((cfg1.win 2).blk t).view.emb y) = V c main_v34 y
  refine congrArg (V c main_v34) (funext fun a => Fin.ext ?_)
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- Window 3's block at every point is its whole array. -/
theorem blk3_eq (c : Dev nD) (t : Fin cfg1.N) : (iblk1 (F := Ideal) V c 3 t : Vec Ideal S1x64 .f32) = ba V c := by
  have e0 : win1_3.index t (0 : Fin 2) = 0 := (index_facts t).2.2.2.2.2.2.1
  have e1 : win1_3.index t (1 : Fin 2) = 0 := (index_facts t).2.2.2.2.2.2.2.1
  funext y
  show V c main_v36 (((cfg1.win 3).blk t).view.emb y) = V c main_v36 y
  refine congrArg (V c main_v36) (funext fun a => Fin.ext ?_)
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- Window 4's block at every point is its whole array. -/
theorem blk4_eq (c : Dev nD) (t : Fin cfg1.N) : (iblk1 (F := Ideal) V c 4 t : Vec Ideal S64x64 .f32) = wb V c := by
  have e0 : win1_4.index t (0 : Fin 2) = 0 := (index_facts t).2.2.2.2.2.2.2.2.1
  have e1 : win1_4.index t (1 : Fin 2) = 0 := (index_facts t).2.2.2.2.2.2.2.2.2.1
  funext y
  show V c main_v35 (((cfg1.win 4).blk t).view.emb y) = V c main_v35 y
  refine congrArg (V c main_v35) (funext fun a => Fin.ext ?_)
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- Window 5's block at every point is its whole array. -/
theorem blk5_eq (c : Dev nD) (t : Fin cfg1.N) : (iblk1 (F := Ideal) V c 5 t : Vec Ideal S1x64 .f32) = bb V c := by
  have e0 : win1_5.index t (0 : Fin 2) = 0 := (index_facts t).2.2.2.2.2.2.2.2.2.2.1
  have e1 : win1_5.index t (1 : Fin 2) = 0 := (index_facts t).2.2.2.2.2.2.2.2.2.2.2.1
  funext y
  show V c main_v37 (((cfg1.win 5).blk t).view.emb y) = V c main_v37 y
  refine congrArg (V c main_v37) (funext fun a => Fin.ext ?_)
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- Window 8's block at every point is its whole array. -/
theorem blk8_eq (c : Dev nD) (t : Fin cfg1.N) : (iblk1 (F := Ideal) V c 8 t : Vec Ideal S64x32 .f32) = w1 V c := by
  have e0 : win1_8.index t (0 : Fin 2) = 0 := (index_facts t).2.2.2.2.2.2.2.2.2.2.2.2.2.2.2.2.1
  have e1 : win1_8.index t (1 : Fin 2) = 0 := (index_facts t).2.2.2.2.2.2.2.2.2.2.2.2.2.2.2.2.2.1
  funext y
  show V c main_v38 (((cfg1.win 8).blk t).view.emb y) = V c main_v38 y
  refine congrArg (V c main_v38) (funext fun a => Fin.ext ?_)
  match a with
  | ⟨0, _⟩ => show win1_8.index t (0 : Fin 2) * 64 + 1 * (y 0).val = (y 0).val; rw [e0]; omega
  | ⟨1, _⟩ => show win1_8.index t (1 : Fin 2) * 32 + 1 * (y 1).val = (y 1).val; rw [e1]; omega

/-- Window 9's block at every point is its whole array. -/
theorem blk9_eq (c : Dev nD) (t : Fin cfg1.N) : (iblk1 (F := Ideal) V c 9 t : Vec Ideal S1x32 .f32) = b1 V c := by
  have e0 : win1_9.index t (0 : Fin 2) = 0 := (index_facts t).2.2.2.2.2.2.2.2.2.2.2.2.2.2.2.2.2.2.1
  have e1 : win1_9.index t (1 : Fin 2) = 0 := (index_facts t).2.2.2.2.2.2.2.2.2.2.2.2.2.2.2.2.2.2.2.1
  funext y
  show V c main_v40 (((cfg1.win 9).blk t).view.emb y) = V c main_v40 y
  refine congrArg (V c main_v40) (funext fun a => Fin.ext ?_)
  match a with
  | ⟨0, _⟩ => show win1_9.index t (0 : Fin 2) * 1 + 1 * (y 0).val = (y 0).val; rw [e0]; omega
  | ⟨1, _⟩ => show win1_9.index t (1 : Fin 2) * 32 + 1 * (y 1).val = (y 1).val; rw [e1]; omega

/-- Window 10's block at every point is its whole array. -/
theorem blk10_eq (c : Dev nD) (t : Fin cfg1.N) : (iblk1 (F := Ideal) V c 10 t : Vec Ideal S32x1 .f32) = w2 V c := by
  have e0 : win1_10.index t (0 : Fin 2) = 0 := (index_facts t).2.2.2.2.2.2.2.2.2.2.2.2.2.2.2.2.2.2.2.2.1
  have e1 : win1_10.index t (1 : Fin 2) = 0 := (index_facts t).2.2.2.2.2.2.2.2.2.2.2.2.2.2.2.2.2.2.2.2.2.1
  funext y
  show V c main_v39 (((cfg1.win 10).blk t).view.emb y) = V c main_v39 y
  refine congrArg (V c main_v39) (funext fun a => Fin.ext ?_)
  match a with
  | ⟨0, _⟩ => show win1_10.index t (0 : Fin 2) * 32 + 1 * (y 0).val = (y 0).val; rw [e0]; omega
  | ⟨1, _⟩ => show win1_10.index t (1 : Fin 2) * 1 + 1 * (y 1).val = (y 1).val; rw [e1]; omega

/-- Window 11's block at every point is its whole array. -/
theorem blk11_eq (c : Dev nD) (t : Fin cfg1.N) : (iblk1 (F := Ideal) V c 11 t : Vec Ideal S1x1 .f32) = b2 V c := by
  have e0 : win1_11.index t (0 : Fin 2) = 0 := (index_facts t).2.2.2.2.2.2.2.2.2.2.2.2.2.2.2.2.2.2.2.2.2.2.1
  have e1 : win1_11.index t (1 : Fin 2) = 0 := (index_facts t).2.2.2.2.2.2.2.2.2.2.2.2.2.2.2.2.2.2.2.2.2.2.2.1
  funext y
  show V c main_v41 (((cfg1.win 11).blk t).view.emb y) = V c main_v41 y
  refine congrArg (V c main_v41) (funext fun a => Fin.ext ?_)
  match a with
  | ⟨0, _⟩ => show win1_11.index t (0 : Fin 2) * 1 + 1 * (y 0).val = (y 0).val; rw [e0]; omega
  | ⟨1, _⟩ => show win1_11.index t (1 : Fin 2) * 1 + 1 * (y 1).val = (y 1).val; rw [e1]; omega

/-! ## The two outputs as whole-array functions, and what each point writes back -/

/-- Row n's probability, from the arrays the region finds. -/
def rowProb (c : Dev nD) (n : Fin 50000) : EReal :=
  prob (fun k => hs V c (ix2 n k)) (fun k => ag V c (ix2 n k)) (wa V c) (ba V c) (wb V c) (bb V c)
    (w1 V c) (b1 V c) (w2 V c) (b2 V c) (tm V c (ix2 n (0 : Fin 1)))

/-- The first output as one function of the region's arrays: at (n, 0), row n's probability. -/
def wholeP (c : Dev nD) : S50000x1.Idx → EReal := fun i => rowProb V c ⟨(i 0).val, idx2_lt0 i⟩

/-- The second output likewise: at (n, 0), row n's probability times its cost. -/
def wholeE (c : Dev nD) : S50000x1.Idx → EReal :=
  fun i => rowProb V c ⟨(i 0).val, idx2_lt0 i⟩ * cs V c (ix2 ⟨(i 0).val, idx2_lt0 i⟩ (0 : Fin 1))

/-- Row p of point t's blocks gives row 2000·t + p's probability. -/
theorem prob_blocks (c : Dev nD) (t : Fin cfg1.N) (p : Fin 2000) (n : Fin 50000) (hn : n.val = t.val * 2000 + p.val) :
    k1_pay1 (F := Ideal) (k1_pay3 (F := Ideal) (iblk1 (F := Ideal) V c 0 t) (iblk1 (F := Ideal) V c 1 t) (iblk1 (F := Ideal) V c 2 t)
        (iblk1 (F := Ideal) V c 3 t) (iblk1 (F := Ideal) V c 4 t) (iblk1 (F := Ideal) V c 5 t) (iblk1 (F := Ideal) V c 8 t) (iblk1 (F := Ideal) V c 9 t))
        (iblk1 (F := Ideal) V c 10 t) (iblk1 (F := Ideal) V c 11 t) (iblk1 (F := Ideal) V c 6 t) (ix2 p (0 : Fin 1))
      = rowProb V c n := by
  refine (prob_entry (iblk1 (F := Ideal) V c 0 t) (iblk1 (F := Ideal) V c 1 t) (iblk1 (F := Ideal) V c 2 t)
    (iblk1 (F := Ideal) V c 3 t) (iblk1 (F := Ideal) V c 4 t) (iblk1 (F := Ideal) V c 5 t) (iblk1 (F := Ideal) V c 6 t) (iblk1 (F := Ideal) V c 8 t)
    (iblk1 (F := Ideal) V c 9 t) (iblk1 (F := Ideal) V c 10 t) (iblk1 (F := Ideal) V c 11 t) p).trans ?_
  have h0 : (fun k : Fin 64 => (iblk1 (F := Ideal) V c 0 t : Vec Ideal S2000x64 .f32) (ix2 p k)) = fun k => hs V c (ix2 n k) :=
    funext fun k => blk0_entry V c t p k n hn
  have h1 : (fun k : Fin 64 => (iblk1 (F := Ideal) V c 1 t : Vec Ideal S2000x64 .f32) (ix2 p k)) = fun k => ag V c (ix2 n k) :=
    funext fun k => blk1_entry V c t p k n hn
  rw [h0, h1, blk2_eq, blk3_eq, blk4_eq, blk5_eq, blk8_eq, blk9_eq, blk10_eq, blk11_eq, blk6_entry V c t p (0 : Fin 1) n hn]
  rfl

/-- The row of the array that row p of point t's output block lands on. -/
theorem out_row12 (t : Fin cfg1.N) (p : Fin 2000) :
    ((((cfg1.win 12).blk t).view.emb (ix2 p (0 : Fin 1))) 0).val = t.val * 2000 + p.val := by
  have e0 : win1_12.index t (0 : Fin 2) = t.val := (index_facts t).2.2.2.2.2.2.2.2.2.2.2.2.2.2.2.2.2.2.2.2.2.2.2.2.1
  show win1_12.index t (0 : Fin 2) * 2000 + 1 * p.val = _
  rw [e0]; omega
theorem out_row13 (t : Fin cfg1.N) (p : Fin 2000) :
    ((((cfg1.win 13).blk t).view.emb (ix2 p (0 : Fin 1))) 0).val = t.val * 2000 + p.val := by
  have e0 : win1_13.index t (0 : Fin 2) = t.val := (index_facts t).2.2.2.2.2.2.2.2.2.2.2.2.2.2.2.2.2.2.2.2.2.2.2.2.2.2.1
  show win1_13.index t (0 : Fin 2) * 2000 + 1 * p.val = _
  rw [e0]; omega

/-- What point t writes back to the first output is block t of `wholeP`. -/
theorem flushedP_eq (c : Dev nD) (t : Fin cfg1.N) :
    (dat1 (F := Ideal) V c).flushed 12 t = ((cfg1.win 12).blk t).view.read (Elt Ideal) (wholeP V c) := by
  show (cfg1.win 12).cut (grid1.coords t) ((dat1 (F := Ideal) V c).after 12 t) = _
  rw [after1_12]
  unfold out1_12
  rw [View.canon_unit_zero zero_offsets]
  simp only [View.ld_unit_zero (S := S2000x64) zero_offsets, View.ld_unit_zero (S := S64x64) zero_offsets,
    View.ld_unit_zero (S := S1x64) zero_offsets, View.ld_unit_zero (S := S64x32) zero_offsets,
    View.ld_unit_zero (S := S1x32) zero_offsets, View.ld_unit_zero (S := S32x1) zero_offsets,
    View.ld_unit_zero (S := S1x1) zero_offsets, View.ld_unit_zero (S := S2000x1) zero_offsets]
  funext j
  obtain ⟨p, q, rfl⟩ : ∃ (p : Fin 2000) (q : Fin 1), j = ix2 p q := ⟨j 0, j 1, eq_ix2 j⟩
  obtain rfl : q = 0 := Subsingleton.elim _ _
  have ht : t.val < 25 := t.isLt
  have hp : p.val < 2000 := p.isLt
  refine (prob_blocks V c t p ⟨t.val * 2000 + p.val, by omega⟩ rfl).trans ?_
  show _ = rowProb V c ⟨_, _⟩
  exact congrArg (rowProb V c) (Fin.ext (out_row12 t p).symm)

/-- What point t writes back to the second output is block t of `wholeE`. -/
theorem flushedE_eq (c : Dev nD) (t : Fin cfg1.N) :
    (dat1 (F := Ideal) V c).flushed 13 t = ((cfg1.win 13).blk t).view.read (Elt Ideal) (wholeE V c) := by
  show (cfg1.win 13).cut (grid1.coords t) ((dat1 (F := Ideal) V c).after 13 t) = _
  rw [after1_13]
  unfold out1_13
  rw [View.canon_unit_zero zero_offsets]
  simp only [View.ld_unit_zero (S := S2000x64) zero_offsets, View.ld_unit_zero (S := S64x64) zero_offsets,
    View.ld_unit_zero (S := S1x64) zero_offsets, View.ld_unit_zero (S := S64x32) zero_offsets,
    View.ld_unit_zero (S := S1x32) zero_offsets, View.ld_unit_zero (S := S32x1) zero_offsets,
    View.ld_unit_zero (S := S1x1) zero_offsets, View.ld_unit_zero (S := S2000x1) zero_offsets]
  funext j
  obtain ⟨p, q, rfl⟩ : ∃ (p : Fin 2000) (q : Fin 1), j = ix2 p q := ⟨j 0, j 1, eq_ix2 j⟩
  obtain rfl : q = 0 := Subsingleton.elim _ _
  have ht : t.val < 25 := t.isLt
  have hp : p.val < 2000 := p.isLt
  refine (pay2_entry _ _ _ _ _ p).trans ?_
  rw [prob_blocks V c t p ⟨t.val * 2000 + p.val, by omega⟩ rfl,
    blk7_entry V c t p (0 : Fin 1) ⟨t.val * 2000 + p.val, by omega⟩ rfl]
  have hrow : (⟨t.val * 2000 + p.val, by omega⟩ : Fin 50000)
      = ⟨((((cfg1.win 13).blk t).view.emb (ix2 p (0 : Fin 1))) 0).val, idx2_lt0 _⟩ := Fin.ext (out_row13 t p).symm
  show _ = rowProb V c ⟨_, _⟩ * cs V c (ix2 ⟨_, _⟩ (0 : Fin 1))
  rw [hrow]

/-! ## The blocks cover the arrays -/

/-- An index of the first output is in point t's block iff each coordinate is in the block's range on its axis. -/
theorem mem_blk12 (t : Fin cfg1.N) (i : S50000x1.Idx) :
    i ∈ ((cfg1.win 12).blk t).view.set ↔ ∀ a : Fin 2, win1_12.index t a * S2000x1.size a ≤ (i a).val ∧ (i a).val < win1_12.index t a * S2000x1.size a + S2000x1.size a := by
  show i ∈ ((View.whole main_v42_0).slice (win1_12.rect t)).set ↔ _
  rw [View.set_slice_whole, Rect.mem_set_unit]
  exact Iff.rfl
theorem mem_blk13 (t : Fin cfg1.N) (i : S50000x1.Idx) :
    i ∈ ((cfg1.win 13).blk t).view.set ↔ ∀ a : Fin 2, win1_13.index t a * S2000x1.size a ≤ (i a).val ∧ (i a).val < win1_13.index t a * S2000x1.size a + S2000x1.size a := by
  show i ∈ ((View.whole main_v42_1).slice (win1_13.rect t)).set ↔ _
  rw [View.set_slice_whole, Rect.mem_set_unit]
  exact Iff.rfl

/-- Row n of the first output is in the block of point n / 2000. -/
theorem cover12 (i : S50000x1.Idx) : ∃ t : Fin cfg1.N, (cfg1.win 12).flush t = true ∧ i ∈ ((cfg1.win 12).blk t).view.set := by
  have hi0 : (i 0).val < 50000 := (i 0).isLt
  have hi1 : (i 1).val < 1 := (i 1).isLt
  refine ⟨⟨(i 0).val / 2000, by show (i 0).val / 2000 < 25; omega⟩, flush1_12 _, ?_⟩
  rw [mem_blk12]
  have e0 := (index_facts ⟨(i 0).val / 2000, by show (i 0).val / 2000 < 25; omega⟩).2.2.2.2.2.2.2.2.2.2.2.2.2.2.2.2.2.2.2.2.2.2.2.2.1
  have e1 := (index_facts ⟨(i 0).val / 2000, by show (i 0).val / 2000 < 25; omega⟩).2.2.2.2.2.2.2.2.2.2.2.2.2.2.2.2.2.2.2.2.2.2.2.2.2.1
  intro a
  match a with
  | ⟨0, _⟩ =>
    show win1_12.index _ (0 : Fin 2) * 2000 ≤ (i 0).val ∧ (i 0).val < win1_12.index _ (0 : Fin 2) * 2000 + 2000
    rw [e0]; show (i 0).val / 2000 * 2000 ≤ (i 0).val ∧ (i 0).val < (i 0).val / 2000 * 2000 + 2000; omega
  | ⟨1, _⟩ =>
    show win1_12.index _ (1 : Fin 2) * 1 ≤ (i 1).val ∧ (i 1).val < win1_12.index _ (1 : Fin 2) * 1 + 1
    rw [e1]; omega
theorem cover13 (i : S50000x1.Idx) : ∃ t : Fin cfg1.N, (cfg1.win 13).flush t = true ∧ i ∈ ((cfg1.win 13).blk t).view.set := by
  have hi0 : (i 0).val < 50000 := (i 0).isLt
  have hi1 : (i 1).val < 1 := (i 1).isLt
  refine ⟨⟨(i 0).val / 2000, by show (i 0).val / 2000 < 25; omega⟩, flush1_13 _, ?_⟩
  rw [mem_blk13]
  have e0 := (index_facts ⟨(i 0).val / 2000, by show (i 0).val / 2000 < 25; omega⟩).2.2.2.2.2.2.2.2.2.2.2.2.2.2.2.2.2.2.2.2.2.2.2.2.2.2.1
  have e1 := (index_facts ⟨(i 0).val / 2000, by show (i 0).val / 2000 < 25; omega⟩).2.2.2.2.2.2.2.2.2.2.2.2.2.2.2.2.2.2.2.2.2.2.2.2.2.2.2
  intro a
  match a with
  | ⟨0, _⟩ =>
    show win1_13.index _ (0 : Fin 2) * 2000 ≤ (i 0).val ∧ (i 0).val < win1_13.index _ (0 : Fin 2) * 2000 + 2000
    rw [e0]; show (i 0).val / 2000 * 2000 ≤ (i 0).val ∧ (i 0).val < (i 0).val / 2000 * 2000 + 2000; omega
  | ⟨1, _⟩ =>
    show win1_13.index _ (1 : Fin 2) * 1 ≤ (i 1).val ∧ (i 1).val < win1_13.index _ (1 : Fin 2) * 1 + 1
    rw [e1]; omega

/-- The first output after the region's last point is `wholeP`; the second is `wholeE`. -/
theorem outP_eq (c : Dev nD) : outP V c = wholeP V c :=
  (dat1 (F := Ideal) V c).arrAt_eq_of_cover 12 (wholeP V c) (fun t _ => flushedP_eq V c t) cover12
theorem outE_eq (c : Dev nD) : outE V c = wholeE V c :=
  (dat1 (F := Ideal) V c).arrAt_eq_of_cover 13 (wholeE V c) (fun t _ => flushedE_eq V c t) cover13

/-- Row n of the first output is the row's probability. -/
theorem outP_apply (c : Dev nD) (n : Fin 50000) :
    outP V c (ix2 n (0 : Fin 1))
      = prob (fun k => hs V c (ix2 n k)) (fun k => ag V c (ix2 n k)) (wa V c) (ba V c) (wb V c) (bb V c)
          (w1 V c) (b1 V c) (w2 V c) (b2 V c) (tm V c (ix2 n (0 : Fin 1))) :=
  congrFun (outP_eq V c) (ix2 n (0 : Fin 1))

/-- Row n of the second output is that probability times the row's cost. -/
theorem outE_apply (c : Dev nD) (n : Fin 50000) :
    outE V c (ix2 n (0 : Fin 1))
      = prob (fun k => hs V c (ix2 n k)) (fun k => ag V c (ix2 n k)) (wa V c) (ba V c) (wb V c) (bb V c)
          (w1 V c) (b1 V c) (w2 V c) (b2 V c) (tm V c (ix2 n (0 : Fin 1))) * cs V c (ix2 n (0 : Fin 1)) :=
  congrFun (outE_eq V c) (ix2 n (0 : Fin 1))

end Cert.KernelIdeal.Region1

end
-- ==== Proof.RefStages.lean ====
/-
  The reference's stages that the kernel regions compute, read row by row over the extended reals.
  Stage 33 of the reference is the first GINE layer's node update of every row (of the input features and of stage
  20, the first aggregation); stage 85 is every row's probability: the logistic readout of the second node update
  (of stage 33 and of stage 50, the second aggregation) times one minus the terminal flag; stage 86 is stage 85
  times the cost. The weights enter the reference transposed by the host, the biases broadcast along the rows: the
  statements take ANY arrays Wa, ba, … whose entries are the right entries of the arguments, so that they apply to
  the arrays the kernel's windows hold.
-/
import proofs.«400881_j31421980738093_3_alg».proof.Proof.Gen.ReferenceIdeal.Read
import proofs.«400881_j31421980738093_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Stages

open Cert.ReferenceIdeal Cert.ReferenceIdeal.Read Cert.NodeMlp
open Idealize.ShloMosaic Idealize.ShloMosaic.ValueIdx

-- The reference's arguments (names by position: x0 = node features, x1 = edge index, x2 = edge attribute,
-- x5 = terminal flags, x6 = costs, x7 … x22 = the weights and biases).
variable (x0 : (⟨S50000x9, .f32⟩ : BufTy).Contents (Elt Ideal)) (x1 : (⟨S2x1600000, .i32⟩ : BufTy).Contents (Elt Ideal)) (x2 : (⟨S1600000x1, .f32⟩ : BufTy).Contents (Elt Ideal))
  (x5 : (⟨S50000, .i32⟩ : BufTy).Contents (Elt Ideal)) (x6 : (⟨S50000, .f32⟩ : BufTy).Contents (Elt Ideal))
  (x7 : (⟨S9x1, .f32⟩ : BufTy).Contents (Elt Ideal)) (x8 : (⟨S9, .f32⟩ : BufTy).Contents (Elt Ideal)) (x9 : (⟨S64x9, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal))
  (x13 : (⟨S64x1, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal))
  (x19 : (⟨S32x64, .f32⟩ : BufTy).Contents (Elt Ideal)) (x20 : (⟨S32, .f32⟩ : BufTy).Contents (Elt Ideal)) (x21 : (⟨S1x32, .f32⟩ : BufTy).Contents (Elt Ideal)) (x22 : (⟨S1, .f32⟩ : BufTy).Contents (Elt Ideal))

/-! ## The first node update (stages 21 … 33) -/

/-- Stage 27 at (n, h): the dense layer with a positive part, through the transposed weight of stage 22 and the
    broadcast bias of stages 24 and 25, of row n of stage 21 (the features plus the first aggregation). -/
theorem v27_row
    (Wa : Mat 9 64) (hWa : ∀ (k : Fin 9) (h : Fin 64), Wa (ix2 k h) = x9 (ix2 h k))
    (ba : Mat 1 64) (hba : ∀ h : Fin 64, ba (ix2 (0 : Fin 1) h) = x10 (ix1 h))
    (n : Fin 50000) (h : Fin 64) :
    val_main_v27 (F := Ideal) x0 x1 x2 x7 x8 x9 x10 (ix2 n h)
      = layer (fun k => x0 (ix2 n k) + val_main_v20 (F := Ideal) x0 x1 x2 x7 x8 (ix2 n k)) Wa ba h := by
  have e1 : ∀ k : Fin 9, lidx_main_v23 (ix2 n h) k = ix2 n k := fun k => funext fun a => Fin.ext (by match a with | ⟨0, _⟩ => rfl | ⟨1, _⟩ => rfl)
  have e2 : ∀ k : Fin 9, idx_main_v22 (ridx_main_v23 (ix2 n h) k) = ix2 h k := fun k => funext fun a => Fin.ext (by match a with | ⟨0, _⟩ => rfl | ⟨1, _⟩ => rfl)
  have e3 : idx_main_v24 (idx_main_v25 (ix2 n h)) = ix1 h := funext fun a => Fin.ext (by match a with | ⟨0, _⟩ => rfl)
  rw [val_main_v27_apply, val_main_v26_apply, val_main_v23_apply, val_main_v25_apply, val_main_v24_apply,
    val_main_call1_v0_apply, val_main_call1_cst_apply, e3]
  simp only [val_main_v21_apply, val_main_v22_apply, e1, e2, ← hWa, ← hba, Ideal.addf_def, Ideal.maximumf_def,
    Ideal.ofBits_def]
  rfl

/-- Stage 33 at (n, h): the second dense layer of row n of stage 27. -/
theorem v33_row
    (Wb : Mat 64 64) (hWb : ∀ (k h : Fin 64), Wb (ix2 k h) = x11 (ix2 h k))
    (bb : Mat 1 64) (hbb : ∀ h : Fin 64, bb (ix2 (0 : Fin 1) h) = x12 (ix1 h))
    (n : Fin 50000) (h : Fin 64) :
    val_main_v33 (F := Ideal) x0 x1 x2 x7 x8 x9 x10 x11 x12 (ix2 n h)
      = layer (fun k => val_main_v27 (F := Ideal) x0 x1 x2 x7 x8 x9 x10 (ix2 n k)) Wb bb h := by
  have e1 : ∀ k : Fin 64, lidx_main_v29 (ix2 n h) k = ix2 n k := fun k => funext fun a => Fin.ext (by match a with | ⟨0, _⟩ => rfl | ⟨1, _⟩ => rfl)
  have e2 : ∀ k : Fin 64, idx_main_v28 (ridx_main_v29 (ix2 n h) k) = ix2 h k := fun k => funext fun a => Fin.ext (by match a with | ⟨0, _⟩ => rfl | ⟨1, _⟩ => rfl)
  have e3 : idx_main_v30 (idx_main_v31 (ix2 n h)) = ix1 h := funext fun a => Fin.ext (by match a with | ⟨0, _⟩ => rfl)
  rw [val_main_v33_apply, val_main_v32_apply, val_main_v29_apply, val_main_v31_apply, val_main_v30_apply,
    val_main_call2_v0_apply, val_main_call2_cst_apply, e3]
  simp only [val_main_v28_apply, e1, e2, ← hWb, ← hbb, Ideal.addf_def, Ideal.maximumf_def, Ideal.ofBits_def]
  rfl

/-- Row n, feature h of stage 33 is the node update of row n of the features and of the first aggregation. -/
theorem h1_apply
    (Wa : Mat 9 64) (hWa : ∀ (k : Fin 9) (h : Fin 64), Wa (ix2 k h) = x9 (ix2 h k))
    (ba : Mat 1 64) (hba : ∀ h : Fin 64, ba (ix2 (0 : Fin 1) h) = x10 (ix1 h))
    (Wb : Mat 64 64) (hWb : ∀ (k h : Fin 64), Wb (ix2 k h) = x11 (ix2 h k))
    (bb : Mat 1 64) (hbb : ∀ h : Fin 64, bb (ix2 (0 : Fin 1) h) = x12 (ix1 h))
    (n : Fin 50000) (h : Fin 64) :
    val_main_v33 (F := Ideal) x0 x1 x2 x7 x8 x9 x10 x11 x12 (ix2 n h)
      = update (fun k => x0 (ix2 n k)) (fun k => val_main_v20 (F := Ideal) x0 x1 x2 x7 x8 (ix2 n k)) Wa ba Wb bb h :=
  (v33_row x0 x1 x2 x7 x8 x9 x10 x11 x12 Wb hWb bb hbb n h).trans
    (congrArg (fun s => layer s Wb bb h) (funext fun k => v27_row x0 x1 x2 x7 x8 x9 x10 Wa hWa ba hba n k))

/-! ## The second node update (stages 51 … 63) -/

/-- Stage 57 at (n, h): the first dense layer of row n of stage 51 (stage 33 plus the second aggregation). -/
theorem v57_row
    (Wa : Mat 64 64) (hWa : ∀ (k h : Fin 64), Wa (ix2 k h) = x15 (ix2 h k))
    (ba : Mat 1 64) (hba : ∀ h : Fin 64, ba (ix2 (0 : Fin 1) h) = x16 (ix1 h))
    (n : Fin 50000) (h : Fin 64) :
    val_main_v57 (F := Ideal) x0 x1 x2 x7 x8 x9 x10 x11 x12 x13 x14 x15 x16 (ix2 n h)
      = layer (fun k => val_main_v33 (F := Ideal) x0 x1 x2 x7 x8 x9 x10 x11 x12 (ix2 n k)
          + val_main_v50 (F := Ideal) x0 x1 x2 x7 x8 x9 x10 x11 x12 x13 x14 (ix2 n k)) Wa ba h := by
  have e1 : ∀ k : Fin 64, lidx_main_v53 (ix2 n h) k = ix2 n k := fun k => funext fun a => Fin.ext (by match a with | ⟨0, _⟩ => rfl | ⟨1, _⟩ => rfl)
  have e2 : ∀ k : Fin 64, idx_main_v52 (ridx_main_v53 (ix2 n h) k) = ix2 h k := fun k => funext fun a => Fin.ext (by match a with | ⟨0, _⟩ => rfl | ⟨1, _⟩ => rfl)
  have e3 : idx_main_v54 (idx_main_v55 (ix2 n h)) = ix1 h := funext fun a => Fin.ext (by match a with | ⟨0, _⟩ => rfl)
  rw [val_main_v57_apply, val_main_v56_apply, val_main_v53_apply, val_main_v55_apply, val_main_v54_apply,
    val_main_call4_v0_apply, val_main_call4_cst_apply, e3]
  simp only [val_main_v51_apply, val_main_v52_apply, e1, e2, ← hWa, ← hba, Ideal.addf_def, Ideal.maximumf_def,
    Ideal.ofBits_def]
  rfl

/-- Stage 63 at (n, h): the second dense layer of row n of stage 57. -/
theorem v63_row
    (Wb : Mat 64 64) (hWb : ∀ (k h : Fin 64), Wb (ix2 k h) = x17 (ix2 h k))
    (bb : Mat 1 64) (hbb : ∀ h : Fin 64, bb (ix2 (0 : Fin 1) h) = x18 (ix1 h))
    (n : Fin 50000) (h : Fin 64) :
    val_main_v63 (F := Ideal) x0 x1 x2 x7 x8 x9 x10 x11 x12 x13 x14 x15 x16 x17 x18 (ix2 n h)
      = layer (fun k => val_main_v57 (F := Ideal) x0 x1 x2 x7 x8 x9 x10 x11 x12 x13 x14 x15 x16 (ix2 n k)) Wb bb h := by
  have e1 : ∀ k : Fin 64, lidx_main_v59 (ix2 n h) k = ix2 n k := fun k => funext fun a => Fin.ext (by match a with | ⟨0, _⟩ => rfl | ⟨1, _⟩ => rfl)
  have e2 : ∀ k : Fin 64, idx_main_v58 (ridx_main_v59 (ix2 n h) k) = ix2 h k := fun k => funext fun a => Fin.ext (by match a with | ⟨0, _⟩ => rfl | ⟨1, _⟩ => rfl)
  have e3 : idx_main_v60 (idx_main_v61 (ix2 n h)) = ix1 h := funext fun a => Fin.ext (by match a with | ⟨0, _⟩ => rfl)
  rw [val_main_v63_apply, val_main_v62_apply, val_main_v59_apply, val_main_v61_apply, val_main_v60_apply,
    val_main_call5_v0_apply, val_main_call5_cst_apply, e3]
  simp only [val_main_v58_apply, e1, e2, ← hWb, ← hbb, Ideal.addf_def, Ideal.maximumf_def, Ideal.ofBits_def]
  rfl

/-- Row n, feature h of stage 63 is the node update of row n of stage 33 and of the second aggregation. -/
theorem h2_row
    (Wa : Mat 64 64) (hWa : ∀ (k h : Fin 64), Wa (ix2 k h) = x15 (ix2 h k))
    (ba : Mat 1 64) (hba : ∀ h : Fin 64, ba (ix2 (0 : Fin 1) h) = x16 (ix1 h))
    (Wb : Mat 64 64) (hWb : ∀ (k h : Fin 64), Wb (ix2 k h) = x17 (ix2 h k))
    (bb : Mat 1 64) (hbb : ∀ h : Fin 64, bb (ix2 (0 : Fin 1) h) = x18 (ix1 h))
    (n : Fin 50000) (h : Fin 64) :
    val_main_v63 (F := Ideal) x0 x1 x2 x7 x8 x9 x10 x11 x12 x13 x14 x15 x16 x17 x18 (ix2 n h)
      = update (fun k => val_main_v33 (F := Ideal) x0 x1 x2 x7 x8 x9 x10 x11 x12 (ix2 n k))
          (fun k => val_main_v50 (F := Ideal) x0 x1 x2 x7 x8 x9 x10 x11 x12 x13 x14 (ix2 n k)) Wa ba Wb bb h :=
  (v63_row x0 x1 x2 x7 x8 x9 x10 x11 x12 x13 x14 x15 x16 x17 x18 Wb hWb bb hbb n h).trans
    (congrArg (fun s => layer s Wb bb h) (funext fun k => v57_row x0 x1 x2 x7 x8 x9 x10 x11 x12 x13 x14 x15 x16 Wa hWa ba hba n k))

/-! ## The readout (stages 64 … 80) -/

/-- Stage 69 at (n, q): the readout's dense layer to 32 features, of row n of stage 63. -/
theorem v69_row
    (W1 : Mat 64 32) (hW1 : ∀ (k : Fin 64) (q : Fin 32), W1 (ix2 k q) = x19 (ix2 q k))
    (b1 : Mat 1 32) (hb1 : ∀ q : Fin 32, b1 (ix2 (0 : Fin 1) q) = x20 (ix1 q))
    (n : Fin 50000) (q : Fin 32) :
    val_main_v69 (F := Ideal) x0 x1 x2 x7 x8 x9 x10 x11 x12 x13 x14 x15 x16 x17 x18 x19 x20 (ix2 n q)
      = layer (fun k => val_main_v63 (F := Ideal) x0 x1 x2 x7 x8 x9 x10 x11 x12 x13 x14 x15 x16 x17 x18 (ix2 n k)) W1 b1 q := by
  have e1 : ∀ k : Fin 64, lidx_main_v65 (ix2 n q) k = ix2 n k := fun k => funext fun a => Fin.ext (by match a with | ⟨0, _⟩ => rfl | ⟨1, _⟩ => rfl)
  have e2 : ∀ k : Fin 64, idx_main_v64 (ridx_main_v65 (ix2 n q) k) = ix2 q k := fun k => funext fun a => Fin.ext (by match a with | ⟨0, _⟩ => rfl | ⟨1, _⟩ => rfl)
  have e3 : idx_main_v66 (idx_main_v67 (ix2 n q)) = ix1 q := funext fun a => Fin.ext (by match a with | ⟨0, _⟩ => rfl)
  rw [val_main_v69_apply, val_main_v68_apply, val_main_v65_apply, val_main_v67_apply, val_main_v66_apply,
    val_main_call6_v0_apply, val_main_call6_cst_apply, e3]
  simp only [val_main_v64_apply, e1, e2, ← hW1, ← hb1, Ideal.addf_def, Ideal.maximumf_def, Ideal.ofBits_def]
  rfl

/-- Stage 80 at (n, 0): the logistic function of the linear map of row n of stage 69 to one number. -/
theorem v80_row
    (W2 : Mat 32 1) (hW2 : ∀ q : Fin 32, W2 (ix2 q (0 : Fin 1)) = x21 (ix2 (0 : Fin 1) q))
    (b2 : Mat 1 1) (hb2 : b2 (ix2 (0 : Fin 1) (0 : Fin 1)) = x22 (ix1 (0 : Fin 1)))
    (n : Fin 50000) :
    val_main_v80 (F := Ideal) x0 x1 x2 x7 x8 x9 x10 x11 x12 x13 x14 x15 x16 x17 x18 x19 x20 x21 x22 (ix2 n (0 : Fin 1))
      = Cert.NodeMlp.sig ((∑ q : Fin 32, val_main_v69 (F := Ideal) x0 x1 x2 x7 x8 x9 x10 x11 x12 x13 x14 x15 x16 x17 x18 x19 x20 (ix2 n q) * W2 (ix2 q (0 : Fin 1)))
          + b2 (ix2 (0 : Fin 1) (0 : Fin 1))) := by
  have e1 : ∀ k : Fin 32, lidx_main_v71 (ix2 n (0 : Fin 1)) k = ix2 n k := fun k => funext fun a => Fin.ext (by match a with | ⟨0, _⟩ => rfl | ⟨1, _⟩ => rfl)
  have e2 : ∀ k : Fin 32, idx_main_v70 (ridx_main_v71 (ix2 n (0 : Fin 1)) k) = ix2 (0 : Fin 1) k := fun k => funext fun a => Fin.ext (by match a with | ⟨0, _⟩ => rfl | ⟨1, _⟩ => rfl)
  have e3 : idx_main_v72 (idx_main_v73 (ix2 n (0 : Fin 1))) = ix1 (0 : Fin 1) := funext fun a => Fin.ext (by match a with | ⟨0, _⟩ => rfl)
  rw [val_main_v80_apply, val_main_v79_apply, val_main_cst_5_apply, val_main_v78_apply, val_main_v77_apply,
    val_main_cst_4_apply, val_main_v76_apply, val_main_v75_apply, val_main_v74_apply, val_main_v71_apply,
    val_main_v73_apply, val_main_v72_apply, e3]
  simp only [val_main_v70_apply, e1, e2, ← hW2, ← hb2, Ideal.addf_def, Ideal.hostDivf_def, Ideal.hostUnary_exp_def,
    Ideal.hostNegf_def, Ideal.negf_def, Ideal.ofBits_def]
  rfl

/-- Row n of stage 85 is the row's probability. -/
theorem prob_apply
    (Wa : Mat 64 64) (hWa : ∀ (k h : Fin 64), Wa (ix2 k h) = x15 (ix2 h k))
    (ba : Mat 1 64) (hba : ∀ h : Fin 64, ba (ix2 (0 : Fin 1) h) = x16 (ix1 h))
    (Wb : Mat 64 64) (hWb : ∀ (k h : Fin 64), Wb (ix2 k h) = x17 (ix2 h k))
    (bb : Mat 1 64) (hbb : ∀ h : Fin 64, bb (ix2 (0 : Fin 1) h) = x18 (ix1 h))
    (W1 : Mat 64 32) (hW1 : ∀ (k : Fin 64) (q : Fin 32), W1 (ix2 k q) = x19 (ix2 q k))
    (b1 : Mat 1 32) (hb1 : ∀ q : Fin 32, b1 (ix2 (0 : Fin 1) q) = x20 (ix1 q))
    (W2 : Mat 32 1) (hW2 : ∀ q : Fin 32, W2 (ix2 q (0 : Fin 1)) = x21 (ix2 (0 : Fin 1) q))
    (b2 : Mat 1 1) (hb2 : b2 (ix2 (0 : Fin 1) (0 : Fin 1)) = x22 (ix1 (0 : Fin 1)))
    (n : Fin 50000) :
    val_main_v85 (F := Ideal) x0 x1 x2 x5 x7 x8 x9 x10 x11 x12 x13 x14 x15 x16 x17 x18 x19 x20 x21 x22 (ix1 n)
      = prob (fun k => val_main_v33 (F := Ideal) x0 x1 x2 x7 x8 x9 x10 x11 x12 (ix2 n k))
          (fun k => val_main_v50 (F := Ideal) x0 x1 x2 x7 x8 x9 x10 x11 x12 x13 x14 (ix2 n k))
          Wa ba Wb bb W1 b1 W2 b2 (FloatOps.sitofp (F := Ideal) .f32 (x5 (ix1 n))) := by
  -- the reshape of stage 81 reads column 0 of row n
  have e81 : idx_main_v81 (ix1 n) = ix2 n (0 : Fin 1) :=
    funext fun a => Fin.ext (by match a with | ⟨0, _⟩ => exact Nat.div_one _ | ⟨1, _⟩ => rfl)
  rw [val_main_v85_apply, val_main_v84_apply, val_main_v83_apply, val_main_cst_6_apply, val_main_v82_apply,
    val_main_v81_apply, e81, v80_row x0 x1 x2 x7 x8 x9 x10 x11 x12 x13 x14 x15 x16 x17 x18 x19 x20 x21 x22 W2 hW2 b2 hb2 n]
  simp only [v69_row x0 x1 x2 x7 x8 x9 x10 x11 x12 x13 x14 x15 x16 x17 x18 x19 x20 W1 hW1 b1 hb1 n, h2_row x0 x1 x2 x7 x8 x9 x10 x11 x12 x13 x14 x15 x16 x17 x18 Wa hWa ba hba Wb hWb bb hbb n, Ideal.mulf_def,
    Ideal.subf_def, Ideal.ofBits_def]
  rfl

/-- Row n of stage 86 is stage 85's times the row's cost. -/
theorem expense_apply (n : Fin 50000) :
    val_main_v86 (F := Ideal) x0 x1 x2 x5 x6 x7 x8 x9 x10 x11 x12 x13 x14 x15 x16 x17 x18 x19 x20 x21 x22 (ix1 n)
      = val_main_v85 (F := Ideal) x0 x1 x2 x5 x7 x8 x9 x10 x11 x12 x13 x14 x15 x16 x17 x18 x19 x20 x21 x22 (ix1 n) * x6 (ix1 n) := rfl

end Cert.ReferenceIdeal.Stages

end
-- ==== Proof.Bridge.lean ====
/-
  The kernel program's result is the reference's, as extended reals.

  From the launch memory's argument arrays a0 … a22 (under the precondition: the source rows in range) the fold of
  host stretches and region write-backs is followed through:
  • before the first region the second window's array is the reference's first aggregation (the take reads real
    rows, so it is the reference's gather; the rest is the same scatter-add of the same messages);
  • the first region's output is, row by row, the node update of the input rows and of that aggregation, with the
    transposed weights and one-row biases standing in its weight windows: the reference's stage 33;
  • before the second region the second window's array is the reference's second aggregation (stage 50), the
    other windows hold the second layer's and the readout's weights, the flags as numbers and the costs;
  • the second region's two outputs are, row by row, the probability and the expense: stages 85 and 86;
  • the last stretch forms the budgeted probabilities from those two vectors exactly as the reference does from
    stages 85 and 86: stage 109, the reference's result.
-/
import proofs.«400881_j31421980738093_3_alg».proof.Proof.HostReads
import proofs.«400881_j31421980738093_3_alg».proof.Proof.TakeRows
import proofs.«400881_j31421980738093_3_alg».proof.Proof.KRegion0
import proofs.«400881_j31421980738093_3_alg».proof.Proof.KRegion1
import proofs.«400881_j31421980738093_3_alg».proof.Proof.RefStages
import Idealize.ShloMosaic.Lib.Pipeline.Value
import Idealize.ShloMosaic.Lib.ValueIdx

set_option maxRecDepth 16384
set_option maxHeartbeats 1000000

noncomputable section

namespace Cert.Bridge

open Cert.KernelIdeal Cert.KernelIdeal.Gen Cert.KernelIdeal.HostTerms Cert.KernelIdeal.HostReads Cert.KernelIdeal.TakeRows
open Cert.NodeMlp
open Idealize.ShloMosaic Idealize.ShloMosaic.TcCoe Idealize.ShloMosaic.ValueIdx Idealize.SL.Sem Idealize.ShloMosaic.StableHlo
open Cert.ReferenceIdeal.Read (val_main_v20 val_main_v33 val_main_v50 val_main_v85 val_main_v86 val_main_v109)

/-! ## The weight windows, the flags, the costs and a one-column array, entry by entry -/

section Entries

theorem wT9x64_apply (a : FVec Ideal S64x9 .f32) (k : Fin 9) (h : Fin 64) : wT9x64 a (ix2 k h) = a (ix2 h k) := by
  unfold wT9x64
  exact transpose_apply [1, 0] a Facts₀.transposes_S64x9_S9x64_1_0 (ix2 k h) (ix2 h k) (fun b => match b with
    | ⟨0, _⟩ => rfl
    | ⟨1, _⟩ => rfl)

theorem wT64x64_apply (a : FVec Ideal S64x64 .f32) (k h : Fin 64) : wT64x64 a (ix2 k h) = a (ix2 h k) := by
  unfold wT64x64
  exact transpose_apply [1, 0] a Facts₀.transposes_S64x64_S64x64_1_0 (ix2 k h) (ix2 h k) (fun b => match b with
    | ⟨0, _⟩ => rfl
    | ⟨1, _⟩ => rfl)

theorem wT64x32_apply (a : FVec Ideal S32x64 .f32) (k : Fin 64) (q : Fin 32) : wT64x32 a (ix2 k q) = a (ix2 q k) := by
  unfold wT64x32
  exact transpose_apply [1, 0] a Facts₀.transposes_S32x64_S64x32_1_0 (ix2 k q) (ix2 q k) (fun b => match b with
    | ⟨0, _⟩ => rfl
    | ⟨1, _⟩ => rfl)

theorem wT32x1_apply (a : FVec Ideal S1x32 .f32) (q : Fin 32) : wT32x1 a (ix2 q (0 : Fin 1)) = a (ix2 (0 : Fin 1) q) := by
  unfold wT32x1
  exact transpose_apply [1, 0] a Facts₀.transposes_S1x32_S32x1_1_0 (ix2 q (0 : Fin 1)) (ix2 (0 : Fin 1) q) (fun b => match b with
    | ⟨0, _⟩ => rfl
    | ⟨1, _⟩ => rfl)

theorem row64_apply (a : FVec Ideal S64 .f32) (h : Fin 64) : row64 a (ix2 (0 : Fin 1) h) = a (ix1 h) := by
  unfold row64
  exact shapeCast_apply a Facts₀.shapeCasts_S64_S1x64 (ix2 (0 : Fin 1) h) (ix1 h)
    (by rewrite [Shape.rowMajor_val_one, Shape.rowMajor_val_two]; show h.val = 0 * 64 + h.val; omega)

theorem row32_apply (a : FVec Ideal S32 .f32) (q : Fin 32) : row32 a (ix2 (0 : Fin 1) q) = a (ix1 q) := by
  unfold row32
  exact shapeCast_apply a Facts₀.shapeCasts_S32_S1x32 (ix2 (0 : Fin 1) q) (ix1 q)
    (by rewrite [Shape.rowMajor_val_one, Shape.rowMajor_val_two]; show q.val = 0 * 32 + q.val; omega)

theorem row1_apply (a : FVec Ideal S1 .f32) : row1 a (ix2 (0 : Fin 1) (0 : Fin 1)) = a (ix1 (0 : Fin 1)) := by
  unfold row1
  exact shapeCast_apply a Facts₀.shapeCasts_S1_S1x1 (ix2 (0 : Fin 1) (0 : Fin 1)) (ix1 (0 : Fin 1))
    (by rewrite [Shape.rowMajor_val_one, Shape.rowMajor_val_two]; rfl)

theorem flagCol_apply (a : IVec S50000 32) (n : Fin 50000) :
    flagCol (F := Ideal) a (ix2 n (0 : Fin 1)) = FloatOps.sitofp (F := Ideal) .f32 (a (ix1 n)) := by
  unfold flagCol
  rw [sitofp_apply]
  exact congrArg _ (shapeCast_apply a Facts₀.shapeCasts_S50000_S50000x1 (ix2 n (0 : Fin 1)) (ix1 n)
    (by rewrite [Shape.rowMajor_val_one, Shape.rowMajor_val_two]; show n.val = n.val * 1 + 0; omega))

theorem costCol_apply (a : FVec Ideal S50000 .f32) (n : Fin 50000) : costCol a (ix2 n (0 : Fin 1)) = a (ix1 n) := by
  unfold costCol
  exact shapeCast_apply a Facts₀.shapeCasts_S50000_S50000x1 (ix2 n (0 : Fin 1)) (ix1 n)
    (by rewrite [Shape.rowMajor_val_one, Shape.rowMajor_val_two]; show n.val = n.val * 1 + 0; omega)

theorem colVec_apply (P : FVec Ideal S50000x1 .f32) (n : Fin 50000) : colVec P (ix1 n) = P (ix2 n (0 : Fin 1)) := by
  unfold colVec
  exact shapeCast_apply P Facts₀.shapeCasts_S50000x1_S50000 (ix1 n) (ix2 n (0 : Fin 1))
    (by rewrite [Shape.rowMajor_val_one, Shape.rowMajor_val_two]; show n.val * 1 + 0 = n.val; omega)

end Entries

/-! ## The shared host chains are the reference's stages -/

section Shared

variable (x0 : FVec Ideal S50000x9 .f32) (x1 : IVec S2x1600000 32) (x2 : FVec Ideal S1600000x1 .f32)
  (x3 : IVec S50000 32) (x4 : FVec Ideal S512 .f32) (x5 : IVec S50000 32) (x6 : FVec Ideal S50000 .f32)
  (x7 : FVec Ideal S9x1 .f32) (x8 : FVec Ideal S9 .f32) (x9 : FVec Ideal S64x9 .f32) (x10 : FVec Ideal S64 .f32)
  (x11 : FVec Ideal S64x64 .f32) (x12 : FVec Ideal S64 .f32) (x13 : FVec Ideal S64x1 .f32) (x14 : FVec Ideal S64 .f32)
  (x15 : FVec Ideal S64x64 .f32) (x16 : FVec Ideal S64 .f32) (x17 : FVec Ideal S64x64 .f32) (x18 : FVec Ideal S64 .f32)
  (x19 : FVec Ideal S32x64 .f32) (x20 : FVec Ideal S32 .f32) (x21 : FVec Ideal S1x32 .f32) (x22 : FVec Ideal S1 .f32)

/-- The first aggregation over the gathered rows is the reference's stage 20: the same operations on the same
    arrays. -/
theorem aggr9_ref :
    aggr9 (Host.gather gather_S50000x9_S1600000x1_S1600000x9_1_0_n_n_0_1_19 x0 (startIdx (src x1))) (dst x1) x2 x7 x8
      = val_main_v20 (F := Ideal) x0 x1 x2 x7 x8 := rfl

/-- The second aggregation over the gathered rows of stage 33 is the reference's stage 50. -/
theorem aggr64_ref :
    aggr64 (Host.gather gather_S50000x64_S1600000x1_S1600000x64_1_0_n_n_0_1_164
        (val_main_v33 (F := Ideal) x0 x1 x2 x7 x8 x9 x10 x11 x12) (startIdx (src x1))) (dst x1) x2 x13 x14
      = val_main_v50 (F := Ideal) x0 x1 x2 x7 x8 x9 x10 x11 x12 x13 x14 := rfl

/-- The budgeted probabilities of stages 85 and 86 are the reference's result, stage 109. -/
theorem budget_ref :
    budget (val_main_v85 (F := Ideal) x0 x1 x2 x5 x7 x8 x9 x10 x11 x12 x13 x14 x15 x16 x17 x18 x19 x20 x21 x22)
        (val_main_v86 (F := Ideal) x0 x1 x2 x5 x6 x7 x8 x9 x10 x11 x12 x13 x14 x15 x16 x17 x18 x19 x20 x21 x22) x3 x4
      = val_main_v109 (F := Ideal) x0 x1 x2 x3 x4 x5 x6 x7 x8 x9 x10 x11 x12 x13 x14 x15 x16 x17 x18 x19 x20 x21 x22 := rfl

end Shared

/-! ## Through the fold -/

section Fold

variable (m : (ℓ : Loc nD τ sig) → Buf (Elt Ideal) ℓ) (ρ : Dev nD → PrngReg) (c : Dev nD)

/-- The launch memory's argument arrays on device c, at their literal types. -/
abbrev a0 : FVec Ideal S50000x9 .f32 := m ((c : Thread nD τ).loc main_arg0)
abbrev a1 : IVec S2x1600000 32 := m ((c : Thread nD τ).loc main_arg1)
abbrev a2 : FVec Ideal S1600000x1 .f32 := m ((c : Thread nD τ).loc main_arg2)
abbrev a3 : IVec S50000 32 := m ((c : Thread nD τ).loc main_arg3)
abbrev a4 : FVec Ideal S512 .f32 := m ((c : Thread nD τ).loc main_arg4)
abbrev a5 : IVec S50000 32 := m ((c : Thread nD τ).loc main_arg5)
abbrev a6 : FVec Ideal S50000 .f32 := m ((c : Thread nD τ).loc main_arg6)
abbrev a7 : FVec Ideal S9x1 .f32 := m ((c : Thread nD τ).loc main_arg7)
abbrev a8 : FVec Ideal S9 .f32 := m ((c : Thread nD τ).loc main_arg8)
abbrev a9 : FVec Ideal S64x9 .f32 := m ((c : Thread nD τ).loc main_arg9)
abbrev a10 : FVec Ideal S64 .f32 := m ((c : Thread nD τ).loc main_arg10)
abbrev a11 : FVec Ideal S64x64 .f32 := m ((c : Thread nD τ).loc main_arg11)
abbrev a12 : FVec Ideal S64 .f32 := m ((c : Thread nD τ).loc main_arg12)
abbrev a13 : FVec Ideal S64x1 .f32 := m ((c : Thread nD τ).loc main_arg13)
abbrev a14 : FVec Ideal S64 .f32 := m ((c : Thread nD τ).loc main_arg14)
abbrev a15 : FVec Ideal S64x64 .f32 := m ((c : Thread nD τ).loc main_arg15)
abbrev a16 : FVec Ideal S64 .f32 := m ((c : Thread nD τ).loc main_arg16)
abbrev a17 : FVec Ideal S64x64 .f32 := m ((c : Thread nD τ).loc main_arg17)
abbrev a18 : FVec Ideal S64 .f32 := m ((c : Thread nD τ).loc main_arg18)
abbrev a19 : FVec Ideal S32x64 .f32 := m ((c : Thread nD τ).loc main_arg19)
abbrev a20 : FVec Ideal S32 .f32 := m ((c : Thread nD τ).loc main_arg20)
abbrev a21 : FVec Ideal S1x32 .f32 := m ((c : Thread nD τ).loc main_arg21)
abbrev a22 : FVec Ideal S1 .f32 := m ((c : Thread nD τ).loc main_arg22)

/-! ### What the first region finds -/

theorem xs5 : Region0.xs (V5 m ρ) c = a0 m c := by
  show pre0 (W0 m ρ c) (Proc.devRef .tc main_arg0) = _
  rw [pre0_arg0]
theorem wa5 : Region0.wa (V5 m ρ) c = wT9x64 (a9 m c) := by
  show pre0 (W0 m ρ c) (Proc.devRef .tc main_v15) = _
  rw [pre0_wa]
theorem ba5 : Region0.ba (V5 m ρ) c = row64 (a10 m c) := by
  show pre0 (W0 m ρ c) (Proc.devRef .tc main_v17) = _
  rw [pre0_ba]
theorem wb5 : Region0.wb (V5 m ρ) c = wT64x64 (a11 m c) := by
  show pre0 (W0 m ρ c) (Proc.devRef .tc main_v16) = _
  rw [pre0_wb]
theorem bb5 : Region0.bb (V5 m ρ) c = row64 (a12 m c) := by
  show pre0 (W0 m ρ c) (Proc.devRef .tc main_v18) = _
  rw [pre0_bb]

/-- With the source rows in range the second window's array is the reference's first aggregation. -/
theorem ag5 (hs : InRange (src (a1 m c))) :
    Region0.ag (V5 m ρ) c = val_main_v20 (F := Ideal) (a0 m c) (a1 m c) (a2 m c) (a7 m c) (a8 m c) := by
  show pre0 (W0 m ρ c) (Proc.devRef .tc main_v14) = _
  rw [pre0_aggr]
  show aggr9 (take9 (a0 m c) (src (a1 m c))) (dst (a1 m c)) (a2 m c) (a7 m c) (a8 m c) = _
  rw [take9_eq _ _ hs]
  exact aggr9_ref (a0 m c) (a1 m c) (a2 m c) (a7 m c) (a8 m c)

/-- The first region's output is the reference's stage 33. -/
theorem h1_ref (hs : InRange (src (a1 m c))) :
    Region0.out (V5 m ρ) c = val_main_v33 (F := Ideal) (a0 m c) (a1 m c) (a2 m c) (a7 m c) (a8 m c) (a9 m c) (a10 m c) (a11 m c) (a12 m c) := by
  funext j
  obtain ⟨n, h, rfl⟩ : ∃ (n : Fin 50000) (h : Fin 64), j = ix2 n h := ⟨j 0, j 1, eq_ix2 j⟩
  rw [Region0.out_apply, xs5, ag5 m ρ c hs, wa5, ba5, wb5, bb5]
  exact (Cert.ReferenceIdeal.Stages.h1_apply (a0 m c) (a1 m c) (a2 m c) (a7 m c) (a8 m c) (a9 m c) (a10 m c) (a11 m c) (a12 m c)
    (wT9x64 (a9 m c)) (wT9x64_apply _) (row64 (a10 m c)) (row64_apply _)
    (wT64x64 (a11 m c)) (wT64x64_apply _) (row64 (a12 m c)) (row64_apply _) n h).symm

/-! ### What the second region finds -/

/-- A buffer that is none of the first region's arrays keeps, through the region, what the stretches before it
    left; for an argument array that is the launch memory's. -/
theorem keep6 (b : Ref sig .tc) (hb : ∀ w, Pipeline.arrRef spec0 w ≠ b) :
    W6 m ρ c (Proc.devRef .tc b) = pre0 (W0 m ρ c) (Proc.devRef .tc b) := W6_of_ne m ρ c b hb

theorem w6_src : W6 m ρ c (Proc.devRef .tc main_v1) = src (a1 m c) := by
  rw [keep6 m ρ c main_v1 (by decide), pre0_src]
theorem w6_dst : W6 m ρ c (Proc.devRef .tc main_v3) = dst (a1 m c) := by
  rw [keep6 m ρ c main_v3 (by decide), pre0_dst]
theorem hs11 : Region1.hs (V11 m ρ) c = Region0.out (V5 m ρ) c := by
  show pre1 (W6 m ρ c) (Proc.devRef .tc main_v19) = _
  rw [pre1_hs]
  exact W6_arr m ρ c 6
theorem wa11 : Region1.wa (V11 m ρ) c = wT64x64 (a15 m c) := by
  show pre1 (W6 m ρ c) (Proc.devRef .tc main_v34) = _
  rw [pre1_wa, keep6 m ρ c main_arg15 (by decide), pre0_arg15]
theorem ba11 : Region1.ba (V11 m ρ) c = row64 (a16 m c) := by
  show pre1 (W6 m ρ c) (Proc.devRef .tc main_v36) = _
  rw [pre1_ba, keep6 m ρ c main_arg16 (by decide), pre0_arg16]
theorem wb11 : Region1.wb (V11 m ρ) c = wT64x64 (a17 m c) := by
  show pre1 (W6 m ρ c) (Proc.devRef .tc main_v35) = _
  rw [pre1_wb, keep6 m ρ c main_arg17 (by decide), pre0_arg17]
theorem bb11 : Region1.bb (V11 m ρ) c = row64 (a18 m c) := by
  show pre1 (W6 m ρ c) (Proc.devRef .tc main_v37) = _
  rw [pre1_bb, keep6 m ρ c main_arg18 (by decide), pre0_arg18]
theorem tm11 : Region1.tm (V11 m ρ) c = flagCol (a5 m c) := by
  show pre1 (W6 m ρ c) (Proc.devRef .tc main_v32) = _
  rw [pre1_tm, keep6 m ρ c main_arg5 (by decide), pre0_arg5]
theorem cs11 : Region1.cs (V11 m ρ) c = costCol (a6 m c) := by
  show pre1 (W6 m ρ c) (Proc.devRef .tc main_v33) = _
  rw [pre1_cs, keep6 m ρ c main_arg6 (by decide), pre0_arg6]
theorem w111 : Region1.w1 (V11 m ρ) c = wT64x32 (a19 m c) := by
  show pre1 (W6 m ρ c) (Proc.devRef .tc main_v38) = _
  rw [pre1_w1, keep6 m ρ c main_arg19 (by decide), pre0_arg19]
theorem b111 : Region1.b1 (V11 m ρ) c = row32 (a20 m c) := by
  show pre1 (W6 m ρ c) (Proc.devRef .tc main_v40) = _
  rw [pre1_b1, keep6 m ρ c main_arg20 (by decide), pre0_arg20]
theorem w211 : Region1.w2 (V11 m ρ) c = wT32x1 (a21 m c) := by
  show pre1 (W6 m ρ c) (Proc.devRef .tc main_v39) = _
  rw [pre1_w2, keep6 m ρ c main_arg21 (by decide), pre0_arg21]
theorem b211 : Region1.b2 (V11 m ρ) c = row1 (a22 m c) := by
  show pre1 (W6 m ρ c) (Proc.devRef .tc main_v41) = _
  rw [pre1_b2, keep6 m ρ c main_arg22 (by decide), pre0_arg22]

/-- With the source rows in range the second window's array is the reference's second aggregation. -/
theorem ag11 (hs : InRange (src (a1 m c))) :
    Region1.ag (V11 m ρ) c = val_main_v50 (F := Ideal) (a0 m c) (a1 m c) (a2 m c) (a7 m c) (a8 m c) (a9 m c) (a10 m c) (a11 m c) (a12 m c) (a13 m c) (a14 m c) := by
  show pre1 (W6 m ρ c) (Proc.devRef .tc main_v30) = _
  rw [pre1_aggr, w6_src, w6_dst, keep6 m ρ c main_arg2 (by decide), pre0_arg2, keep6 m ρ c main_arg13 (by decide), pre0_arg13, keep6 m ρ c main_arg14 (by decide), pre0_arg14,
    show W6 m ρ c (Proc.devRef .tc main_v19) = Region0.out (V5 m ρ) c from W6_arr m ρ c 6, h1_ref m ρ c hs,
    take64_eq _ _ hs]
  exact aggr64_ref (a0 m c) (a1 m c) (a2 m c) (a7 m c) (a8 m c) (a9 m c) (a10 m c) (a11 m c) (a12 m c) (a13 m c) (a14 m c)

/-- The second region's first output, as a vector, is the reference's stage 85. -/
theorem p_ref (hs : InRange (src (a1 m c))) :
    colVec (Region1.outP (V11 m ρ) c) = val_main_v85 (F := Ideal) (a0 m c) (a1 m c) (a2 m c) (a5 m c) (a7 m c) (a8 m c) (a9 m c) (a10 m c) (a11 m c) (a12 m c) (a13 m c) (a14 m c) (a15 m c) (a16 m c) (a17 m c) (a18 m c) (a19 m c) (a20 m c) (a21 m c) (a22 m c) := by
  funext j
  obtain ⟨n, rfl⟩ : ∃ n : Fin 50000, j = ix1 n := ⟨j 0, eq_ix1 j⟩
  rw [colVec_apply, Region1.outP_apply, hs11, h1_ref m ρ c hs, ag11 m ρ c hs, wa11, ba11, wb11, bb11, w111, b111, w211, b211,
    tm11, flagCol_apply]
  exact (Cert.ReferenceIdeal.Stages.prob_apply (a0 m c) (a1 m c) (a2 m c) (a5 m c) (a7 m c) (a8 m c) (a9 m c) (a10 m c) (a11 m c) (a12 m c) (a13 m c) (a14 m c) (a15 m c) (a16 m c) (a17 m c) (a18 m c) (a19 m c) (a20 m c) (a21 m c) (a22 m c)
    (wT64x64 (a15 m c)) (wT64x64_apply _) (row64 (a16 m c)) (row64_apply _)
    (wT64x64 (a17 m c)) (wT64x64_apply _) (row64 (a18 m c)) (row64_apply _)
    (wT64x32 (a19 m c)) (wT64x32_apply _) (row32 (a20 m c)) (row32_apply _)
    (wT32x1 (a21 m c)) (wT32x1_apply _) (row1 (a22 m c)) (row1_apply _) n).symm

/-- The second output, as a vector, is the reference's stage 86. -/
theorem e_ref (hs : InRange (src (a1 m c))) :
    colVec (Region1.outE (V11 m ρ) c) = val_main_v86 (F := Ideal) (a0 m c) (a1 m c) (a2 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) := by
  funext j
  obtain ⟨n, rfl⟩ : ∃ n : Fin 50000, j = ix1 n := ⟨j 0, eq_ix1 j⟩
  have hp := congrFun (p_ref m ρ c hs) (ix1 n)
  rw [colVec_apply, Region1.outP_apply] at hp
  rw [colVec_apply, Region1.outE_apply, hp, cs11, costCol_apply]
  exact (Cert.ReferenceIdeal.Stages.expense_apply (a0 m c) (a1 m c) (a2 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) n).symm

/-! ### The result -/

/-- Under the precondition's range of the source rows, the result buffer after the last stretch holds the
    reference's result of the launch memory's argument arrays. -/
theorem result_ref (hs : InRange (src (a1 m c))) :
    W13 m ρ c (Proc.devRef .tc main_v67)
      = val_main_v109 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) := by
  show after hostOps2 (W12 m ρ c) (Proc.devRef .tc main_v67) = _
  rw [post_result,
    show W12 m ρ c (Proc.devRef .tc main_v42_0) = Region1.outP (V11 m ρ) c from W12_arr m ρ c 12,
    show W12 m ρ c (Proc.devRef .tc main_v42_1) = Region1.outE (V11 m ρ) c from W12_arr m ρ c 13,
    show W12 m ρ c (Proc.devRef .tc main_arg3) = a3 m c from
      (W12_of_ne m ρ c main_arg3 (by decide)).trans ((pre1_arg3 (W6 m ρ c)).trans ((keep6 m ρ c main_arg3 (by decide)).trans (pre0_arg3 (W0 m ρ c)))),
    show W12 m ρ c (Proc.devRef .tc main_arg4) = a4 m c from
      (W12_of_ne m ρ c main_arg4 (by decide)).trans ((pre1_arg4 (W6 m ρ c)).trans ((keep6 m ρ c main_arg4 (by decide)).trans (pre0_arg4 (W0 m ρ c)))),
    p_ref m ρ c hs, e_ref m ρ c hs]
  exact budget_ref (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c)

end Fold

end Cert.Bridge

end
-- ==== Proof.lean ====
/-
  The certificate of a two-layer GINE network with a budgeted readout.

  The kernel program gathers, per edge, the source node's row (jnp.take), adds the edge term, takes the positive
  part and scatter-adds into the destination nodes on the host, runs the first layer's two dense layers in a first
  kernel region (25 row blocks of 2000 nodes), does the same edge stage for the second layer on the host, runs the
  second layer's dense layers fused with the readout (a dense layer, a linear map, the logistic function, the
  terminal mask, the cost) in a second region, and forms the per-graph budget ratio on the host. The reference does
  all of it on the host. Over the extended reals the two agree stage by stage; the one place where they differ as
  printed is the gather: the kernel's take fills rows whose wrapped source number is outside 0 … 49999 with the
  fill pattern where the reference's indexing clamps, so the precondition says the source rows are in range (the
  reference indexes out of range otherwise). The matrix units' format changes are the identity at the ideal
  instance, and the sums are the same sums, so finiteness of the float inputs is not used.

  The three frames are the generated ones (the reference's is its generated run with the result dropped); there is
  nothing to preserve (no idealization rewrite was applied); the value claim puts the kernel program's run, with its
  result buffer named, beside the reference's run, both at the reference's result stage of the argument arrays.
-/
import proofs.«400881_j31421980738093_3_alg».proof.Defs
import proofs.«400881_j31421980738093_3_alg».proof.Proof.Gen.Kernel
import proofs.«400881_j31421980738093_3_alg».proof.Proof.Gen.Kernel.Skeleton
import proofs.«400881_j31421980738093_3_alg».proof.Proof.Gen.Kernel.Launch
import proofs.«400881_j31421980738093_3_alg».proof.Proof.Gen.Kernel.Points
import proofs.«400881_j31421980738093_3_alg».proof.Proof.Gen.Kernel.Frame
import proofs.«400881_j31421980738093_3_alg».proof.Proof.Gen.KernelIdeal
import proofs.«400881_j31421980738093_3_alg».proof.Proof.Gen.KernelIdeal.Skeleton
import proofs.«400881_j31421980738093_3_alg».proof.Proof.Gen.KernelIdeal.Launch
import proofs.«400881_j31421980738093_3_alg».proof.Proof.Gen.KernelIdeal.Points
import proofs.«400881_j31421980738093_3_alg».proof.Proof.Gen.KernelIdeal.Frame
import proofs.«400881_j31421980738093_3_alg».proof.Proof.Gen.ReferenceIdeal
import proofs.«400881_j31421980738093_3_alg».proof.Proof.Gen.Pre_finite_inputs
import proofs.«400881_j31421980738093_3_alg».proof.Proof.Gen.ReferenceIdeal.Run
import proofs.«400881_j31421980738093_3_alg».proof.Proof.Gen.ReferenceIdeal.Read
import proofs.«400881_j31421980738093_3_alg».proof.Proof.KernelRun
import proofs.«400881_j31421980738093_3_alg».proof.Proof.Bridge
import Idealize.ShloMosaic.Adequacy
import Idealize.ShloMosaic.Init

set_option maxRecDepth 16384

noncomputable section

namespace Cert.Proof

open Idealize.ShloMosaic Idealize.SL.Sem

namespace Claims

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's result stage of the kernel program's argument arrays in their result
    buffers: the kernel program by its run with the result named and the walk through its fold (the source rows
    in range by the precondition), the reference by its generated run, its arguments being the kernel program's. -/
theorem algebraic : Cert.algebraic_KernelIdeal_ReferenceIdeal := by
  intro m ρ m' ρ' hpre hagree
  refine ⟨fun c => Cert.ReferenceIdeal.Read.val_main_v109 (F := Ideal)
    (Cert.Bridge.a0 m c) (Cert.Bridge.a1 m c) (Cert.Bridge.a2 m c) (Cert.Bridge.a3 m c) (Cert.Bridge.a4 m c) (Cert.Bridge.a5 m c) (Cert.Bridge.a6 m c) (Cert.Bridge.a7 m c) (Cert.Bridge.a8 m c) (Cert.Bridge.a9 m c) (Cert.Bridge.a10 m c) (Cert.Bridge.a11 m c) (Cert.Bridge.a12 m c) (Cert.Bridge.a13 m c) (Cert.Bridge.a14 m c) (Cert.Bridge.a15 m c) (Cert.Bridge.a16 m c) (Cert.Bridge.a17 m c) (Cert.Bridge.a18 m c) (Cert.Bridge.a19 m c) (Cert.Bridge.a20 m c) (Cert.Bridge.a21 m c) (Cert.Bridge.a22 m c), ?_, ?_⟩
  · exact (θ_run Cert.KernelIdeal.defs _ _).mono
      (fun r h c => ⟨(h c).1.trans (Cert.Bridge.result_ref m ρ c (Cert.KernelIdeal.TakeRows.src_inRange m hpre c)), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22⟩ := hagree c
    rw [Cert.ReferenceIdeal.Read.val_main_v109_eq, e0, e1, e2, e3, e4, e5, e6, e7, e8, e9, e10, e11, e12, e13, e14, e15, e16, e17,
      e18, e19, e20, e21, e22]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, trivial, Claims.algebraic⟩

end Cert.Proof

end
